-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S1024x768 : Shape := ⟨2, ![1024, 768]⟩
abbrev S768 : Shape := ⟨1, ![768]⟩
abbrev S1024x3456 : Shape := ⟨2, ![1024, 3456]⟩
abbrev S3456 : Shape := ⟨1, ![3456]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x768 : S_.BroadcastsInDim S1024x768 (![] : Fin 0 → Fin S1024x768.rank)
  reducesTo_S1024x768_S_d0_1 : S1024x768.ReducesTo [0, 1] S_
  bcast_S_S768 : S_.BroadcastsInDim S768 (![] : Fin 0 → Fin S768.rank)
  reducesTo_S768_S_d0 : S768.ReducesTo [0] S_
  bcast_S_S1024x3456 : S_.BroadcastsInDim S1024x3456 (![] : Fin 0 → Fin S1024x3456.rank)
  reducesTo_S1024x3456_S_d0_1 : S1024x3456.ReducesTo [0, 1] S_
  bcast_S_S3456 : S_.BroadcastsInDim S3456 (![] : Fin 0 → Fin S3456.rank)
  reducesTo_S3456_S_d0 : S3456.ReducesTo [0] S_

variable [Facts]

def fn_part2 {F : FTy → Type} [FloatOps F] (main_arg7 : FVec F S1024x3456 .f32) (main_arg8 : FVec F S3456 .f32) (main_v33 : IVec S_ 1) : IVec S_ 1 :=
  let main_v34 : FVec F S1024x3456 .f32 := Host.absf main_arg7
  let main_cst_12 : FVec F S_ .f32 := constant S_ .f32 0x7F800000#32
  let main_v35 : FVec F S1024x3456 .f32 := broadcastInDim S1024x3456 ![] bcast_S_S1024x3456 main_cst_12
  let main_v36 : IVec S1024x3456 1 := cmpf .olt main_v34 main_v35
  let main_c_13 : IVec S_ 1 := constantI S_ 1 1#1
  let main_v37 : IVec S_ 1 := (fun x v => Host.reduce IntOp.andi x v reducesTo_S1024x3456_S_d0_1 h_S_) main_v36 main_c_13
  let main_v38 : IVec S_ 1 := andi main_v33 main_v37
  let main_v39 : FVec F S3456 .f32 := Host.absf main_arg8
  let main_cst_14 : FVec F S_ .f32 := constant S_ .f32 0x7F800000#32
  let main_v40 : FVec F S3456 .f32 := broadcastInDim S3456 ![] bcast_S_S3456 main_cst_14
  let main_v41 : IVec S3456 1 := cmpf .olt main_v39 main_v40
  let main_c_15 : IVec S_ 1 := constantI S_ 1 1#1
  let main_v42 : IVec S_ 1 := (fun x v => Host.reduce IntOp.andi x v reducesTo_S3456_S_d0 h_S_) main_v41 main_c_15
  let main_v43 : IVec S_ 1 := andi main_v38 main_v42
  main_v43

def fn_part1 {F : FTy → Type} [FloatOps F] (main_arg4 : FVec F S1024 .f32) (main_arg5 : FVec F S1024x768 .f32) (main_arg6 : FVec F S768 .f32) (main_arg7 : FVec F S1024x3456 .f32) (main_arg8 : FVec F S3456 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x768 .f32 := Host.absf main_arg5
  let main_cst_8 : FVec F S_ .f32 := constant S_ .f32 0x7F800000#32
  let main_v25 : FVec F S1024x768 .f32 := broadcastInDim S1024x768 ![] bcast_S_S1024x768 main_cst_8
  let main_v26 : IVec S1024x768 1 := cmpf .olt main_v24 main_v25
  let main_c_9 : IVec S_ 1 := constantI S_ 1 1#1
  let main_v27 : IVec S_ 1 := (fun x v => Host.reduce IntOp.andi x v reducesTo_S1024x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) (main_arg5 : FVec F S1024x768 .f32) (main_arg6 : FVec F S768 .f32) (main_arg7 : FVec F S1024x3456 .f32) (main_arg8 : FVec F S3456 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x768 : Shape := ⟨2, ![1024, 768]⟩
abbrev S768 : Shape := ⟨1, ![768]⟩
abbrev S1024x3456 : Shape := ⟨2, ![1024, 3456]⟩
abbrev S3456 : Shape := ⟨1, ![3456]⟩
abbrev S8192x96x8 : Shape := ⟨3, ![8192, 96, 8]⟩
abbrev S8192x96x8x8 : Shape := ⟨4, ![8192, 96, 8, 8]⟩
abbrev S64x1024 : Shape := ⟨2, ![64, 1024]⟩
abbrev S64x96x8 : Shape := ⟨3, ![64, 96, 8]⟩
abbrev S64x96x8x8 : Shape := ⟨4, ![64, 96, 8, 8]⟩
abbrev S1x1024 : Shape := ⟨2, ![1, 1024]⟩
abbrev S64x768 : Shape := ⟨2, ![64, 768]⟩
abbrev S1x768 : Shape := ⟨2, ![1, 768]⟩
abbrev S64x3456 : Shape := ⟨2, ![64, 3456]⟩
abbrev S1x3456 : Shape := ⟨2, ![1, 3456]⟩
abbrev S64x96x36 : Shape := ⟨3, ![64, 96, 36]⟩
abbrev S64x96x28 : Shape := ⟨3, ![64, 96, 28]⟩
abbrev S8x8 : Shape := ⟨2, ![8, 8]⟩
abbrev S64x96x8x1 : Shape := ⟨4, ![64, 96, 8, 1]⟩
abbrev S1x1x8x8 : Shape := ⟨4, ![1, 1, 8, 8]⟩
abbrev S64x96x1 : Shape := ⟨3, ![64, 96, 1]⟩
abbrev S64x96x7 : Shape := ⟨3, ![64, 96, 7]⟩
abbrev S64x96x6 : Shape := ⟨3, ![64, 96, 6]⟩
abbrev S64x96x2 : Shape := ⟨3, ![64, 96, 2]⟩
abbrev S64x96x5 : Shape := ⟨3, ![64, 96, 5]⟩
abbrev S64x96x3 : Shape := ⟨3, ![64, 96, 3]⟩
abbrev S64x96x4 : Shape := ⟨3, ![64, 96, 4]⟩
abbrev S64x96x1x8 : Shape := ⟨4, ![64, 96, 1, 8]⟩
abbrev S64x96 : Shape := ⟨2, ![64, 96]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x768, .f32⟩
  | .hbm, ⟨6, _⟩ => ⟨S768, .f32⟩
  | .hbm, ⟨7, _⟩ => ⟨S1024x3456, .f32⟩
  | .hbm, ⟨8, _⟩ => ⟨S3456, .f32⟩
  | .hbm, ⟨9, _⟩ => ⟨S1024x1024, .bf16⟩
  | .hbm, ⟨10, _⟩ => ⟨S1024x1024, .bf16⟩
  | .hbm, ⟨11, _⟩ => ⟨S1024x768, .bf16⟩
  | .hbm, ⟨12, _⟩ => ⟨S1024x3456, .bf16⟩
  | .hbm, ⟨13, _⟩ => ⟨S8192x96x8, .f32⟩
  | .hbm, ⟨14, _⟩ => ⟨S8192x96x8x8, .f32⟩
  | .hbm, ⟨15, _⟩ => ⟨S8192x96x8x8, .f32⟩
  | .hbm, ⟨16, _⟩ => ⟨S8192x96x8x8, .f32⟩
  | .local _ .vmem, ⟨0, _⟩ => ⟨S64x1024, .f32⟩
  | .local _ .vmem, ⟨1, _⟩ => ⟨S64x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x768, .bf16⟩
  | .local _ .vmem, ⟨7, _⟩ => ⟨S768, .f32⟩
  | .local _ .vmem, ⟨8, _⟩ => ⟨S1024x3456, .bf16⟩
  | .local _ .vmem, ⟨9, _⟩ => ⟨S3456, .f32⟩
  | .local _ .vmem, ⟨10, _⟩ => ⟨S64x96x8, .f32⟩
  | .local _ .vmem, ⟨11, _⟩ => ⟨S64x96x8, .f32⟩
  | .local _ .vmem, ⟨12, _⟩ => ⟨S64x96x8x8, .f32⟩
  | .local _ .vmem, ⟨13, _⟩ => ⟨S64x96x8x8, .f32⟩
  | .local _ .vmem, ⟨14, _⟩ => ⟨S64x96x8x8, .f32⟩
  | .local _ .vmem, ⟨15, _⟩ => ⟨S64x96x8x8, .f32⟩
  | .local _ .vmem, ⟨16, _⟩ => ⟨S64x96x8x8, .f32⟩
  | .local _ .vmem, ⟨17, _⟩ => ⟨S64x96x8x8, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3456 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3456 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x96x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x96x8x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x96x8x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x96x8x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768_S768_0 : ∀ a, (![0] : Fin 1 → Nat) a + S768.size a ≤ S768.size a
  h_S768 : 0 < S768.numel
  shapeCasts_S768_S1x768 : S768.ShapeCasts S1x768
  broadcasts_S1x768_S64x768 : S1x768.Broadcasts S64x768
  inb_S1024x3456_S1024x3456_0_0 : ∀ a, (![0, 0] : Fin 2 → Nat) a + S1024x3456.size a ≤ S1024x3456.size a
  h_S1024x3456 : 0 < S1024x3456.numel
  shapeCasts_S1024x3456_S1024x3456 : S1024x3456.ShapeCasts S1024x3456
  inb_S3456_S3456_0 : ∀ a, (![0] : Fin 1 → Nat) a + S3456.size a ≤ S3456.size a
  h_S3456 : 0 < S3456.numel
  shapeCasts_S3456_S1x3456 : S3456.ShapeCasts S1x3456
  broadcasts_S1x3456_S64x3456 : S1x3456.Broadcasts S64x3456
  shapeCasts_S64x768_S64x96x8 : S64x768.ShapeCasts S64x96x8
  shapeCasts_S64x3456_S64x96x36 : S64x3456.ShapeCasts S64x96x36
  slices_S64x96x36_o0_0_0_S64x96x8 : S64x96x36.Slices ![0, 0, 0] S64x96x8
  slices_S64x96x36_o0_0_8_S64x96x28 : S64x96x36.Slices ![0, 0, 8] S64x96x28
  iota_S8x8_d0_w32 : S8x8.Iotas .tc 32 [0]
  iota_S8x8_d1_w32 : S8x8.Iotas .tc 32 [1]
  natLt_1_32 : 1 < 32
  shapeCasts_S64x96x8_S64x96x8x1 : S64x96x8.ShapeCasts S64x96x8x1
  shapeCasts_S8x8_S1x1x8x8 : S8x8.ShapeCasts S1x1x8x8
  broadcasts_S64x96x8x1_S64x96x8x8 : S64x96x8x1.Broadcasts S64x96x8x8
  broadcasts_S1x1x8x8_S64x96x8x8 : S1x1x8x8.Broadcasts S64x96x8x8
  slices_S64x96x28_o0_0_0_S64x96x7 : S64x96x28.Slices ![0, 0, 0] S64x96x7
  concatenates_S64x96x1_S64x96x7_S64x96x8_d2 : Shape.Concatenates [S64x96x1, S64x96x7] S64x96x8 2
  slices_S64x96x28_o0_0_7_S64x96x6 : S64x96x28.Slices ![0, 0, 7] S64x96x6
  concatenates_S64x96x1_S64x96x1_S64x96x6_S64x96x8_d2 : Shape.Concatenates [S64x96x1, S64x96x1, S64x96x6] S64x96x8 2
  slices_S64x96x28_o0_0_13_S64x96x5 : S64x96x28.Slices ![0, 0, 13] S64x96x5
  concatenates_S64x96x2_S64x96x1_S64x96x5_S64x96x8_d2 : Shape.Concatenates [S64x96x2, S64x96x1, S64x96x5] S64x96x8 2
  slices_S64x96x28_o0_0_18_S64x96x4 : S64x96x28.Slices ![0, 0, 18] S64x96x4
  concatenates_S64x96x3_S64x96x1_S64x96x4_S64x96x8_d2 : Shape.Concatenates [S64x96x3, S64x96x1, S64x96x4] S64x96x8 2
  slices_S64x96x28_o0_0_22_S64x96x3 : S64x96x28.Slices ![0, 0, 22] S64x96x3
  concatenates_S64x96x4_S64x96x1_S64x96x3_S64x96x8_d2 : Shape.Concatenates [S64x96x4, S64x96x1, S64x96x3] S64x96x8 2
  slices_S64x96x28_o0_0_25_S64x96x2 : S64x96x28.Slices ![0, 0, 25] S64x96x2
  concatenates_S64x96x5_S64x96x1_S64x96x2_S64x96x8_d2 : Shape.Concatenates [S64x96x5, S64x96x1, S64x96x2] S64x96x8 2
  slices_S64x96x28_o0_0_27_S64x96x1 : S64x96x28.Slices ![0, 0, 27] S64x96x1
  concatenates_S64x96x6_S64x96x1_S64x96x1_S64x96x8_d2 : Shape.Concatenates [S64x96x6, S64x96x1, S64x96x1] S64x96x8 2
  concatenates_S64x96x7_S64x96x1_S64x96x8_d2 : Shape.Concatenates [S64x96x7, S64x96x1] S64x96x8 2
  shapeCasts_S64x96x8_S64x96x1x8 : S64x96x8.ShapeCasts S64x96x1x8
  concatenates_S64x96x1x8_S64x96x1x8_S64x96x1x8_S64x96x1x8_S64x96x1x8_S64x96x1x8_S64x96x1x8_S64x96x1x8_S64x96x8x8_d2 : Shape.Concatenates [S64x96x1x8, S64x96x1x8, S64x96x1x8, S64x96x1x8, S64x96x1x8, S64x96x1x8, S64x96x1x8, S64x96x1x8] S64x96x8x8 2
  slices_S64x96x8x8_o0_0_0_0_S64x96x1x8 : S64x96x8x8.Slices ![0, 0, 0, 0] S64x96x1x8
  shapeCasts_S64x96x1x8_S64x96x8 : S64x96x1x8.ShapeCasts S64x96x8
  slices_S64x96x8_o0_0_0_S64x96x1 : S64x96x8.Slices ![0, 0, 0] S64x96x1
  shapeCasts_S64x96x1_S64x96 : S64x96x1.ShapeCasts S64x96
  shapeCasts_S64x96_S64x96x1 : S64x96.ShapeCasts S64x96x1
  broadcasts_S64x96x1_S64x96x8 : S64x96x1.Broadcasts S64x96x8
  broadcasts_S64x96x1x8_S64x96x8x8 : S64x96x1x8.Broadcasts S64x96x8x8
  slices_S64x96x8x8_o0_0_1_0_S64x96x1x8 : S64x96x8x8.Slices ![0, 0, 1, 0] S64x96x1x8
  slices_S64x96x8_o0_0_1_S64x96x1 : S64x96x8.Slices ![0, 0, 1] S64x96x1
  slices_S64x96x8x8_o0_0_2_0_S64x96x1x8 : S64x96x8x8.Slices ![0, 0, 2, 0] S64x96x1x8
  slices_S64x96x8_o0_0_2_S64x96x1 : S64x96x8.Slices ![0, 0, 2] S64x96x1
  slices_S64x96x8x8_o0_0_3_0_S64x96x1x8 : S64x96x8x8.Slices ![0, 0, 3, 0] S64x96x1x8
  slices_S64x96x8_o0_0_3_S64x96x1 : S64x96x8.Slices ![0, 0, 3] S64x96x1
  slices_S64x96x8x8_o0_0_4_0_S64x96x1x8 : S64x96x8x8.Slices ![0, 0, 4, 0] S64x96x1x8
  slices_S64x96x8_o0_0_4_S64x96x1 : S64x96x8.Slices ![0, 0, 4] S64x96x1
  slices_S64x96x8x8_o0_0_5_0_S64x96x1x8 : S64x96x8x8.Slices ![0, 0, 5, 0] S64x96x1x8
  slices_S64x96x8_o0_0_5_S64x96x1 : S64x96x8.Slices ![0, 0, 5] S64x96x1
  slices_S64x96x8x8_o0_0_6_0_S64x96x1x8 : S64x96x8x8.Slices ![0, 0, 6, 0] S64x96x1x8
  slices_S64x96x8_o0_0_6_S64x96x1 : S64x96x8.Slices ![0, 0, 6] S64x96x1
  slices_S64x96x8x8_o0_0_7_0_S64x96x1x8 : S64x96x8x8.Slices ![0, 0, 7, 0] S64x96x1x8
  slices_S64x96x8_o0_0_7_S64x96x1 : S64x96x8.Slices ![0, 0, 7] S64x96x1
  inb_S64x96x8_S64x96x8_0_0_0 : ∀ a, (![0, 0, 0] : Fin 3 → Nat) a + S64x96x8.size a ≤ S64x96x8.size a
  h_S64x96x8 : 0 < S64x96x8.numel
  inb_S64x96x8x8_S64x96x8x8_0_0_0_0 : ∀ a, (![0, 0, 0, 0] : Fin 4 → Nat) a + S64x96x8x8.size a ≤ S64x96x8x8.size a
  h_S64x96x8x8 : 0 < S64x96x8x8.numel
  dot_S64x1024_S1024x1024_S64x1024_1_0_0_1_n_n_wf : DotDims.WF S64x1024 S1024x1024 S64x1024 [1] [0] [0] [1] [] []
  dot_S64x1024_S1024x768_S64x768_1_0_0_1_n_n_wf : DotDims.WF S64x1024 S1024x768 S64x768 [1] [0] [0] [1] [] []
  dot_S64x1024_S1024x3456_S64x3456_1_0_0_1_n_n_wf : DotDims.WF S64x1024 S1024x3456 S64x3456 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S8192x1024.size a
  hwx0_0 : ∀ i : grid0.Coords, EltTy.bits .f32 = 32 ∨ (Rect.block (s := S8192x1024) S64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S1024x768.size a
  hwx0_5 : ∀ i : grid0.Coords, EltTy.bits .bf16 = 32 ∨ (Rect.block (s := S1024x768) S1024x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x3456.size a ≤ S1024x3456.size a
  hwx0_7 : ∀ i : grid0.Coords, EltTy.bits .bf16 = 32 ∨ (Rect.block (s := S1024x3456) S1024x3456.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3456.size a ≤ S3456.size a
  hwx0_8 : ∀ i : grid0.Coords, EltTy.bits .f32 = 32 ∨ (Rect.block (s := S3456) S3456.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x96x8.size a ≤ S8192x96x8.size a
  hwx0_9 : ∀ i : grid0.Coords, EltTy.bits .f32 = 32 ∨ (Rect.block (s := S8192x96x8) S64x96x8.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x96x8x8.size a ≤ S8192x96x8x8.size a
  hwx0_10 : ∀ i : grid0.Coords, EltTy.bits .f32 = 32 ∨ (Rect.block (s := S8192x96x8x8) S64x96x8x8.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x96x8x8.size a ≤ S8192x96x8x8.size a
  hwx0_11 : ∀ i : grid0.Coords, EltTy.bits .f32 = 32 ∨ (Rect.block (s := S8192x96x8x8) S64x96x8x8.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x96x8x8.size a ≤ S8192x96x8x8.size a
  hwx0_12 : ∀ i : grid0.Coords, EltTy.bits .f32 = 32 ∨ (Rect.block (s := S8192x96x8x8) S64x96x8x8.size (cc0_transform_12 i) (hinb0_12 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x768_S64x768_1_0_0_1_n_n : DotDims S64x1024 S1024x768 S64x768 where
  lhsContracting := [1]
  rhsContracting := [0]
  lhsNonContracting := [0]
  rhsNonContracting := [1]
  lhsBatch := []
  rhsBatch := []
  wf := dot_S64x1024_S1024x768_S64x768_1_0_0_1_n_n_wf
def dot_S64x1024_S1024x3456_S64x3456_1_0_0_1_n_n : DotDims S64x1024 S1024x3456 S64x3456 where
  lhsContracting := [1]
  rhsContracting := [0]
  lhsNonContracting := [0]
  rhsNonContracting := [1]
  lhsBatch := []
  rhsBatch := []
  wf := dot_S64x1024_S1024x3456_S64x3456_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x3456.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3456.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S64x96x8.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S64x96x8x8.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S64x96x8x8.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_3) S64x96x8x8.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x768 : Shape := ⟨2, ![1024, 768]⟩
abbrev S768 : Shape := ⟨1, ![768]⟩
abbrev S1024x3456 : Shape := ⟨2, ![1024, 3456]⟩
abbrev S3456 : Shape := ⟨1, ![3456]⟩
abbrev S28 : Shape := ⟨1, ![28]⟩
abbrev S1x1024 : Shape := ⟨2, ![1, 1024]⟩
abbrev S_ : Shape := ⟨0, ![]⟩
abbrev S8192x768 : Shape := ⟨2, ![8192, 768]⟩
abbrev S1x768 : Shape := ⟨2, ![1, 768]⟩
abbrev S8192x96x8 : Shape := ⟨3, ![8192, 96, 8]⟩
abbrev S8192x3456 : Shape := ⟨2, ![8192, 3456]⟩
abbrev S1x3456 : Shape := ⟨2, ![1, 3456]⟩
abbrev S8192x96x36 : Shape := ⟨3, ![8192, 96, 36]⟩
abbrev S8192x96x28 : Shape := ⟨3, ![8192, 96, 28]⟩
abbrev S8x8 : Shape := ⟨2, ![8, 8]⟩
abbrev S8192x96x8x1 : Shape := ⟨4, ![8192, 96, 8, 1]⟩
abbrev S1x1x8x8 : Shape := ⟨4, ![1, 1, 8, 8]⟩
abbrev S8192x96x8x8 : Shape := ⟨4, ![8192, 96, 8, 8]⟩
abbrev S28x1 : Shape := ⟨2, ![28, 1]⟩
abbrev S28x2 : Shape := ⟨2, ![28, 2]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x768, .f32⟩
  | .hbm, ⟨6, _⟩ => ⟨S768, .f32⟩
  | .hbm, ⟨7, _⟩ => ⟨S1024x3456, .f32⟩
  | .hbm, ⟨8, _⟩ => ⟨S3456, .f32⟩
  | .hbm, ⟨9, _⟩ => ⟨S28, .i32⟩
  | .hbm, ⟨10, _⟩ => ⟨S28, .i1⟩
  | .hbm, ⟨11, _⟩ => ⟨S28, .i32⟩
  | .hbm, ⟨12, _⟩ => ⟨S28, .i1⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x768, .f32⟩
  | .hbm, ⟨31, _⟩ => ⟨S1x768, .f32⟩
  | .hbm, ⟨32, _⟩ => ⟨S8192x768, .f32⟩
  | .hbm, ⟨33, _⟩ => ⟨S8192x768, .f32⟩
  | .hbm, ⟨34, _⟩ => ⟨S8192x96x8, .f32⟩
  | .hbm, ⟨35, _⟩ => ⟨S8192x3456, .f32⟩
  | .hbm, ⟨36, _⟩ => ⟨S1x3456, .f32⟩
  | .hbm, ⟨37, _⟩ => ⟨S8192x3456, .f32⟩
  | .hbm, ⟨38, _⟩ => ⟨S8192x3456, .f32⟩
  | .hbm, ⟨39, _⟩ => ⟨S8192x96x36, .f32⟩
  | .hbm, ⟨40, _⟩ => ⟨S8192x96x8, .f32⟩
  | .hbm, ⟨41, _⟩ => ⟨S8192x96x28, .f32⟩
  | .hbm, ⟨42, _⟩ => ⟨S_, .f32⟩
  | .hbm, ⟨43, _⟩ => ⟨S8192x96x8, .f32⟩
  | .hbm, ⟨44, _⟩ => ⟨S8192x96x8, .f32⟩
  | .hbm, ⟨45, _⟩ => ⟨S8192x96x8, .f32⟩
  | .hbm, ⟨46, _⟩ => ⟨S8x8, .i32⟩
  | .hbm, ⟨47, _⟩ => ⟨S8x8, .i32⟩
  | .hbm, ⟨48, _⟩ => ⟨S_, .i32⟩
  | .hbm, ⟨49, _⟩ => ⟨S8x8, .i32⟩
  | .hbm, ⟨50, _⟩ => ⟨S8x8, .i32⟩
  | .hbm, ⟨51, _⟩ => ⟨S8x8, .i1⟩
  | .hbm, ⟨52, _⟩ => ⟨S8x8, .f32⟩
  | .hbm, ⟨53, _⟩ => ⟨S8192x96x8x1, .f32⟩
  | .hbm, ⟨54, _⟩ => ⟨S1x1x8x8, .f32⟩
  | .hbm, ⟨55, _⟩ => ⟨S8192x96x8x8, .f32⟩
  | .hbm, ⟨56, _⟩ => ⟨S8192x96x8x8, .f32⟩
  | .hbm, ⟨57, _⟩ => ⟨S8192x96x8x8, .f32⟩
  | .hbm, ⟨58, _⟩ => ⟨S_, .f32⟩
  | .hbm, ⟨59, _⟩ => ⟨S8192x96x8, .f32⟩
  | .hbm, ⟨60, _⟩ => ⟨S8192x96x8, .f32⟩
  | .hbm, ⟨61, _⟩ => ⟨S8192x96x8x1, .f32⟩
  | .hbm, ⟨62, _⟩ => ⟨S8192x96x8x8, .f32⟩
  | .hbm, ⟨63, _⟩ => ⟨S_, .i32⟩
  | .hbm, ⟨64, _⟩ => ⟨S28, .i32⟩
  | .hbm, ⟨65, _⟩ => ⟨S28, .i32⟩
  | .hbm, ⟨66, _⟩ => ⟨S28, .i32⟩
  | .hbm, ⟨67, _⟩ => ⟨S_, .i32⟩
  | .hbm, ⟨68, _⟩ => ⟨S28, .i32⟩
  | .hbm, ⟨69, _⟩ => ⟨S28, .i32⟩
  | .hbm, ⟨70, _⟩ => ⟨S28, .i32⟩
  | .hbm, ⟨71, _⟩ => ⟨S28x1, .i32⟩
  | .hbm, ⟨72, _⟩ => ⟨S28x1, .i32⟩
  | .hbm, ⟨73, _⟩ => ⟨S28x2, .i32⟩
  | .hbm, ⟨74, _⟩ => ⟨S8192x96x8x8, .f32⟩
  | .hbm, ⟨75, _⟩ => ⟨S8192x96x8x8, .f32⟩
  | .hbm, ⟨76, _⟩ => ⟨S8192x96x8x8, .f32⟩
  | .hbm, ⟨77, _⟩ => ⟨S8192x96x8x8, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S768_S1x768_1 : S768.BroadcastsInDim S1x768 (![1] : Fin 1 → Fin S1x768.rank)
  bcast_S1x768_S8192x768_0_1 : S1x768.BroadcastsInDim S8192x768 (![0, 1] : Fin 2 → Fin S8192x768.rank)
  shapeCasts_S8192x768_S8192x96x8 : S8192x768.ShapeCasts S8192x96x8
  bcast_S3456_S1x3456_1 : S3456.BroadcastsInDim S1x3456 (![1] : Fin 1 → Fin S1x3456.rank)
  bcast_S1x3456_S8192x3456_0_1 : S1x3456.BroadcastsInDim S8192x3456 (![0, 1] : Fin 2 → Fin S8192x3456.rank)
  shapeCasts_S8192x3456_S8192x96x36 : S8192x3456.ShapeCasts S8192x96x36
  slices_S8192x96x36_S8192x96x8_0_0_0 : S8192x96x36.Slices ![0, 0, 0] S8192x96x8
  slices_S8192x96x36_S8192x96x28_0_0_8 : S8192x96x36.Slices ![0, 0, 8] S8192x96x28
  bcast_S_S8192x96x8 : S_.BroadcastsInDim S8192x96x8 (![] : Fin 0 → Fin S8192x96x8.rank)
  bcast_S_S8x8 : S_.BroadcastsInDim S8x8 (![] : Fin 0 → Fin S8x8.rank)
  bcast_S8192x96x8_S8192x96x8x1_0_1_2 : S8192x96x8.BroadcastsInDim S8192x96x8x1 (![0, 1, 2] : Fin 3 → Fin S8192x96x8x1.rank)
  bcast_S8x8_S1x1x8x8_2_3 : S8x8.BroadcastsInDim S1x1x8x8 (![2, 3] : Fin 2 → Fin S1x1x8x8.rank)
  bcast_S8192x96x8x1_S8192x96x8x8_0_1_2_3 : S8192x96x8x1.BroadcastsInDim S8192x96x8x8 (![0, 1, 2, 3] : Fin 4 → Fin S8192x96x8x8.rank)
  bcast_S1x1x8x8_S8192x96x8x8_0_1_2_3 : S1x1x8x8.BroadcastsInDim S8192x96x8x8 (![0, 1, 2, 3] : Fin 4 → Fin S8192x96x8x8.rank)
  bcast_S8x8_S8192x96x8x8_2_3 : S8x8.BroadcastsInDim S8192x96x8x8 (![2, 3] : Fin 2 → Fin S8192x96x8x8.rank)
  bcast_S_S28 : S_.BroadcastsInDim S28 (![] : Fin 0 → Fin S28.rank)
  bcast_S28_S28x1_0 : S28.BroadcastsInDim S28x1 (![0] : Fin 1 → Fin S28x1.rank)
  concatenates_S28x1_S28x1_S28x2_d1 : Shape.Concatenates [S28x1, S28x1] S28x2 1
  dot_S8192x1024_S1024x1024_S8192x1024_1_0_0_1_n_n_wf : DotDims.WF S8192x1024 S1024x1024 S8192x1024 [1] [0] [0] [1] [] []
  dot_S8192x1024_S1024x768_S8192x768_1_0_0_1_n_n_wf : DotDims.WF S8192x1024 S1024x768 S8192x768 [1] [0] [0] [1] [] []
  dot_S8192x1024_S1024x3456_S8192x3456_1_0_0_1_n_n_wf : DotDims.WF S8192x1024 S1024x3456 S8192x3456 [1] [0] [0] [1] [] []
  scatter_S8192x96x8x8_S28x2_S8192x96x28_01_23_23_1_wf : ScatterDims.WF S8192x96x8x8 S28x2 S8192x96x28 [0, 1] [2, 3] [2, 3] 1
  dot_S8192x96x8x8_S8192x96x8x8_S8192x96x8x8_2_2_3_3_01_01_wf : DotDims.WF S8192x96x8x8 S8192x96x8x8 S8192x96x8x8 [2] [2] [3] [3] [0, 1] [0, 1]

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x768_S8192x768_1_0_0_1_n_n : DotDims S8192x1024 S1024x768 S8192x768 where
  lhsContracting := [1]
  rhsContracting := [0]
  lhsNonContracting := [0]
  rhsNonContracting := [1]
  lhsBatch := []
  rhsBatch := []
  wf := dot_S8192x1024_S1024x768_S8192x768_1_0_0_1_n_n_wf
def dot_S8192x1024_S1024x3456_S8192x3456_1_0_0_1_n_n : DotDims S8192x1024 S1024x3456 S8192x3456 where
  lhsContracting := [1]
  rhsContracting := [0]
  lhsNonContracting := [0]
  rhsNonContracting := [1]
  lhsBatch := []
  rhsBatch := []
  wf := dot_S8192x1024_S1024x3456_S8192x3456_1_0_0_1_n_n_wf
def scatter_S8192x96x8x8_S28x2_S8192x96x28_01_23_23_1 : ScatterDims S8192x96x8x8 S28x2 S8192x96x28 where
  updateWindowDims := [0, 1]
  insertedWindowDims := [2, 3]
  scatterDimsToOperandDims := [2, 3]
  indexVectorDim := 1
  wf := scatter_S8192x96x8x8_S28x2_S8192x96x28_01_23_23_1_wf
def dot_S8192x96x8x8_S8192x96x8x8_S8192x96x8x8_2_2_3_3_01_01 : DotDims S8192x96x8x8 S8192x96x8x8 S8192x96x8x8 where
  lhsContracting := [2]
  rhsContracting := [2]
  lhsNonContracting := [3]
  rhsNonContracting := [3]
  lhsBatch := [0, 1]
  rhsBatch := [0, 1]
  wf := dot_S8192x96x8x8_S8192x96x8x8_S8192x96x8x8_2_2_3_3_01_01_wf

class Facts : Prop extends Facts₀ where

variable [Facts]
-- ==== Proof.KerDefs.lean ====
/-
  Names for the kernel body's values that the four stored blocks are made of: the block of T from the block of
  triangle parameters, and the block of the precision from the block of exp(-e/2) and the triangle parameters.
-/
import proofs.«157539_j10067403341934_1_alg».proof.Proof.Gen.KernelIdeal.Skeleton
import Idealize.ShloMosaic.PureOps.Ideal

noncomputable section

namespace Cert.KernelIdeal.Hand

open Cert.KernelIdeal Cert.KernelIdeal.Gen Idealize.ShloMosaic

/-- The block of T: its eight rows, each a concatenation of zeros, a one and a stretch of the parameters, stacked. -/
abbrev kT (u : FVec Ideal S64x96x28 .f32) : FVec Ideal S64x96x8x8 .f32 :=
  k0_pay17 (k0_pay9 u) (k0_pay10 u) (k0_pay11 u) (k0_pay12 u) (k0_pay13 u) (k0_pay14 u) (k0_pay15 u) (k0_pay16 (F := Ideal))

/-- The block of the precision: the sum over the eight rows of T of the row's outer product with itself scaled by w. -/
abbrev kPrec (w : FVec Ideal S64x96x8 .f32) (u : FVec Ideal S64x96x28 .f32) : FVec Ideal S64x96x8x8 .f32 :=
  k0_pay22 w (kT u)
    (k0_pay18 w (k0_pay9 u) (k0_pay10 u) (k0_pay11 u) (k0_pay12 u) (k0_pay13 u) (k0_pay14 u) (k0_pay15 u) (k0_pay16 (F := Ideal)))
    (k0_pay20 w (k0_pay9 u) (k0_pay10 u) (k0_pay11 u) (k0_pay12 u) (k0_pay13 u) (k0_pay14 u) (k0_pay15 u) (k0_pay16 (F := Ideal)))
    (k0_pay21 (k0_pay9 u) (k0_pay10 u) (k0_pay11 u) (k0_pay12 u) (k0_pay13 u) (k0_pay14 u) (k0_pay15 u) (k0_pay16 (F := Ideal)))

end Cert.KernelIdeal.Hand

end
-- ==== Proof.Spec.lean ====
/-
  What both programs compute, written once as functions of ONE input row.

  A row x of 1024 numbers goes through a two-layer network: a = x·W1 + b1, s = a·σ(a) with σ the logistic
  function, h = s·W2 + b2; two linear heads read h: the means  h·Wm + bm  (768 numbers, read as 96 groups of 8)
  and the parameters  h·Wv + bv  (3456 numbers, read as 96 groups of 36: 8 log-variances e then the 28 entries
  of a strict upper triangle).  Per group: D = diag(exp(e/2)); T the unit upper triangular matrix with the 28
  parameters row by row above the diagonal; and the precision  Tᵀ · diag(exp(-e/2)) · T.

  The one law used between the two programs: exp(-x/2) = 1 / exp(x/2) on every extended real, the infinities
  included (exp(-∞) = 0 and 1/0 = +∞, exp(+∞) = +∞ and 1/+∞ = 0).
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx

/-! ## The words of the constants -/

/-- The word of 1.0. -/
abbrev oneW : EReal := Ideal.ofBits .f32 0x3F800000#32
/-- The word of 0.5. -/
abbrev halfW : EReal := Ideal.ofBits .f32 0x3F000000#32
/-- The word of -0.5. -/
abbrev mhalfW : EReal := Ideal.ofBits .f32 0xBF000000#32

theorem oneW_eq : oneW = 1 := by
  show Ideal.ofBits .f32 0x3F800000#32 = 1
  rw [← EReal.coe_one]
  simp [Ideal.ofBits, Ideal.ieee, -EReal.coe_mul, -EReal.coe_one]
  norm_num

theorem halfW_eq : halfW = ((1 / 2 : ℝ) : EReal) := by
  show Ideal.ofBits .f32 0x3F000000#32 = _
  simp [Ideal.ofBits, Ideal.ieee, -EReal.coe_mul]
  norm_num

theorem mhalfW_eq : mhalfW = ((-(1 / 2) : ℝ) : EReal) := by
  show Ideal.ofBits .f32 0xBF000000#32 = _
  simp [Ideal.ofBits, Ideal.ieee, -EReal.coe_mul]
  norm_num

/-- exp(-x/2) is the reciprocal of exp(x/2), at the infinities too. -/
theorem inv_exp_half (x : EReal) : Ideal.div oneW (Ideal.exp (halfW * x)) = Ideal.exp (mhalfW * x) := by
  rw [oneW_eq, halfW_eq, mhalfW_eq]
  induction x using EReal.rec with
  | bot =>
    rw [EReal.coe_mul_bot_of_pos (by norm_num), EReal.coe_mul_bot_of_neg (by norm_num), Ideal.exp_bot, Ideal.exp_top,
      Ideal.div, if_pos rfl, if_pos zero_lt_one]
  | top =>
    rw [EReal.coe_mul_top_of_pos (by norm_num), EReal.coe_mul_top_of_neg (by norm_num), Ideal.exp_bot, Ideal.exp_top,
      Ideal.div, if_neg (by simp), EReal.inv_top, mul_zero]
  | coe r =>
    rw [← EReal.coe_mul, ← EReal.coe_mul, Ideal.exp_coe, Ideal.exp_coe, Ideal.div_coe (Real.exp_ne_zero _), one_mul]
    congr 1
    rw [one_div, ← Real.exp_neg]
    congr 1
    ring

/-! ## The network on one row -/

section Net
variable (W1 : (⟨2, ![1024, 1024]⟩ : Shape).Idx → EReal) (b1 : (⟨1, ![1024]⟩ : Shape).Idx → EReal)
  (W2 : (⟨2, ![1024, 1024]⟩ : Shape).Idx → EReal) (b2 : (⟨1, ![1024]⟩ : Shape).Idx → EReal)

/-- First layer before the activation: entry k of x·W1 + b1. -/
def pre (x : Fin 1024 → EReal) (k : Fin 1024) : EReal := (∑ j : Fin 1024, x j * W1 (ix2 j k)) + b1 (ix1 k)

/-- a·σ(a), the logistic function as 1 / (1 + exp(-a)). -/
def swish (a : EReal) : EReal := a * Ideal.logistic a

/-- Second layer: entry n of s·W2 + b2. -/
def hid (x : Fin 1024 → EReal) (n : Fin 1024) : EReal :=
  (∑ k : Fin 1024, swish (pre W1 b1 x k) * W2 (ix2 k n)) + b2 (ix1 n)

/-- A linear head of width N on the hidden row: entry c of h·W + b. -/
def head {N : Nat} (W : (⟨2, ![1024, N]⟩ : Shape).Idx → EReal) (b : (⟨1, ![N]⟩ : Shape).Idx → EReal)
    (x : Fin 1024 → EReal) (c : Fin N) : EReal :=
  (∑ n : Fin 1024, hid W1 b1 W2 b2 x n * W (ix2 n c)) + b (ix1 c)

end Net

/-! ## One group's matrices -/

/-- The identity matrix's entry. -/
def eye (i k : Fin 8) : EReal := if i = k then 1 else 0

/-- Where row i of the packed strict upper triangle starts. -/
def rowStart : Fin 8 → Nat := ![0, 7, 13, 18, 22, 25, 27, 28]

theorem tri_lt : ∀ i k : Fin 8, i.val < k.val → rowStart i + (k.val - i.val - 1) < 28 := by decide

/-- The place of entry (i, k), i < k, in the packed strict upper triangle (rows in order, columns in order). -/
def tri (i k : Fin 8) (h : i.val < k.val) : Fin 28 := ⟨rowStart i + (k.val - i.val - 1), tri_lt i k h⟩

/-- D = diag(exp(e/2)): entry (i, k). -/
def Dent (e : Fin 8 → EReal) (i k : Fin 8) : EReal := Ideal.exp (halfW * e i) * eye i k

/-- T: ones on the diagonal, the packed parameters above it, zeros below: entry (i, k). -/
def Tent (u : Fin 28 → EReal) (i k : Fin 8) : EReal :=
  if h : i.val < k.val then u (tri i k h) else if i = k then 1 else 0

/-- Tᵀ · diag(w) · T: entry (i, k) is the sum over rows j of T(j, i) · (T(j, k) · w(j)). -/
def Pent (T : Fin 8 → Fin 8 → EReal) (w : Fin 8 → EReal) (i k : Fin 8) : EReal :=
  ∑ j : Fin 8, T j i * (T j k * w j)

/-! ## The four results for one row -/

section Out
variable (W1 : (⟨2, ![1024, 1024]⟩ : Shape).Idx → EReal) (b1 : (⟨1, ![1024]⟩ : Shape).Idx → EReal)
  (W2 : (⟨2, ![1024, 1024]⟩ : Shape).Idx → EReal) (b2 : (⟨1, ![1024]⟩ : Shape).Idx → EReal)
  (Wm : (⟨2, ![1024, 768]⟩ : Shape).Idx → EReal) (bm : (⟨1, ![768]⟩ : Shape).Idx → EReal)
  (Wv : (⟨2, ![1024, 3456]⟩ : Shape).Idx → EReal) (bv : (⟨1, ![3456]⟩ : Shape).Idx → EReal)

/-- Mean o of group f. -/
def meanE (x : Fin 1024 → EReal) (f : Fin 96) (o : Fin 8) : EReal :=
  head W1 b1 W2 b2 Wm bm x ⟨f.val * 8 + o.val, by have := f.isLt; have := o.isLt; omega⟩

/-- Parameter q (of 36) of group f. -/
def parE (x : Fin 1024 → EReal) (f : Fin 96) (q : Fin 36) : EReal :=
  head W1 b1 W2 b2 Wv bv x ⟨f.val * 36 + q.val, by have := f.isLt; have := q.isLt; omega⟩

/-- Log-variance o of group f: the group's first 8 parameters. -/
def lvE (x : Fin 1024 → EReal) (f : Fin 96) (o : Fin 8) : EReal :=
  parE W1 b1 W2 b2 Wv bv x f ⟨o.val, by have := o.isLt; omega⟩

/-- Triangle parameter n of group f: the group's last 28 parameters. -/
def utE (x : Fin 1024 → EReal) (f : Fin 96) (n : Fin 28) : EReal :=
  parE W1 b1 W2 b2 Wv bv x f ⟨8 + n.val, by have := n.isLt; omega⟩

def DE (x : Fin 1024 → EReal) (f : Fin 96) (i k : Fin 8) : EReal := Dent (lvE W1 b1 W2 b2 Wv bv x f) i k

def TE (x : Fin 1024 → EReal) (f : Fin 96) (i k : Fin 8) : EReal := Tent (utE W1 b1 W2 b2 Wv bv x f) i k

def PE (x : Fin 1024 → EReal) (f : Fin 96) (i k : Fin 8) : EReal :=
  Pent (TE W1 b1 W2 b2 Wv bv x f) (fun j => Ideal.exp (mhalfW * lvE W1 b1 W2 b2 Wv bv x f j)) i k

end Out

/-! ## The four whole arrays, from the batch of 8192 rows -/

section Arrays
variable (z : (⟨2, ![8192, 1024]⟩ : Shape).Idx → EReal)
  (W1 : (⟨2, ![1024, 1024]⟩ : Shape).Idx → EReal) (b1 : (⟨1, ![1024]⟩ : Shape).Idx → EReal)
  (W2 : (⟨2, ![1024, 1024]⟩ : Shape).Idx → EReal) (b2 : (⟨1, ![1024]⟩ : Shape).Idx → EReal)
  (Wm : (⟨2, ![1024, 768]⟩ : Shape).Idx → EReal) (bm : (⟨1, ![768]⟩ : Shape).Idx → EReal)
  (Wv : (⟨2, ![1024, 3456]⟩ : Shape).Idx → EReal) (bv : (⟨1, ![3456]⟩ : Shape).Idx → EReal)

/-- Row r of the batch. -/
def row (r : Fin 8192) : Fin 1024 → EReal := fun j => z (ix2 r j)

def meansA : (⟨3, ![8192, 96, 8]⟩ : Shape).Idx → EReal :=
  fun i => meanE W1 b1 W2 b2 Wm bm (row z (i 0)) (i 1) (i 2)

def precA : (⟨4, ![8192, 96, 8, 8]⟩ : Shape).Idx → EReal :=
  fun i => PE W1 b1 W2 b2 Wv bv (row z (i 0)) (i 1) (i 2) (i 3)

def DA : (⟨4, ![8192, 96, 8, 8]⟩ : Shape).Idx → EReal :=
  fun i => DE W1 b1 W2 b2 Wv bv (row z (i 0)) (i 1) (i 2) (i 3)

def TA : (⟨4, ![8192, 96, 8, 8]⟩ : Shape).Idx → EReal :=
  fun i => TE W1 b1 W2 b2 Wv bv (row z (i 0)) (i 1) (i 2) (i 3)

end Arrays

end Cert.Spec

end
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.LibGroupLayout.lean ====
/-
  Layout operations read at an entry, for any sizes: the columns of a matrix grouped A × B; a slice of the last
  axis of a rank-3 array; a rank-3 array as the columns of a rank-4 one ([a,b,c] → [a,b,c,1] → [a,b,c,d]) and a
  matrix as every group's matrix ([c,d] → [1,1,c,d] → [a,b,c,d]), both as the vector unit spells them (shape cast,
  broadcast) and as the host does (broadcast_in_dim); a bias vector as every row of a matrix (host form); a scalar
  stretched to any shape; and the identity matrix made by comparing the two coordinates, as a float.
-/
import Idealize.ShloMosaic.PureOps.Ideal
import Idealize.ShloMosaic.Lib.ValueIdx
import Idealize.ShloMosaic.Lib.ValueLayout
import Idealize.ShloMosaic.Lib.Pipeline.Value

noncomputable section

namespace Cert.LibGroupLayout

open Idealize.ShloMosaic Idealize.ShloMosaic.ValueIdx

variable {α : Type}

/-- The columns of an [R, C] array grouped A × B (C = A·B): entry (p, f, o) is entry (p, f·B + o). -/
theorem groupCols_apply {R C A B : Nat} (x : (⟨2, ![R, C]⟩ : Shape).Idx → α)
    (h : (⟨2, ![R, C]⟩ : Shape).ShapeCasts ⟨3, ![R, A, B]⟩) (hC : C = A * B) (p : Fin R) (f : Fin A) (o : Fin B)
    (c : Fin C) (hc : c.val = f.val * B + o.val) : shapeCast ⟨3, ![R, A, B]⟩ x h (ix3 p f o) = x (ix2 p c) :=
  shapeCast_apply x h _ _ (by
    rw [Shape.rowMajor_val_two, Shape.rowMajor_val_three]
    show p.val * C + c.val = (p.val * A + f.val) * B + o.val
    rw [hc, hC]; ring)

/-- A stretch of the last axis of an [A, B, C] array starting at o: entry (a, b, c') is entry (a, b, o + c'). -/
theorem sliceLast3_apply {A B C C' : Nat} (o : Nat) (x : (⟨3, ![A, B, C]⟩ : Shape).Idx → α)
    (h : (⟨3, ![A, B, C]⟩ : Shape).Slices ![0, 0, o] ⟨3, ![A, B, C']⟩) (a : Fin A) (b : Fin B) (c' : Fin C') (c : Fin C)
    (hc : c.val = o + c'.val) : extractStridedSlice ⟨3, ![A, B, C']⟩ ![0, 0, o] x h (ix3 a b c') = x (ix3 a b c) :=
  extractStridedSlice_apply _ x h _ _ fun ax => by
    match ax with
    | ⟨0, _⟩ => show a.val = 0 + a.val; omega
    | ⟨1, _⟩ => show b.val = 0 + b.val; omega
    | ⟨2, _⟩ => exact hc

/-! ## On the vector unit: shape casts and broadcasts -/

/-- [a, b, c] viewed as [a, b, c, 1]. -/
theorem cast_abc_abc1_apply {A B C : Nat} (x : (⟨3, ![A, B, C]⟩ : Shape).Idx → α)
    (h : (⟨3, ![A, B, C]⟩ : Shape).ShapeCasts ⟨4, ![A, B, C, 1]⟩) (a : Fin A) (b : Fin B) (c : Fin C) (u : Fin 1) :
    shapeCast ⟨4, ![A, B, C, 1]⟩ x h (ix4 a b c u) = x (ix3 a b c) :=
  shapeCast_apply x h _ _ (by
    have hu : u.val = 0 := by omega
    rw [Shape.rowMajor_val_three, Shape.rowMajor_val_four]
    show (a.val * B + b.val) * C + c.val = ((a.val * B + b.val) * C + c.val) * 1 + u.val
    rw [hu]; ring)

/-- [a, b, c, 1] repeated along the last axis. -/
theorem bcast_abc1_abcd_apply {A B C D : Nat} (x : (⟨4, ![A, B, C, 1]⟩ : Shape).Idx → α)
    (h : (⟨4, ![A, B, C, 1]⟩ : Shape).Broadcasts ⟨4, ![A, B, C, D]⟩) (a : Fin A) (b : Fin B) (c : Fin C) (d : Fin D) :
    broadcastTo ⟨4, ![A, B, C, D]⟩ x h (ix4 a b c d) = x (ix4 a b c (0 : Fin 1)) := by
  refine broadcastTo_apply x h (ix4 a b c d) (ix4 a b c (0 : Fin 1)) fun ax => ?_
  match ax with
  | ⟨0, _⟩ => show a.val = if A = 1 then 0 else a.val; split <;> [(have := a.isLt; omega); rfl]
  | ⟨1, _⟩ => show b.val = if B = 1 then 0 else b.val; split <;> [(have := b.isLt; omega); rfl]
  | ⟨2, _⟩ => show c.val = if C = 1 then 0 else c.val; split <;> [(have := c.isLt; omega); rfl]
  | ⟨3, _⟩ => rfl

/-- [a, b, 1, d] repeated along axis 2. -/
theorem bcast_ab1d_abcd_apply {A B C D : Nat} (x : (⟨4, ![A, B, 1, D]⟩ : Shape).Idx → α)
    (h : (⟨4, ![A, B, 1, D]⟩ : Shape).Broadcasts ⟨4, ![A, B, C, D]⟩) (a : Fin A) (b : Fin B) (c : Fin C) (d : Fin D) :
    broadcastTo ⟨4, ![A, B, C, D]⟩ x h (ix4 a b c d) = x (ix4 a b (0 : Fin 1) d) := by
  refine broadcastTo_apply x h (ix4 a b c d) (ix4 a b (0 : Fin 1) d) fun ax => ?_
  match ax with
  | ⟨0, _⟩ => show a.val = if A = 1 then 0 else a.val; split <;> [(have := a.isLt; omega); rfl]
  | ⟨1, _⟩ => show b.val = if B = 1 then 0 else b.val; split <;> [(have := b.isLt; omega); rfl]
  | ⟨2, _⟩ => rfl
  | ⟨3, _⟩ => show d.val = if D = 1 then 0 else d.val; split <;> [(have := d.isLt; omega); rfl]

/-- [c, d] viewed as [1, 1, c, d]. -/
theorem cast_cd_11cd_apply {C D : Nat} (x : (⟨2, ![C, D]⟩ : Shape).Idx → α)
    (h : (⟨2, ![C, D]⟩ : Shape).ShapeCasts ⟨4, ![1, 1, C, D]⟩) (u v : Fin 1) (c : Fin C) (d : Fin D) :
    shapeCast ⟨4, ![1, 1, C, D]⟩ x h (ix4 u v c d) = x (ix2 c d) :=
  shapeCast_apply x h _ _ (by
    have hu : u.val = 0 := by omega
    have hv : v.val = 0 := by omega
    rw [Shape.rowMajor_val_two, Shape.rowMajor_val_four]
    show c.val * D + d.val = ((u.val * 1 + v.val) * C + c.val) * D + d.val
    rw [hu, hv]; ring)

/-- [1, 1, c, d] repeated over the two leading axes. -/
theorem bcast_11cd_abcd_apply {A B C D : Nat} (x : (⟨4, ![1, 1, C, D]⟩ : Shape).Idx → α)
    (h : (⟨4, ![1, 1, C, D]⟩ : Shape).Broadcasts ⟨4, ![A, B, C, D]⟩) (a : Fin A) (b : Fin B) (c : Fin C) (d : Fin D) :
    broadcastTo ⟨4, ![A, B, C, D]⟩ x h (ix4 a b c d) = x (ix4 (0 : Fin 1) (0 : Fin 1) c d) := by
  refine broadcastTo_apply x h (ix4 a b c d) (ix4 (0 : Fin 1) (0 : Fin 1) c d) fun ax => ?_
  match ax with
  | ⟨0, _⟩ => rfl
  | ⟨1, _⟩ => rfl
  | ⟨2, _⟩ => show c.val = if C = 1 then 0 else c.val; split <;> [(have := c.isLt; omega); rfl]
  | ⟨3, _⟩ => show d.val = if D = 1 then 0 else d.val; split <;> [(have := d.isLt; omega); rfl]

/-! ## On the host: broadcast_in_dim -/

/-- A scalar stretched to any shape reads the scalar everywhere. -/
theorem bid_scalar_apply (t : Shape) (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector as the one row of a [1, n] matrix. -/
theorem bid_n_1n_apply {N : Nat} (x : (⟨1, ![N]⟩ : Shape).Idx → α)
    (h : (⟨1, ![N]⟩ : Shape).BroadcastsInDim ⟨2, ![1, N]⟩ ![1]) (u : Fin 1) (n : Fin N) :
    broadcastInDim ⟨2, ![1, N]⟩ ![1] h x (ix2 u n) = x (ix1 n) := by
  refine broadcastInDim_apply _ h x (ix2 u n) (ix1 n) fun ax => ?_
  match ax with
  | ⟨0, _⟩ => show n.val = if N = 1 then 0 else n.val; split <;> [(have := n.isLt; omega); rfl]

/-- The one row of a [1, n] matrix repeated R times. -/
theorem bid_1n_rn_apply {R N : Nat} (x : (⟨2, ![1, N]⟩ : Shape).Idx → α)
    (h : (⟨2, ![1, N]⟩ : Shape).BroadcastsInDim ⟨2, ![R, N]⟩ ![0, 1]) (r : Fin R) (n : Fin N) :
    broadcastInDim ⟨2, ![R, N]⟩ ![0, 1] h x (ix2 r n) = x (ix2 (0 : Fin 1) n) := by
  refine broadcastInDim_apply _ h x (ix2 r n) (ix2 (0 : Fin 1) n) fun ax => ?_
  match ax with
  | ⟨0, _⟩ => rfl
  | ⟨1, _⟩ => show n.val = if N = 1 then 0 else n.val; split <;> [(have := n.isLt; omega); rfl]

/-- [a, b, c] laid as [a, b, c, 1]. -/
theorem bid_abc_abc1_apply {A B C : Nat} (x : (⟨3, ![A, B, C]⟩ : Shape).Idx → α)
    (h : (⟨3, ![A, B, C]⟩ : Shape).BroadcastsInDim ⟨4, ![A, B, C, 1]⟩ ![0, 1, 2]) (a : Fin A) (b : Fin B) (c : Fin C) (u : Fin 1) :
    broadcastInDim ⟨4, ![A, B, C, 1]⟩ ![0, 1, 2] h x (ix4 a b c u) = x (ix3 a b c) := by
  refine broadcastInDim_apply _ h x (ix4 a b c u) (ix3 a b c) fun ax => ?_
  match ax with
  | ⟨0, _⟩ => show a.val = if A = 1 then 0 else a.val; split <;> [(have := a.isLt; omega); rfl]
  | ⟨1, _⟩ => show b.val = if B = 1 then 0 else b.val; split <;> [(have := b.isLt; omega); rfl]
  | ⟨2, _⟩ => show c.val = if C = 1 then 0 else c.val; split <;> [(have := c.isLt; omega); rfl]

/-- [a, b, c, 1] repeated along the last axis. -/
theorem bid_abc1_abcd_apply {A B C D : Nat} (x : (⟨4, ![A, B, C, 1]⟩ : Shape).Idx → α)
    (h : (⟨4, ![A, B, C, 1]⟩ : Shape).BroadcastsInDim ⟨4, ![A, B, C, D]⟩ ![0, 1, 2, 3]) (a : Fin A) (b : Fin B) (c : Fin C)
    (d : Fin D) : broadcastInDim ⟨4, ![A, B, C, D]⟩ ![0, 1, 2, 3] h x (ix4 a b c d) = x (ix4 a b c (0 : Fin 1)) := by
  refine broadcastInDim_apply _ h x (ix4 a b c d) (ix4 a b c (0 : Fin 1)) fun ax => ?_
  match ax with
  | ⟨0, _⟩ => show a.val = if A = 1 then 0 else a.val; split <;> [(have := a.isLt; omega); rfl]
  | ⟨1, _⟩ => show b.val = if B = 1 then 0 else b.val; split <;> [(have := b.isLt; omega); rfl]
  | ⟨2, _⟩ => show c.val = if C = 1 then 0 else c.val; split <;> [(have := c.isLt; omega); rfl]
  | ⟨3, _⟩ => rfl

/-- [c, d] laid as [1, 1, c, d]. -/
theorem bid_cd_11cd_apply {C D : Nat} (x : (⟨2, ![C, D]⟩ : Shape).Idx → α)
    (h : (⟨2, ![C, D]⟩ : Shape).BroadcastsInDim ⟨4, ![1, 1, C, D]⟩ ![2, 3]) (u v : Fin 1) (c : Fin C) (d : Fin D) :
    broadcastInDim ⟨4, ![1, 1, C, D]⟩ ![2, 3] h x (ix4 u v c d) = x (ix2 c d) := by
  refine broadcastInDim_apply _ h x (ix4 u v c d) (ix2 c d) fun ax => ?_
  match ax with
  | ⟨0, _⟩ => show c.val = if C = 1 then 0 else c.val; split <;> [(have := c.isLt; omega); rfl]
  | ⟨1, _⟩ => show d.val = if D = 1 then 0 else d.val; split <;> [(have := d.isLt; omega); rfl]

/-- [1, 1, c, d] repeated over the two leading axes. -/
theorem bid_11cd_abcd_apply {A B C D : Nat} (x : (⟨4, ![1, 1, C, D]⟩ : Shape).Idx → α)
    (h : (⟨4, ![1, 1, C, D]⟩ : Shape).BroadcastsInDim ⟨4, ![A, B, C, D]⟩ ![0, 1, 2, 3]) (a : Fin A) (b : Fin B) (c : Fin C)
    (d : Fin D) : broadcastInDim ⟨4, ![A, B, C, D]⟩ ![0, 1, 2, 3] h x (ix4 a b c d) = x (ix4 (0 : Fin 1) (0 : Fin 1) c d) := by
  refine broadcastInDim_apply _ h x (ix4 a b c d) (ix4 (0 : Fin 1) (0 : Fin 1) c d) fun ax => ?_
  match ax with
  | ⟨0, _⟩ => rfl
  | ⟨1, _⟩ => rfl
  | ⟨2, _⟩ => show c.val = if C = 1 then 0 else c.val; split <;> [(have := c.isLt; omega); rfl]
  | ⟨3, _⟩ => show d.val = if D = 1 then 0 else d.val; split <;> [(have := d.isLt; omega); rfl]

/-- [c, d] as every group's matrix of [a, b, c, d]. -/
theorem bid_cd_abcd_apply {A B C D : Nat} (x : (⟨2, ![C, D]⟩ : Shape).Idx → α)
    (h : (⟨2, ![C, D]⟩ : Shape).BroadcastsInDim ⟨4, ![A, B, C, D]⟩ ![2, 3]) (a : Fin A) (b : Fin B) (c : Fin C) (d : Fin D) :
    broadcastInDim ⟨4, ![A, B, C, D]⟩ ![2, 3] h x (ix4 a b c d) = x (ix2 c d) := by
  refine broadcastInDim_apply _ h x (ix4 a b c d) (ix2 c d) fun ax => ?_
  match ax with
  | ⟨0, _⟩ => show c.val = if C = 1 then 0 else c.val; split <;> [(have := c.isLt; omega); rfl]
  | ⟨1, _⟩ => show d.val = if D = 1 then 0 else d.val; split <;> [(have := d.isLt; omega); rfl]

/-! ## The identity matrix from its coordinates -/

/-- Comparing the two coordinates of an 8 × 8 matrix as 32-bit words: the bit is 1 exactly on the diagonal. -/
theorem eq_words_bit : ∀ i k : Fin 8,
    IntOp.cmpi .eq (BitVec.ofNat 32 i.val) (BitVec.ofNat 32 k.val) = if i = k then 1#1 else 0#1 := by decide

/-- That bit as a float: 1 on the diagonal, 0 off it. -/
theorem eq_words_float (i k : Fin 8) :
    (((IntOp.cmpi .eq (BitVec.ofNat 32 i.val) (BitVec.ofNat 32 k.val)).toNat : ℝ) : EReal) = if i = k then 1 else 0 := by
  rw [eq_words_bit]
  split <;> simp

end Cert.LibGroupLayout

end
-- ==== Proof.KerNet.lean ====
/-
  The kernel's network on a block of 64 rows, read at an entry: the hidden block, the two heads, the slices of the
  parameters, exp(-e/2) and the block of D.  A matrix product into the zero matrix plus a bias row is, at (p, n),
  the sum over k of l(p, k) · r(k, n) plus b(n); a change of float format is the identity on extended reals.
-/
import proofs.«157539_j10067403341934_1_alg».proof.Proof.KerDefs
import proofs.«157539_j10067403341934_1_alg».proof.Proof.Spec
import proofs.«157539_j10067403341934_1_alg».proof.Proof.LibRealFactor
import proofs.«157539_j10067403341934_1_alg».proof.Proof.LibGroupLayout
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Hand

open Cert.KernelIdeal Cert.KernelIdeal.Gen Idealize.ShloMosaic Idealize.ShloMosaic.ValueIdx

/-- Entry (p, n) of  l · r + (the bias b as every row):  Σ_k l(p, k) · r(k, n) + b(n). -/
theorem affine_apply {R N : Nat} {φ₁ φ₂ : FTy} (d : DotDims ⟨2, ![R, 1024]⟩ ⟨2, ![1024, N]⟩ ⟨2, ![R, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![R, 1024]⟩ φ₁) (r : FVec Ideal ⟨2, ![1024, N]⟩ φ₂) (b : FVec Ideal ⟨1, ![N]⟩ .f32)
    (hs : (⟨2, ![1024, N]⟩ : Shape).ShapeCasts ⟨2, ![1024, N]⟩) (hc : (⟨1, ![N]⟩ : Shape).ShapeCasts ⟨2, ![1, N]⟩)
    (hb : (⟨2, ![1, N]⟩ : Shape).Broadcasts ⟨2, ![R, N]⟩) (p : Fin R) (n : Fin N) :
    addf (matmul d none l (shapeCast ⟨2, ![1024, N]⟩ r hs) (constant ⟨2, ![R, N]⟩ .f32 0x00000000#32))
        (broadcastTo ⟨2, ![R, N]⟩ (shapeCast ⟨2, ![1, N]⟩ b hc) hb) (ix2 p n)
      = (∑ k : Fin 1024, l (ix2 p k) * r (ix2 k n)) + b (ix1 n) := by
  show matmul d none l (shapeCast ⟨2, ![1024, N]⟩ r hs) (constant ⟨2, ![R, N]⟩ .f32 0x00000000#32) (ix2 p n)
      + broadcastTo ⟨2, ![R, N]⟩ (shapeCast ⟨2, ![1, N]⟩ b hc) hb (ix2 p n) = _
  rw [Cert.Fold.matmul_zero_rows d h1 h2 h3 h4 h5 h6 none l _ p n, shapeCast_self, broadcastTo_1b_ab_apply,
    shapeCast_a_1a_apply]

variable (x0 : Vec Ideal S64x1024 .f32) (x1 : Vec Ideal S1024x1024 .bf16) (x2 : Vec Ideal S1024 .f32)
  (x3 : Vec Ideal S1024x1024 .bf16) (x4 : Vec Ideal S1024 .f32) (x5 : Vec Ideal S1024x768 .bf16) (x6 : Vec Ideal S768 .f32)
  (x7 : Vec Ideal S1024x3456 .bf16) (x8 : Vec Ideal S3456 .f32)

/-- The hidden block at (p, n) is the hidden row of block row p at n. -/
theorem pay_hid (p : Fin 64) (n : Fin 1024) :
    k0_pay1 x0 x1 x2 x3 x4 (ix2 p n) = Spec.hid x1 x2 x3 x4 (fun j => x0 (ix2 p j)) n := by
  unfold k0_pay1
  refine (affine_apply dot_S64x1024_S1024x1024_S64x1024_1_0_0_1_n_n rfl rfl rfl rfl rfl rfl _ x3 x4 _ _ _ p n).trans ?_
  unfold Spec.hid
  refine congrArg (· + x4 (ix1 n)) (Finset.sum_congr rfl fun k _ => congrArg (· * x3 (ix2 k n)) ?_)
  exact congrArg Spec.swish
    (affine_apply dot_S64x1024_S1024x1024_S64x1024_1_0_0_1_n_n rfl rfl rfl rfl rfl rfl
      (truncf .bf16 x0 bitsLt_bf16_f32) x1 x2 shapeCasts_S1024x1024_S1024x1024 shapeCasts_S1024_S1x1024
      broadcasts_S1x1024_S64x1024 p k)

/-- The block of means at (p, f, o). -/
theorem pay_means (p : Fin 64) (f : Fin 96) (o : Fin 8) :
    k0_pay2 x0 x1 x2 x3 x4 x5 x6 (ix3 p f o) = Spec.meanE x1 x2 x3 x4 x5 x6 (fun j => x0 (ix2 p j)) f o := by
  unfold k0_pay2
  refine (Cert.LibGroupLayout.groupCols_apply _ _ rfl p f o ⟨f.val * 8 + o.val, by have := f.isLt; have := o.isLt; omega⟩ rfl).trans ?_
  refine (affine_apply dot_S64x1024_S1024x768_S64x768_1_0_0_1_n_n rfl rfl rfl rfl rfl rfl _ x5 x6 _ _ _ p _).trans ?_
  unfold Spec.meanE Spec.head
  exact congrArg (· + x6 (ix1 _)) (Finset.sum_congr rfl fun n _ => congrArg (· * x5 (ix2 n _)) (pay_hid x0 x1 x2 x3 x4 p n))

/-- The block of parameters at (p, f, q). -/
theorem pay_par (p : Fin 64) (f : Fin 96) (q : Fin 36) :
    k0_pay3 x0 x1 x2 x3 x4 x7 x8 (ix3 p f q) = Spec.parE x1 x2 x3 x4 x7 x8 (fun j => x0 (ix2 p j)) f q := by
  unfold k0_pay3
  refine (Cert.LibGroupLayout.groupCols_apply _ _ rfl p f q ⟨f.val * 36 + q.val, by have := f.isLt; have := q.isLt; omega⟩ rfl).trans ?_
  refine (affine_apply dot_S64x1024_S1024x3456_S64x3456_1_0_0_1_n_n rfl rfl rfl rfl rfl rfl _ x7 x8 _ _ _ p _).trans ?_
  unfold Spec.parE Spec.head
  exact congrArg (· + x8 (ix1 _)) (Finset.sum_congr rfl fun n _ => congrArg (· * x7 (ix2 n _)) (pay_hid x0 x1 x2 x3 x4 p n))

/-- The block of log-variances at (p, f, o). -/
theorem pay_lv (p : Fin 64) (f : Fin 96) (o : Fin 8) :
    k0_pay4 x0 x1 x2 x3 x4 x7 x8 (ix3 p f o) = Spec.lvE x1 x2 x3 x4 x7 x8 (fun j => x0 (ix2 p j)) f o := by
  unfold k0_pay4
  refine (Cert.LibGroupLayout.sliceLast3_apply 0 _ _ p f o ⟨o.val, by have := o.isLt; omega⟩ (by show o.val = 0 + o.val; omega)).trans ?_
  exact pay_par x0 x1 x2 x3 x4 x7 x8 p f _

/-- The block of triangle parameters at (p, f, n). -/
theorem pay_ut (p : Fin 64) (f : Fin 96) (n : Fin 28) :
    k0_pay5 x0 x1 x2 x3 x4 x7 x8 (ix3 p f n) = Spec.utE x1 x2 x3 x4 x7 x8 (fun j => x0 (ix2 p j)) f n := by
  unfold k0_pay5
  refine (Cert.LibGroupLayout.sliceLast3_apply 8 _ _ p f n ⟨8 + n.val, by have := n.isLt; omega⟩ rfl).trans ?_
  exact pay_par x0 x1 x2 x3 x4 x7 x8 p f _

/-- exp(-e/2) at (p, f, j). -/
theorem pay_w (p : Fin 64) (f : Fin 96) (j : Fin 8) :
    k0_pay7 (k0_pay4 x0 x1 x2 x3 x4 x7 x8) (ix3 p f j)
      = Ideal.exp (Spec.mhalfW * Spec.lvE x1 x2 x3 x4 x7 x8 (fun j => x0 (ix2 p j)) f j) := by
  rw [← pay_lv x0 x1 x2 x3 x4 x7 x8 p f j]
  rfl

/-- The block of D at (p, f, i, k). -/
theorem pay_D (p : Fin 64) (f : Fin 96) (i k : Fin 8) :
    k0_pay8 (k0_pay6 x0 x1 x2 x3 x4 x7 x8) (ix4 p f i k) = Spec.DE x1 x2 x3 x4 x7 x8 (fun j => x0 (ix2 p j)) f i k := by
  unfold k0_pay8
  show broadcastTo S64x96x8x8 _ _ (ix4 p f i k) * broadcastTo S64x96x8x8 _ _ (ix4 p f i k) = _
  rw [Cert.LibGroupLayout.bcast_abc1_abcd_apply, Cert.LibGroupLayout.cast_abc_abc1_apply,
    Cert.LibGroupLayout.bcast_11cd_abcd_apply, Cert.LibGroupLayout.cast_cd_11cd_apply,
    Idealize.ShloMosaic.sitofp_extui_eq_uitofp]
  unfold Spec.DE Spec.Dent Spec.eye
  rw [← pay_lv x0 x1 x2 x3 x4 x7 x8 p f i, ← Cert.LibGroupLayout.eq_words_float i k]
  congr 1
  show ((((IntOp.cmpi .eq (iota .tc S8x8 32 [0] iota_S8x8_d0_w32 (ix2 i k)) (iota .tc S8x8 32 [1] iota_S8x8_d1_w32 (ix2 i k))).toNat : ℝ)) : EReal) = _
  rw [iota_single_apply, iota_single_apply]

end Cert.KernelIdeal.Hand

end
-- ==== Proof.KerTri.lean ====
/-
  The kernel's block of T and block of the precision, read at one entry.

  Row i of T is laid out as i zeros, a one, and the 7 - i packed parameters of that row; the eight rows are stacked
  into the 8 × 8 block. The precision is the running sum, row by row, of the outer product of a row of T with itself
  scaled by that row's weight: entry (i, k) is the sum over rows j of T(j, i) · (T(j, k) · w(j)).
-/
import proofs.«157539_j10067403341934_1_alg».proof.Proof.KerDefs
import proofs.«157539_j10067403341934_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.KernelIdeal.Hand

open Cert.KernelIdeal Cert.KernelIdeal.Gen Idealize.ShloMosaic Idealize.ShloMosaic.ValueIdx

namespace Tri

/-! ## Pieces laid end to end along the last axis of a [64, 96, 8] block -/

section Cat
variable {α : Type}

/-- Three pieces of widths a, 1, b: a column before a reads the first piece. -/
theorem cat3_left (a b : Nat) (z : (⟨3, ![64, 96, a]⟩ : Shape).Idx → α) (o : (⟨3, ![64, 96, 1]⟩ : Shape).Idx → α)
    (s : (⟨3, ![64, 96, b]⟩ : Shape).Idx → α)
    (h : Shape.Concatenates [⟨3, ![64, 96, a]⟩, ⟨3, ![64, 96, 1]⟩, ⟨3, ![64, 96, b]⟩] ⟨3, ![64, 96, 8]⟩ 2)
    (p : Fin 64) (f : Fin 96) (k : Fin 8) (hk : k.val < a) :
    concatenate ⟨3, ![64, 96, 8]⟩ 2 [⟨_, z⟩, ⟨_, o⟩, ⟨_, s⟩] h (ix3 p f k) = z (ix3 p f ⟨k.val, hk⟩) := by
  refine concatenate_apply_piece (t := ⟨3, ![64, 96, 8]⟩) (2 : Fin 3) [⟨_, z⟩, ⟨_, o⟩, ⟨_, s⟩] h (ix3 p f k) 0
    (by show 0 < 3; omega) _ z rfl rfl 0 rfl (ix3 p f ⟨k.val, hk⟩) ?_ ?_
  · intro c hc
    match c with
    | ⟨0, _⟩ => rfl
    | ⟨1, _⟩ => rfl
    | ⟨2, _⟩ => exact absurd rfl hc
  · show 0 + k.val = k.val
    omega

/-- Three pieces of widths a, 1, b: column a reads the middle piece. -/
theorem cat3_mid (a b : Nat) (z : (⟨3, ![64, 96, a]⟩ : Shape).Idx → α) (o : (⟨3, ![64, 96, 1]⟩ : Shape).Idx → α)
    (s : (⟨3, ![64, 96, b]⟩ : Shape).Idx → α)
    (h : Shape.Concatenates [⟨3, ![64, 96, a]⟩, ⟨3, ![64, 96, 1]⟩, ⟨3, ![64, 96, b]⟩] ⟨3, ![64, 96, 8]⟩ 2)
    (p : Fin 64) (f : Fin 96) (k : Fin 8) (hk : k.val = a) :
    concatenate ⟨3, ![64, 96, 8]⟩ 2 [⟨_, z⟩, ⟨_, o⟩, ⟨_, s⟩] h (ix3 p f k) = o (ix3 p f ⟨0, Nat.one_pos⟩) := by
  refine concatenate_apply_piece (t := ⟨3, ![64, 96, 8]⟩) (2 : Fin 3) [⟨_, z⟩, ⟨_, o⟩, ⟨_, s⟩] h (ix3 p f k) 1
    (by show 1 < 3; omega) _ o rfl rfl a rfl (ix3 p f ⟨0, Nat.one_pos⟩) ?_ ?_
  · intro c hc
    match c with
    | ⟨0, _⟩ => rfl
    | ⟨1, _⟩ => rfl
    | ⟨2, _⟩ => exact absurd rfl hc
  · show a + 0 = k.val
    omega

/-- Three pieces of widths a, 1, b: a column past a reads the last piece, a + 1 columns back. -/
theorem cat3_right (a b : Nat) (z : (⟨3, ![64, 96, a]⟩ : Shape).Idx → α) (o : (⟨3, ![64, 96, 1]⟩ : Shape).Idx → α)
    (s : (⟨3, ![64, 96, b]⟩ : Shape).Idx → α)
    (h : Shape.Concatenates [⟨3, ![64, 96, a]⟩, ⟨3, ![64, 96, 1]⟩, ⟨3, ![64, 96, b]⟩] ⟨3, ![64, 96, 8]⟩ 2)
    (p : Fin 64) (f : Fin 96) (k : Fin 8) (hk : a < k.val) (hb : k.val - (a + 1) < b) :
    concatenate ⟨3, ![64, 96, 8]⟩ 2 [⟨_, z⟩, ⟨_, o⟩, ⟨_, s⟩] h (ix3 p f k) = s (ix3 p f ⟨k.val - (a + 1), hb⟩) := by
  refine concatenate_apply_piece (t := ⟨3, ![64, 96, 8]⟩) (2 : Fin 3) [⟨_, z⟩, ⟨_, o⟩, ⟨_, s⟩] h (ix3 p f k) 2
    (by show 2 < 3; omega) _ s rfl rfl (a + 1) rfl (ix3 p f ⟨k.val - (a + 1), hb⟩) ?_ ?_
  · intro c hc
    match c with
    | ⟨0, _⟩ => rfl
    | ⟨1, _⟩ => rfl
    | ⟨2, _⟩ => exact absurd rfl hc
  · show a + 1 + (k.val - (a + 1)) = k.val
    omega

/-- Two pieces of widths a, b: a column before a reads the first piece. -/
theorem cat2_left (a b : Nat) (x : (⟨3, ![64, 96, a]⟩ : Shape).Idx → α) (y : (⟨3, ![64, 96, b]⟩ : Shape).Idx → α)
    (h : Shape.Concatenates [⟨3, ![64, 96, a]⟩, ⟨3, ![64, 96, b]⟩] ⟨3, ![64, 96, 8]⟩ 2)
    (p : Fin 64) (f : Fin 96) (k : Fin 8) (hk : k.val < a) :
    concatenate ⟨3, ![64, 96, 8]⟩ 2 [⟨_, x⟩, ⟨_, y⟩] h (ix3 p f k) = x (ix3 p f ⟨k.val, hk⟩) := by
  refine concatenate_apply_piece (t := ⟨3, ![64, 96, 8]⟩) (2 : Fin 3) [⟨_, x⟩, ⟨_, y⟩] h (ix3 p f k) 0
    (by show 0 < 2; omega) _ x rfl rfl 0 rfl (ix3 p f ⟨k.val, hk⟩) ?_ ?_
  · intro c hc
    match c with
    | ⟨0, _⟩ => rfl
    | ⟨1, _⟩ => rfl
    | ⟨2, _⟩ => exact absurd rfl hc
  · show 0 + k.val = k.val
    omega

/-- Two pieces of widths a, b: a column from a on reads the second piece, a columns back. -/
theorem cat2_right (a b : Nat) (x : (⟨3, ![64, 96, a]⟩ : Shape).Idx → α) (y : (⟨3, ![64, 96, b]⟩ : Shape).Idx → α)
    (h : Shape.Concatenates [⟨3, ![64, 96, a]⟩, ⟨3, ![64, 96, b]⟩] ⟨3, ![64, 96, 8]⟩ 2)
    (p : Fin 64) (f : Fin 96) (k : Fin 8) (hk : a ≤ k.val) (hb : k.val - a < b) :
    concatenate ⟨3, ![64, 96, 8]⟩ 2 [⟨_, x⟩, ⟨_, y⟩] h (ix3 p f k) = y (ix3 p f ⟨k.val - a, hb⟩) := by
  refine concatenate_apply_piece (t := ⟨3, ![64, 96, 8]⟩) (2 : Fin 3) [⟨_, x⟩, ⟨_, y⟩] h (ix3 p f k) 1
    (by show 1 < 2; omega) _ y rfl rfl a rfl (ix3 p f ⟨k.val - a, hb⟩) ?_ ?_
  · intro c hc
    match c with
    | ⟨0, _⟩ => rfl
    | ⟨1, _⟩ => rfl
    | ⟨2, _⟩ => exact absurd rfl hc
  · show a + (k.val - a) = k.val
    omega

end Cat

/-! ## A stretch of the last axis of a [64, 96, n] block -/

/-- A rank-3 block cut along its last axis from o reads, at (p, f, j), the source at (p, f, o + j). -/
theorem slice3_last {α : Type} {n m : Nat} (o : Nat) (X : (⟨3, ![64, 96, n]⟩ : Shape).Idx → α)
    (h : (⟨3, ![64, 96, n]⟩ : Shape).Slices ![0, 0, o] ⟨3, ![64, 96, m]⟩)
    (p : Fin 64) (f : Fin 96) (j : Fin m) (k : Fin n) (hk : k.val = o + j.val) :
    extractStridedSlice ⟨3, ![64, 96, m]⟩ ![0, 0, o] X h (ix3 p f j) = X (ix3 p f k) :=
  extractStridedSlice_apply _ _ _ _ _ (fun ax => by
    match ax with
    | ⟨0, _⟩ => exact (Nat.zero_add _).symm
    | ⟨1, _⟩ => exact (Nat.zero_add _).symm
    | ⟨2, _⟩ => exact hk)

/-! ## The three kinds of entry of T -/

/-- Above the diagonal T holds the packed parameter of that place. -/
theorem tent_above (u : Fin 28 → EReal) (i k : Fin 8) (h : i.val < k.val) : Spec.Tent u i k = u (Spec.tri i k h) := by
  unfold Spec.Tent
  rw [dif_pos h]

/-- On the diagonal T holds 1. -/
theorem tent_diag (u : Fin 28 → EReal) (i k : Fin 8) (h : k.val = i.val) : Spec.Tent u i k = 1 := by
  unfold Spec.Tent
  rw [dif_neg (by omega), if_pos (Fin.ext h.symm)]

/-- Below the diagonal T holds 0. -/
theorem tent_below (u : Fin 28 → EReal) (i k : Fin 8) (h : k.val < i.val) : Spec.Tent u i k = 0 := by
  unfold Spec.Tent
  rw [dif_neg (by omega), if_neg (fun e => by have := congrArg Fin.val e; omega)]

/-! ## The rows of T, read at a column -/

/-- Row 0: a one, then the 7 parameters from place 0 on. -/
theorem row0_apply (u : FVec Ideal S64x96x28 .f32) (p : Fin 64) (f : Fin 96) (k : Fin 8) :
    k0_pay9 u (ix3 p f k) = Spec.Tent (fun n => u (ix3 p f n)) ⟨0, by omega⟩ k := by
  have hk := k.isLt
  rcases Nat.eq_zero_or_pos k.val with h | h
  · rw [tent_diag _ _ _ (by show k.val = 0; exact h)]
    refine (cat2_left 1 7 _ _ concatenates_S64x96x1_S64x96x7_S64x96x8_d2 p f k (by omega)).trans ?_
    exact Spec.oneW_eq
  · rw [tent_above _ _ _ (by show 0 < k.val; exact h)]
    refine (cat2_right 1 7 _ _ concatenates_S64x96x1_S64x96x7_S64x96x8_d2 p f k (by omega) (by omega)).trans ?_
    exact slice3_last 0 u slices_S64x96x28_o0_0_0_S64x96x7 p f _ _ (by show 0 + (k.val - 0 - 1) = 0 + (k.val - 1); omega)

/-- Row 1: 1 zero, a one, then the 6 parameters from place 7 on. -/
theorem row1_apply (u : FVec Ideal S64x96x28 .f32) (p : Fin 64) (f : Fin 96) (k : Fin 8) :
    k0_pay10 u (ix3 p f k) = Spec.Tent (fun n => u (ix3 p f n)) ⟨1, by omega⟩ k := by
  have hk := k.isLt
  rcases lt_trichotomy k.val 1 with h | h | h
  · rw [tent_below _ _ _ (by show k.val < 1; exact h)]
    refine (cat3_left 1 6 _ _ _ concatenates_S64x96x1_S64x96x1_S64x96x6_S64x96x8_d2 p f k h).trans ?_
    exact Ideal.ofBits_zero_f32
  · rw [tent_diag _ _ _ (by show k.val = 1; exact h)]
    refine (cat3_mid 1 6 _ _ _ concatenates_S64x96x1_S64x96x1_S64x96x6_S64x96x8_d2 p f k h).trans ?_
    exact Spec.oneW_eq
  · rw [tent_above _ _ _ (by show 1 < k.val; exact h)]
    refine (cat3_right 1 6 _ _ _ concatenates_S64x96x1_S64x96x1_S64x96x6_S64x96x8_d2 p f k h (by omega)).trans ?_
    exact slice3_last 7 u slices_S64x96x28_o0_0_7_S64x96x6 p f _ _ (by show 7 + (k.val - 1 - 1) = 7 + (k.val - (1 + 1)); omega)

/-- Row 2: 2 zeros, a one, then the 5 parameters from place 13 on. -/
theorem row2_apply (u : FVec Ideal S64x96x28 .f32) (p : Fin 64) (f : Fin 96) (k : Fin 8) :
    k0_pay11 u (ix3 p f k) = Spec.Tent (fun n => u (ix3 p f n)) ⟨2, by omega⟩ k := by
  have hk := k.isLt
  rcases lt_trichotomy k.val 2 with h | h | h
  · rw [tent_below _ _ _ (by show k.val < 2; exact h)]
    refine (cat3_left 2 5 _ _ _ concatenates_S64x96x2_S64x96x1_S64x96x5_S64x96x8_d2 p f k h).trans ?_
    exact Ideal.ofBits_zero_f32
  · rw [tent_diag _ _ _ (by show k.val = 2; exact h)]
    refine (cat3_mid 2 5 _ _ _ concatenates_S64x96x2_S64x96x1_S64x96x5_S64x96x8_d2 p f k h).trans ?_
    exact Spec.oneW_eq
  · rw [tent_above _ _ _ (by show 2 < k.val; exact h)]
    refine (cat3_right 2 5 _ _ _ concatenates_S64x96x2_S64x96x1_S64x96x5_S64x96x8_d2 p f k h (by omega)).trans ?_
    exact slice3_last 13 u slices_S64x96x28_o0_0_13_S64x96x5 p f _ _ (by show 13 + (k.val - 2 - 1) = 13 + (k.val - (2 + 1)); omega)

/-- Row 3: 3 zeros, a one, then the 4 parameters from place 18 on. -/
theorem row3_apply (u : FVec Ideal S64x96x28 .f32) (p : Fin 64) (f : Fin 96) (k : Fin 8) :
    k0_pay12 u (ix3 p f k) = Spec.Tent (fun n => u (ix3 p f n)) ⟨3, by omega⟩ k := by
  have hk := k.isLt
  rcases lt_trichotomy k.val 3 with h | h | h
  · rw [tent_below _ _ _ (by show k.val < 3; exact h)]
    refine (cat3_left 3 4 _ _ _ concatenates_S64x96x3_S64x96x1_S64x96x4_S64x96x8_d2 p f k h).trans ?_
    exact Ideal.ofBits_zero_f32
  · rw [tent_diag _ _ _ (by show k.val = 3; exact h)]
    refine (cat3_mid 3 4 _ _ _ concatenates_S64x96x3_S64x96x1_S64x96x4_S64x96x8_d2 p f k h).trans ?_
    exact Spec.oneW_eq
  · rw [tent_above _ _ _ (by show 3 < k.val; exact h)]
    refine (cat3_right 3 4 _ _ _ concatenates_S64x96x3_S64x96x1_S64x96x4_S64x96x8_d2 p f k h (by omega)).trans ?_
    exact slice3_last 18 u slices_S64x96x28_o0_0_18_S64x96x4 p f _ _ (by show 18 + (k.val - 3 - 1) = 18 + (k.val - (3 + 1)); omega)

/-- Row 4: 4 zeros, a one, then the 3 parameters from place 22 on. -/
theorem row4_apply (u : FVec Ideal S64x96x28 .f32) (p : Fin 64) (f : Fin 96) (k : Fin 8) :
    k0_pay13 u (ix3 p f k) = Spec.Tent (fun n => u (ix3 p f n)) ⟨4, by omega⟩ k := by
  have hk := k.isLt
  rcases lt_trichotomy k.val 4 with h | h | h
  · rw [tent_below _ _ _ (by show k.val < 4; exact h)]
    refine (cat3_left 4 3 _ _ _ concatenates_S64x96x4_S64x96x1_S64x96x3_S64x96x8_d2 p f k h).trans ?_
    exact Ideal.ofBits_zero_f32
  · rw [tent_diag _ _ _ (by show k.val = 4; exact h)]
    refine (cat3_mid 4 3 _ _ _ concatenates_S64x96x4_S64x96x1_S64x96x3_S64x96x8_d2 p f k h).trans ?_
    exact Spec.oneW_eq
  · rw [tent_above _ _ _ (by show 4 < k.val; exact h)]
    refine (cat3_right 4 3 _ _ _ concatenates_S64x96x4_S64x96x1_S64x96x3_S64x96x8_d2 p f k h (by omega)).trans ?_
    exact slice3_last 22 u slices_S64x96x28_o0_0_22_S64x96x3 p f _ _ (by show 22 + (k.val - 4 - 1) = 22 + (k.val - (4 + 1)); omega)

/-- Row 5: 5 zeros, a one, then the 2 parameters from place 25 on. -/
theorem row5_apply (u : FVec Ideal S64x96x28 .f32) (p : Fin 64) (f : Fin 96) (k : Fin 8) :
    k0_pay14 u (ix3 p f k) = Spec.Tent (fun n => u (ix3 p f n)) ⟨5, by omega⟩ k := by
  have hk := k.isLt
  rcases lt_trichotomy k.val 5 with h | h | h
  · rw [tent_below _ _ _ (by show k.val < 5; exact h)]
    refine (cat3_left 5 2 _ _ _ concatenates_S64x96x5_S64x96x1_S64x96x2_S64x96x8_d2 p f k h).trans ?_
    exact Ideal.ofBits_zero_f32
  · rw [tent_diag _ _ _ (by show k.val = 5; exact h)]
    refine (cat3_mid 5 2 _ _ _ concatenates_S64x96x5_S64x96x1_S64x96x2_S64x96x8_d2 p f k h).trans ?_
    exact Spec.oneW_eq
  · rw [tent_above _ _ _ (by show 5 < k.val; exact h)]
    refine (cat3_right 5 2 _ _ _ concatenates_S64x96x5_S64x96x1_S64x96x2_S64x96x8_d2 p f k h (by omega)).trans ?_
    exact slice3_last 25 u slices_S64x96x28_o0_0_25_S64x96x2 p f _ _ (by show 25 + (k.val - 5 - 1) = 25 + (k.val - (5 + 1)); omega)

/-- Row 6: 6 zeros, a one, then the 1 parameter from place 27 on. -/
theorem row6_apply (u : FVec Ideal S64x96x28 .f32) (p : Fin 64) (f : Fin 96) (k : Fin 8) :
    k0_pay15 u (ix3 p f k) = Spec.Tent (fun n => u (ix3 p f n)) ⟨6, by omega⟩ k := by
  have hk := k.isLt
  rcases lt_trichotomy k.val 6 with h | h | h
  · rw [tent_below _ _ _ (by show k.val < 6; exact h)]
    refine (cat3_left 6 1 _ _ _ concatenates_S64x96x6_S64x96x1_S64x96x1_S64x96x8_d2 p f k h).trans ?_
    exact Ideal.ofBits_zero_f32
  · rw [tent_diag _ _ _ (by show k.val = 6; exact h)]
    refine (cat3_mid 6 1 _ _ _ concatenates_S64x96x6_S64x96x1_S64x96x1_S64x96x8_d2 p f k h).trans ?_
    exact Spec.oneW_eq
  · rw [tent_above _ _ _ (by show 6 < k.val; exact h)]
    refine (cat3_right 6 1 _ _ _ concatenates_S64x96x6_S64x96x1_S64x96x1_S64x96x8_d2 p f k h (by omega)).trans ?_
    exact slice3_last 27 u slices_S64x96x28_o0_0_27_S64x96x1 p f _ _ (by show 27 + (k.val - 6 - 1) = 27 + (k.val - (6 + 1)); omega)

/-- Row 7: 7 zeros, then a one. -/
theorem row7_apply (u : Fin 28 → EReal) (p : Fin 64) (f : Fin 96) (k : Fin 8) :
    k0_pay16 (F := Ideal) (ix3 p f k) = Spec.Tent u ⟨7, by omega⟩ k := by
  have hk := k.isLt
  rcases Nat.lt_or_ge k.val 7 with h | h
  · rw [tent_below _ _ _ (by show k.val < 7; exact h)]
    refine (cat2_left 7 1 _ _ concatenates_S64x96x7_S64x96x1_S64x96x8_d2 p f k h).trans ?_
    exact Ideal.ofBits_zero_f32
  · rw [tent_diag _ _ _ (by show k.val = 7; omega)]
    refine (cat2_right 7 1 _ _ concatenates_S64x96x7_S64x96x1_S64x96x8_d2 p f k h (by omega)).trans ?_
    exact Spec.oneW_eq

/-! ## The eight rows stacked -/

/-- A [64, 96, 8] row viewed as [64, 96, 1, 8] reads, at (p, f, 0, k), the row at (p, f, k). -/
theorem row_as_1x8 {α : Type} (x : S64x96x8.Idx → α) (p : Fin 64) (f : Fin 96) (z : Fin 1) (k : Fin 8) :
    shapeCast S64x96x1x8 x shapeCasts_S64x96x8_S64x96x1x8 (ix4 p f z k) = x (ix3 p f k) :=
  shapeCast_apply x _ _ _ (by
    have hz : z.val = 0 := by omega
    rw [Shape.rowMajor_val_four, Shape.rowMajor_val_three]
    show (p.val * 96 + f.val) * 8 + k.val = ((p.val * 96 + f.val) * 1 + z.val) * 8 + k.val
    rw [hz, Nat.mul_one, Nat.add_zero])

/-- Eight rows, each viewed as [64, 96, 1, 8], laid end to end along axis 2: entry (p, f, i, k) is row i at (p, f, k). -/
theorem stack8_apply {α : Type} (R : Fin 8 → (S64x96x8.Idx → α))
    (h : Shape.Concatenates ((List.ofFn fun n : Fin 8 =>
      (⟨S64x96x1x8, shapeCast S64x96x1x8 (R n) shapeCasts_S64x96x8_S64x96x1x8⟩ : (s : Shape) × (s.Idx → α))).map (·.1)) S64x96x8x8 2)
    (p : Fin 64) (f : Fin 96) (i k : Fin 8) :
    concatenate S64x96x8x8 2 (List.ofFn fun n : Fin 8 =>
      (⟨S64x96x1x8, shapeCast S64x96x1x8 (R n) shapeCasts_S64x96x8_S64x96x1x8⟩ : (s : Shape) × (s.Idx → α))) h (ix4 p f i k)
      = R i (ix3 p f k) := by
  refine (concatenate_ofFn_apply (t := S64x96x8x8) (s₁ := S64x96x1x8) (2 : Fin 4)
    (fun n : Fin 8 => shapeCast S64x96x1x8 (R n) shapeCasts_S64x96x8_S64x96x1x8) h rfl 1 rfl (ix4 p f i k) i
    (by show i.val / 1 = i.val; omega) (ix4 p f (⟨0, Nat.one_pos⟩ : Fin 1) k) (by show 0 = i.val % 1; omega)
    (fun b hb => by
      match b with
      | ⟨0, _⟩ => rfl
      | ⟨1, _⟩ => rfl
      | ⟨2, _⟩ => exact absurd rfl hb
      | ⟨3, _⟩ => rfl)).trans ?_
  exact row_as_1x8 (R i) p f _ k

/-- The eight rows of T as one family. -/
abbrev kRows (u : FVec Ideal S64x96x28 .f32) : Fin 8 → FVec Ideal S64x96x8 .f32 := fun n =>
  match n with
  | ⟨0, _⟩ => k0_pay9 u
  | ⟨1, _⟩ => k0_pay10 u
  | ⟨2, _⟩ => k0_pay11 u
  | ⟨3, _⟩ => k0_pay12 u
  | ⟨4, _⟩ => k0_pay13 u
  | ⟨5, _⟩ => k0_pay14 u
  | ⟨6, _⟩ => k0_pay15 u
  | ⟨7, _⟩ => k0_pay16 (F := Ideal)

/-- Row i of the family at column k is entry (i, k) of T. -/
theorem kRows_apply (u : FVec Ideal S64x96x28 .f32) (p : Fin 64) (f : Fin 96) (i k : Fin 8) :
    kRows u i (ix3 p f k) = Spec.Tent (fun n => u (ix3 p f n)) i k := by
  match i with
  | ⟨0, _⟩ => exact row0_apply u p f k
  | ⟨1, _⟩ => exact row1_apply u p f k
  | ⟨2, _⟩ => exact row2_apply u p f k
  | ⟨3, _⟩ => exact row3_apply u p f k
  | ⟨4, _⟩ => exact row4_apply u p f k
  | ⟨5, _⟩ => exact row5_apply u p f k
  | ⟨6, _⟩ => exact row6_apply u p f k
  | ⟨7, _⟩ => exact row7_apply _ p f k

/-- The block of T is the stack of the family's rows. -/
theorem kT_eq_stack (u : FVec Ideal S64x96x28 .f32) :
    kT u = concatenate S64x96x8x8 2 (List.ofFn fun n : Fin 8 =>
      (⟨S64x96x1x8, shapeCast S64x96x1x8 (kRows u n) shapeCasts_S64x96x8_S64x96x1x8⟩ : (s : Shape) × (s.Idx → Ideal .f32)))
      concatenates_S64x96x1x8_S64x96x1x8_S64x96x1x8_S64x96x1x8_S64x96x1x8_S64x96x1x8_S64x96x1x8_S64x96x1x8_S64x96x8x8_d2 := rfl

end Tri

open Tri in
/-- **The block of T at an entry.** -/
theorem kT_apply (u : FVec Ideal S64x96x28 .f32) (p : Fin 64) (f : Fin 96) (i k : Fin 8) :
    kT u (ix4 p f i k) = Spec.Tent (fun n => u (ix3 p f n)) i k := by
  rw [kT_eq_stack u]
  exact (stack8_apply (kRows u) _ p f i k).trans (kRows_apply u p f i k)

namespace Tri

/-! ## The precision: one row's term, then the running sum -/

/-- Row j cut back out of a [64, 96, 8, 8] block and viewed as [64, 96, 8]. -/
abbrev rowCut (j : Nat) (T : FVec Ideal S64x96x8x8 .f32) (hs : S64x96x8x8.Slices ![0, 0, j, 0] S64x96x1x8) :
    FVec Ideal S64x96x8 .f32 :=
  shapeCast S64x96x8 (extractStridedSlice S64x96x1x8 ![0, 0, j, 0] T hs) shapeCasts_S64x96x1x8_S64x96x8

/-- Column j of a [64, 96, 8] block of weights, repeated along the last axis. -/
abbrev wCol (j : Nat) (w : FVec Ideal S64x96x8 .f32) (hs : S64x96x8.Slices ![0, 0, j] S64x96x1) :
    FVec Ideal S64x96x8 .f32 :=
  broadcastTo S64x96x8 (shapeCast S64x96x1 (shapeCast S64x96 (extractStridedSlice S64x96x1 ![0, 0, j] w hs)
    shapeCasts_S64x96x1_S64x96) shapeCasts_S64x96_S64x96x1) broadcasts_S64x96x1_S64x96x8

/-- The outer product of a row r with the row r scaled by c. -/
abbrev outerTerm (r c : FVec Ideal S64x96x8 .f32) : FVec Ideal S64x96x8x8 .f32 :=
  mulf (broadcastTo S64x96x8x8 (shapeCast S64x96x8x1 r shapeCasts_S64x96x8_S64x96x8x1) broadcasts_S64x96x8x1_S64x96x8x8)
    (broadcastTo S64x96x8x8 (shapeCast S64x96x1x8 (mulf r c) shapeCasts_S64x96x8_S64x96x1x8) broadcasts_S64x96x1x8_S64x96x8x8)

/-- Row j cut back out reads, at (p, f, k), the block at (p, f, j, k). -/
theorem rowCut_apply (j : Nat) (hj : j < 8) (T : FVec Ideal S64x96x8x8 .f32) (hs : S64x96x8x8.Slices ![0, 0, j, 0] S64x96x1x8)
    (p : Fin 64) (f : Fin 96) (k : Fin 8) : rowCut j T hs (ix3 p f k) = T (ix4 p f ⟨j, hj⟩ k) := by
  refine (shapeCast_apply _ shapeCasts_S64x96x1x8_S64x96x8 (ix3 p f k) (ix4 p f (⟨0, Nat.one_pos⟩ : Fin 1) k) (by
    rw [Shape.rowMajor_val_four, Shape.rowMajor_val_three]
    show ((p.val * 96 + f.val) * 1 + 0) * 8 + k.val = (p.val * 96 + f.val) * 8 + k.val
    rw [Nat.mul_one, Nat.add_zero])).trans ?_
  exact slice4_axis2_apply j T hs p f _ k ⟨j, hj⟩ (by show j = j + 0; rfl)

/-- Column j of the weights, repeated, reads w(p, f, j) at every column. -/
theorem wCol_apply (j : Nat) (hj : j < 8) (w : FVec Ideal S64x96x8 .f32) (hs : S64x96x8.Slices ![0, 0, j] S64x96x1)
    (p : Fin 64) (f : Fin 96) (k : Fin 8) : wCol j w hs (ix3 p f k) = w (ix3 p f ⟨j, hj⟩) := by
  refine (broadcastTo_apply _ broadcasts_S64x96x1_S64x96x8 (ix3 p f k) (ix3 p f (⟨0, Nat.one_pos⟩ : Fin 1)) (fun a => by
    match a with
    | ⟨0, _⟩ => rfl
    | ⟨1, _⟩ => rfl
    | ⟨2, _⟩ => rfl)).trans ?_
  refine (shapeCast_apply _ shapeCasts_S64x96_S64x96x1 (ix3 p f (⟨0, Nat.one_pos⟩ : Fin 1)) (ix2 p f) (by
    rw [Shape.rowMajor_val_two, Shape.rowMajor_val_three]
    show p.val * 96 + f.val = (p.val * 96 + f.val) * 1 + 0
    rw [Nat.mul_one, Nat.add_zero])).trans ?_
  refine (shapeCast_apply _ shapeCasts_S64x96x1_S64x96 (ix2 p f) (ix3 p f (⟨0, Nat.one_pos⟩ : Fin 1)) (by
    rw [Shape.rowMajor_val_two, Shape.rowMajor_val_three]
    show (p.val * 96 + f.val) * 1 + 0 = p.val * 96 + f.val
    rw [Nat.mul_one, Nat.add_zero])).trans ?_
  exact slice3_last j w hs p f _ ⟨j, hj⟩ (by show j = j + 0; rfl)

/-- The outer product at (p, f, i, k): r at column i times (r times c) at column k. -/
theorem outerTerm_apply (r c : FVec Ideal S64x96x8 .f32) (p : Fin 64) (f : Fin 96) (i k : Fin 8) :
    outerTerm r c (ix4 p f i k) = r (ix3 p f i) * (r (ix3 p f k) * c (ix3 p f k)) := by
  show broadcastTo S64x96x8x8 (shapeCast S64x96x8x1 r shapeCasts_S64x96x8_S64x96x8x1) broadcasts_S64x96x8x1_S64x96x8x8 (ix4 p f i k)
      * broadcastTo S64x96x8x8 (shapeCast S64x96x1x8 (mulf r c) shapeCasts_S64x96x8_S64x96x1x8) broadcasts_S64x96x1x8_S64x96x8x8 (ix4 p f i k)
      = _
  have e1 : broadcastTo S64x96x8x8 (shapeCast S64x96x8x1 r shapeCasts_S64x96x8_S64x96x8x1) broadcasts_S64x96x8x1_S64x96x8x8 (ix4 p f i k)
      = r (ix3 p f i) := by
    refine (broadcastTo_apply _ broadcasts_S64x96x8x1_S64x96x8x8 (ix4 p f i k) (ix4 p f i (⟨0, Nat.one_pos⟩ : Fin 1)) (fun a => by
      match a with
      | ⟨0, _⟩ => rfl
      | ⟨1, _⟩ => rfl
      | ⟨2, _⟩ => rfl
      | ⟨3, _⟩ => rfl)).trans ?_
    exact shapeCast_apply r shapeCasts_S64x96x8_S64x96x8x1 _ (ix3 p f i) (by
      rw [Shape.rowMajor_val_three, Shape.rowMajor_val_four]
      show (p.val * 96 + f.val) * 8 + i.val = ((p.val * 96 + f.val) * 8 + i.val) * 1 + 0
      rw [Nat.mul_one, Nat.add_zero])
  have e2 : broadcastTo S64x96x8x8 (shapeCast S64x96x1x8 (mulf r c) shapeCasts_S64x96x8_S64x96x1x8) broadcasts_S64x96x1x8_S64x96x8x8 (ix4 p f i k)
      = r (ix3 p f k) * c (ix3 p f k) := by
    refine (broadcastTo_apply _ broadcasts_S64x96x1x8_S64x96x8x8 (ix4 p f i k) (ix4 p f (⟨0, Nat.one_pos⟩ : Fin 1) k) (fun a => by
      match a with
      | ⟨0, _⟩ => rfl
      | ⟨1, _⟩ => rfl
      | ⟨2, _⟩ => rfl
      | ⟨3, _⟩ => rfl)).trans ?_
    exact row_as_1x8 (mulf r c) p f _ k
  rw [e1, e2]

/-- The block of the precision at an index is the running sum, from zero, of the eight rows' terms there. -/
theorem kPrec_at (w : FVec Ideal S64x96x8 .f32) (u : FVec Ideal S64x96x28 .f32) (x : S64x96x8x8.Idx) :
    kPrec w u x =
      ((((((((Ideal.ofBits .f32 0x00000000#32
      + outerTerm (rowCut 0 (kT u) slices_S64x96x8x8_o0_0_0_0_S64x96x1x8) (wCol 0 w slices_S64x96x8_o0_0_0_S64x96x1) x)
      + outerTerm (rowCut 1 (kT u) slices_S64x96x8x8_o0_0_1_0_S64x96x1x8) (wCol 1 w slices_S64x96x8_o0_0_1_S64x96x1) x)
      + outerTerm (rowCut 2 (kT u) slices_S64x96x8x8_o0_0_2_0_S64x96x1x8) (wCol 2 w slices_S64x96x8_o0_0_2_S64x96x1) x)
      + outerTerm (rowCut 3 (kT u) slices_S64x96x8x8_o0_0_3_0_S64x96x1x8) (wCol 3 w slices_S64x96x8_o0_0_3_S64x96x1) x)
      + outerTerm (rowCut 4 (kT u) slices_S64x96x8x8_o0_0_4_0_S64x96x1x8) (wCol 4 w slices_S64x96x8_o0_0_4_S64x96x1) x)
      + outerTerm (rowCut 5 (kT u) slices_S64x96x8x8_o0_0_5_0_S64x96x1x8) (wCol 5 w slices_S64x96x8_o0_0_5_S64x96x1) x)
      + outerTerm (rowCut 6 (kT u) slices_S64x96x8x8_o0_0_6_0_S64x96x1x8) (wCol 6 w slices_S64x96x8_o0_0_6_S64x96x1) x)
      + outerTerm (rowCut 7 (kT u) slices_S64x96x8x8_o0_0_7_0_S64x96x1x8) (wCol 7 w slices_S64x96x8_o0_0_7_S64x96x1) x) := rfl

/-- Row j's term at (p, f, i, k) is T(j, i) · (T(j, k) · w(j)). -/
theorem term_apply (w : FVec Ideal S64x96x8 .f32) (u : FVec Ideal S64x96x28 .f32) (p : Fin 64) (f : Fin 96) (i k : Fin 8)
    (j : Nat) (hj : j < 8) (hs : S64x96x8x8.Slices ![0, 0, j, 0] S64x96x1x8) (hs' : S64x96x8.Slices ![0, 0, j] S64x96x1) :
    outerTerm (rowCut j (kT u) hs) (wCol j w hs') (ix4 p f i k)
      = Spec.Tent (fun n => u (ix3 p f n)) ⟨j, hj⟩ i * (Spec.Tent (fun n => u (ix3 p f n)) ⟨j, hj⟩ k * w (ix3 p f ⟨j, hj⟩)) := by
  rw [outerTerm_apply, rowCut_apply j hj, rowCut_apply j hj, wCol_apply j hj, kT_apply, kT_apply]

end Tri

open Tri in
/-- **The block of the precision at an entry.** -/
theorem kPrec_apply (w : FVec Ideal S64x96x8 .f32) (u : FVec Ideal S64x96x28 .f32) (p : Fin 64) (f : Fin 96) (i k : Fin 8) :
    kPrec w u (ix4 p f i k)
      = Spec.Pent (fun a b => Spec.Tent (fun n => u (ix3 p f n)) a b) (fun j => w (ix3 p f j)) i k := by
  rw [kPrec_at w u (ix4 p f i k),
    term_apply w u p f i k 0 (by omega), term_apply w u p f i k 1 (by omega), term_apply w u p f i k 2 (by omega),
    term_apply w u p f i k 3 (by omega), term_apply w u p f i k 4 (by omega), term_apply w u p f i k 5 (by omega),
    term_apply w u p f i k 6 (by omega), term_apply w u p f i k 7 (by omega), Ideal.ofBits_zero_f32, zero_add]
  unfold Spec.Pent
  rw [Fin.sum_univ_eight]
  rfl

end Cert.KernelIdeal.Hand

end
-- ==== Proof.KerPay.lean ====
/-
  The blocks of T and of the precision at an entry, from the block's rows: T's entries are the triangle parameters
  of the block row's group, and the precision is the sum over T's rows of the outer products scaled by exp(-e/2).
-/
import proofs.«157539_j10067403341934_1_alg».proof.Proof.KerNet
import proofs.«157539_j10067403341934_1_alg».proof.Proof.KerTri

noncomputable section

namespace Cert.KernelIdeal.Hand

open Cert.KernelIdeal Cert.KernelIdeal.Gen Idealize.ShloMosaic Idealize.ShloMosaic.ValueIdx

variable (x0 : Vec Ideal S64x1024 .f32) (x1 : Vec Ideal S1024x1024 .bf16) (x2 : Vec Ideal S1024 .f32)
  (x3 : Vec Ideal S1024x1024 .bf16) (x4 : Vec Ideal S1024 .f32) (x7 : Vec Ideal S1024x3456 .bf16) (x8 : Vec Ideal S3456 .f32)

/-- The block row's triangle parameters, as the specification names them. -/
theorem ut_row (p : Fin 64) (f : Fin 96) :
    (fun n : Fin 28 => k0_pay5 x0 x1 x2 x3 x4 x7 x8 (ix3 p f n)) = Spec.utE x1 x2 x3 x4 x7 x8 (fun j => x0 (ix2 p j)) f :=
  funext fun n => pay_ut x0 x1 x2 x3 x4 x7 x8 p f n

/-- The block of T at (p, f, i, k). -/
theorem pay_T (p : Fin 64) (f : Fin 96) (i k : Fin 8) :
    kT (k0_pay5 x0 x1 x2 x3 x4 x7 x8) (ix4 p f i k) = Spec.TE x1 x2 x3 x4 x7 x8 (fun j => x0 (ix2 p j)) f i k := by
  rw [kT_apply, ut_row]
  rfl

/-- The block of the precision at (p, f, i, k). -/
theorem pay_prec (p : Fin 64) (f : Fin 96) (i k : Fin 8) :
    kPrec (k0_pay7 (k0_pay4 x0 x1 x2 x3 x4 x7 x8)) (k0_pay5 x0 x1 x2 x3 x4 x7 x8) (ix4 p f i k)
      = Spec.PE x1 x2 x3 x4 x7 x8 (fun j => x0 (ix2 p j)) f i k := by
  rw [kPrec_apply, ut_row]
  unfold Spec.PE Spec.Pent
  refine Finset.sum_congr rfl fun j _ => ?_
  dsimp only
  rw [pay_w x0 x1 x2 x3 x4 x7 x8 p f j]
  rfl

end Cert.KernelIdeal.Hand

end
-- ==== Proof.KerBlocks.lean ====
/-
  From blocks to arrays, on the kernel's side.

  The kernel runs on a grid of 128 points.  At point t it reads rows 64 t … 64 t + 63 of the batch z (a block of 64 rows,
  all 1024 columns) and the whole of every weight and bias array, and writes block t of each of its four results: 64 rows,
  all 96 groups, all 8 (× 8) entries.  The weights reach the kernel through a change of float format, which on extended
  reals is the identity, so the kernel finds the arguments themselves.

  What one point writes is, entry by entry, a function of ONE row of its input block (the four entry-by-entry lemmas for what a point stores); row p of
  point t's block is batch row 64 t + p; so point t writes block t of the array  i ↦ (the row function of batch row i 0) (i 1) (i 2) …,
  and since the 128 blocks tile the 8192 rows (row r lies in block r / 64), each result array ends as that whole function:
  the means, the precision, D and T of the specification, read at the arguments as launched.  The nine arguments are unchanged.
-/
import proofs.«157539_j10067403341934_1_alg».proof.Proof.Gen.KernelIdeal.Value
import proofs.«157539_j10067403341934_1_alg».proof.Proof.KerPay
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Offsets of a whole-block access, however the zeros are spelt -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The index maps over the grid: the batch's block index is the point, every other input's is zero -/

theorem index_in : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- The means' block index at point t is (t, 0, 0). -/
theorem index_means : ∀ t : Fin cfg0.N,
    win0_9.index t (0 : Fin 3) = t.val ∧ win0_9.index t (1 : Fin 3) = 0 ∧ win0_9.index t (2 : Fin 3) = 0 :=
  (by decide +kernel : ∀ t : Fin grid0.N, _)

/-! ## The weights as the region finds them: a change of float format is the identity -/

theorem V_v0 (c : Dev nD) : (V m c main_v0 : S1024x1024.Idx → EReal) = m ((c : Thread nD τ).loc main_arg1) := by
  dsimp only [Gen.V, Gen.hostOps0]; after_results; rfl
theorem V_v1 (c : Dev nD) : (V m c main_v1 : S1024x1024.Idx → EReal) = m ((c : Thread nD τ).loc main_arg3) := by
  dsimp only [Gen.V, Gen.hostOps0]; after_results; rfl
theorem V_v2 (c : Dev nD) : (V m c main_v2 : S1024x768.Idx → EReal) = m ((c : Thread nD τ).loc main_arg5) := by
  dsimp only [Gen.V, Gen.hostOps0]; after_results; rfl
theorem V_v3 (c : Dev nD) : (V m c main_v3 : S1024x3456.Idx → EReal) = m ((c : Thread nD τ).loc main_arg7) := by
  dsimp only [Gen.V, Gen.hostOps0]; after_results; rfl

/-! ## The whole-array windows' blocks are their arrays -/

theorem iblk1 (c : Dev nD) (t : Fin cfg0.N) : (iblk m c 1 t : S1024x1024.Idx → EReal) = m ((c : Thread nD τ).loc main_arg1) := by
  obtain ⟨-, -, e0, e1, -⟩ := index_in t
  rw [← V_v0 m c]
  funext y
  show V m c main_v0 (((cfg0.win 1).blk t).view.emb y) = V m c main_v0 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem iblk2 (c : Dev nD) (t : Fin cfg0.N) : (iblk m c 2 t : S1024.Idx → EReal) = m ((c : Thread nD τ).loc main_arg2) := by
  obtain ⟨-, -, -, -, e0, -⟩ := index_in t
  rw [← V_main_arg2 m c]
  funext y
  show V m c main_arg2 (((cfg0.win 2).blk t).view.emb y) = V m c main_arg2 y
  refine congrArg _ (funext fun a => Fin.ext ?_)
  match a with
  | ⟨0, _⟩ => show win0_2.index t (0 : Fin 1) * 1024 + 1 * (y 0).val = (y 0).val; omega

theorem iblk3 (c : Dev nD) (t : Fin cfg0.N) : (iblk m c 3 t : S1024x1024.Idx → EReal) = m ((c : Thread nD τ).loc main_arg3) := by
  obtain ⟨-, -, -, -, -, e0, e1, -⟩ := index_in t
  rw [← V_v1 m c]
  funext y
  show V m c main_v1 (((cfg0.win 3).blk t).view.emb y) = V m c main_v1 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem iblk4 (c : Dev nD) (t : Fin cfg0.N) : (iblk m c 4 t : S1024.Idx → EReal) = m ((c : Thread nD τ).loc main_arg4) := by
  obtain ⟨-, -, -, -, -, -, -, e0, -⟩ := index_in t
  rw [← V_main_arg4 m c]
  funext y
  show V m c main_arg4 (((cfg0.win 4).blk t).view.emb y) = V m c main_arg4 y
  refine congrArg _ (funext fun a => Fin.ext ?_)
  match a with
  | ⟨0, _⟩ => show win0_4.index t (0 : Fin 1) * 1024 + 1 * (y 0).val = (y 0).val; omega

theorem iblk5 (c : Dev nD) (t : Fin cfg0.N) : (iblk m c 5 t : S1024x768.Idx → EReal) = m ((c : Thread nD τ).loc main_arg5) := by
  obtain ⟨-, -, -, -, -, -, -, -, e0, e1, -⟩ := index_in t
  rw [← V_v2 m c]
  funext y
  show V m c main_v2 (((cfg0.win 5).blk t).view.emb y) = V m c main_v2 y
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 768 + 1 * (y 1).val = (y 1).val; omega

theorem iblk6 (c : Dev nD) (t : Fin cfg0.N) : (iblk m c 6 t : S768.Idx → EReal) = m ((c : Thread nD τ).loc main_arg6) := by
  obtain ⟨-, -, -, -, -, -, -, -, -, -, e0, -⟩ := index_in t
  rw [← V_main_arg6 m c]
  funext y
  show V m c main_arg6 (((cfg0.win 6).blk t).view.emb y) = V m c main_arg6 y
  refine congrArg _ (funext fun a => Fin.ext ?_)
  match a with
  | ⟨0, _⟩ => show win0_6.index t (0 : Fin 1) * 768 + 1 * (y 0).val = (y 0).val; omega

theorem iblk7 (c : Dev nD) (t : Fin cfg0.N) : (iblk m c 7 t : S1024x3456.Idx → EReal) = m ((c : Thread nD τ).loc main_arg7) := by
  obtain ⟨-, -, -, -, -, -, -, -, -, -, -, e0, e1, -⟩ := index_in t
  rw [← V_v3 m c]
  funext y
  show V m c main_v3 (((cfg0.win 7).blk t).view.emb y) = V m c main_v3 y
  refine congrArg _ (funext fun a => Fin.ext ?_)
  match a with
  | ⟨0, _⟩ => show win0_7.index t (0 : Fin 2) * 1024 + 1 * (y 0).val = (y 0).val; omega
  | ⟨1, _⟩ => show win0_7.index t (1 : Fin 2) * 3456 + 1 * (y 1).val = (y 1).val; omega

theorem iblk8 (c : Dev nD) (t : Fin cfg0.N) : (iblk m c 8 t : S3456.Idx → EReal) = m ((c : Thread nD τ).loc main_arg8) := by
  obtain ⟨-, -, -, -, -, -, -, -, -, -, -, -, -, e0⟩ := index_in t
  rw [← V_main_arg8 m c]
  funext y
  show V m c main_arg8 (((cfg0.win 8).blk t).view.emb y) = V m c main_arg8 y
  refine congrArg _ (funext fun a => Fin.ext ?_)
  match a with
  | ⟨0, _⟩ => show win0_8.index t (0 : Fin 1) * 3456 + 1 * (y 0).val = (y 0).val; omega

/-! ## The input's block at point t is rows 64 t … 64 t + 63 of the batch -/

theorem rowOf_lt (t : Fin cfg0.N) (p : Fin 64) : t.val * 64 + p.val < 8192 := by
  have h : t.val < 128 := lt_of_lt_of_eq t.isLt N_0
  have := p.isLt; omega

/-- The batch row that row p of point t's block is. -/
abbrev rowOf (t : Fin cfg0.N) (p : Fin 64) : Fin 8192 := ⟨t.val * 64 + p.val, rowOf_lt t p⟩

theorem iblk0_row (c : Dev nD) (t : Fin cfg0.N) (p : Fin 64) :
    (fun j : Fin 1024 => (iblk m c 0 t : S64x1024.Idx → EReal) (ix2 p j)) = Spec.row (m ((c : Thread nD τ).loc main_arg0)) (rowOf t p) := by
  obtain ⟨e0, e1, -⟩ := index_in t
  funext j
  rw [← V_main_arg0 m c]
  show V m c main_arg0 (((cfg0.win 0).blk t).view.emb (ix2 p j)) = V m c main_arg0 (ix2 (rowOf t p) j)
  refine congrArg _ (funext fun a => Fin.ext ?_)
  match a with
  | ⟨0, _⟩ => show win0_0.index t (0 : Fin 2) * 64 + 1 * p.val = t.val * 64 + p.val; omega
  | ⟨1, _⟩ => show win0_0.index t (1 : Fin 2) * 1024 + 1 * j.val = j.val; omega

/-! ## The means -/

/-- Point t's block of the means, at row p of the block, is the means of batch row 64 t + p. -/
theorem means_block (c : Dev nD) (t : Fin cfg0.N) (p : Fin 64) (f : Fin 96) (o : Fin 8) :
    k0_pay2 (iblk m c 0 t) (iblk m c 1 t) (iblk m c 2 t) (iblk m c 3 t) (iblk m c 4 t) (iblk m c 5 t) (iblk m c 6 t) (ix3 p f o)
      = Spec.meansA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix3 (rowOf t p) f o) := by
  refine (pay_means _ _ _ _ _ _ _ p f o).trans ?_
  rw [iblk0_row m c t p, iblk1, iblk2, iblk3, iblk4, iblk5, iblk6]
  rfl

theorem flushed_means (c : Dev nD) (t : Fin cfg0.N) :
    (dats m 0 c).flushed 9 t = ((cfg0.win 9).blk t).view.read (Elt Ideal)
      (Spec.meansA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))) := by
  rw [Value.flushed9]
  unfold Gen.out0_9
  rw [View.canon_unit_zero zeros3]
  simp only [View.ld_unit_zero (S := S64x1024) zeros2, View.ld_unit_zero (S := S1024x1024) zeros2, View.ld_unit_zero (S := S1024) zeros1,
    View.ld_unit_zero (S := S1024x768) zeros2, View.ld_unit_zero (S := S768) zeros1]
  obtain ⟨e0, e1, e2⟩ := index_means t
  funext y
  obtain ⟨p, f, o, rfl⟩ : ∃ (p : Fin 64) (f : Fin 96) (o : Fin 8), y = ix3 p f o := ⟨y 0, y 1, y 2, eq_ix3 y⟩
  refine (means_block m c t p f o).trans ?_
  refine congrArg _ (funext fun a => Fin.ext ?_)
  match a with
  | ⟨0, _⟩ => show t.val * 64 + p.val = win0_9.index t (0 : Fin 3) * 64 + 1 * p.val; omega
  | ⟨1, _⟩ => show f.val = win0_9.index t (1 : Fin 3) * 96 + 1 * f.val; omega
  | ⟨2, _⟩ => show o.val = win0_9.index t (2 : Fin 3) * 8 + 1 * o.val; omega

theorem cover_means (i : S8192x96x8.Idx) : ∃ t : Fin cfg0.N, (cfg0.win 9).flush t = true ∧ i ∈ ((cfg0.win 9).blk t).view.set := by
  have hN : cfg0.N = 128 := N_0
  have h0 : (i 0).val < 8192 := (i 0).isLt
  have h1 : (i 1).val < 96 := (i 1).isLt
  have h2 : (i 2).val < 8 := (i 2).isLt
  obtain ⟨t, ht⟩ : ∃ t : Fin cfg0.N, t.val = (i 0).val / 64 := ⟨⟨(i 0).val / 64, by rw [hN]; omega⟩, rfl⟩
  obtain ⟨e0, e1, e2⟩ := index_means t
  refine ⟨t, flush0_9 t, ?_⟩
  show i ∈ ((View.whole main_v4_0).slice (win0_9.rect t)).set
  rw [View.set_slice_whole, Rect.mem_set_unit]
  intro a
  match a with
  | ⟨0, _⟩ => show win0_9.index t (0 : Fin 3) * 64 ≤ (i 0).val ∧ (i 0).val < win0_9.index t (0 : Fin 3) * 64 + 64; omega
  | ⟨1, _⟩ => show win0_9.index t (1 : Fin 3) * 96 ≤ (i 1).val ∧ (i 1).val < win0_9.index t (1 : Fin 3) * 96 + 96; omega
  | ⟨2, _⟩ => show win0_9.index t (2 : Fin 3) * 8 ≤ (i 2).val ∧ (i 2).val < win0_9.index t (2 : Fin 3) * 8 + 8; omega

theorem final_means (c : Dev nD) : (dats m 0 c).arrAt 9 cfg0.N
    = Spec.meansA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  (dats m 0 c).arrAt_eq_of_cover 9 _ (fun t _ => flushed_means m c t) cover_means

/-! ## D = diag(exp(e/2)) -/

theorem index_D : ∀ t : Fin cfg0.N,
    win0_11.index t (0 : Fin 4) = t.val ∧ win0_11.index t (1 : Fin 4) = 0 ∧ win0_11.index t (2 : Fin 4) = 0
    ∧ win0_11.index t (3 : Fin 4) = 0 :=
  (by decide +kernel : ∀ t : Fin grid0.N, _)

theorem D_block (c : Dev nD) (t : Fin cfg0.N) (p : Fin 64) (f : Fin 96) (i k : Fin 8) :
    k0_pay8 (k0_pay6 (iblk m c 0 t) (iblk m c 1 t) (iblk m c 2 t) (iblk m c 3 t) (iblk m c 4 t) (iblk m c 7 t) (iblk m c 8 t)) (ix4 p f i k)
      = Spec.DA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (ix4 (rowOf t p) f i k) := by
  refine (pay_D _ _ _ _ _ _ _ p f i k).trans ?_
  rw [iblk0_row m c t p, iblk1, iblk2, iblk3, iblk4, iblk7, iblk8]
  rfl

theorem flushed_D (c : Dev nD) (t : Fin cfg0.N) :
    (dats m 0 c).flushed 11 t = ((cfg0.win 11).blk t).view.read (Elt Ideal)
      (Spec.DA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  rw [Value.flushed11]
  unfold Gen.out0_11
  rw [View.canon_unit_zero zeros4]
  simp only [View.ld_unit_zero (S := S64x1024) zeros2, View.ld_unit_zero (S := S1024x1024) zeros2, View.ld_unit_zero (S := S1024) zeros1,
    View.ld_unit_zero (S := S1024x3456) zeros2, View.ld_unit_zero (S := S3456) zeros1]
  obtain ⟨e0, e1, e2, e3⟩ := index_D t
  funext y
  obtain ⟨p, f, i, k, rfl⟩ : ∃ (p : Fin 64) (f : Fin 96) (i k : Fin 8), y = ix4 p f i k := ⟨y 0, y 1, y 2, y 3, eq_ix4 y⟩
  refine (D_block m c t p f i k).trans ?_
  refine congrArg _ (funext fun a => Fin.ext ?_)
  match a with
  | ⟨0, _⟩ => show t.val * 64 + p.val = win0_11.index t (0 : Fin 4) * 64 + 1 * p.val; omega
  | ⟨1, _⟩ => show f.val = win0_11.index t (1 : Fin 4) * 96 + 1 * f.val; omega
  | ⟨2, _⟩ => show i.val = win0_11.index t (2 : Fin 4) * 8 + 1 * i.val; omega
  | ⟨3, _⟩ => show k.val = win0_11.index t (3 : Fin 4) * 8 + 1 * k.val; omega

theorem cover_D (i : S8192x96x8x8.Idx) : ∃ t : Fin cfg0.N, (cfg0.win 11).flush t = true ∧ i ∈ ((cfg0.win 11).blk t).view.set := by
  have hN : cfg0.N = 128 := N_0
  have h0 : (i 0).val < 8192 := (i 0).isLt
  have h1 : (i 1).val < 96 := (i 1).isLt
  have h2 : (i 2).val < 8 := (i 2).isLt
  have h3 : (i 3).val < 8 := (i 3).isLt
  obtain ⟨t, ht⟩ : ∃ t : Fin cfg0.N, t.val = (i 0).val / 64 := ⟨⟨(i 0).val / 64, by rw [hN]; omega⟩, rfl⟩
  obtain ⟨e0, e1, e2, e3⟩ := index_D t
  refine ⟨t, flush0_11 t, ?_⟩
  show i ∈ ((View.whole main_v4_2).slice (win0_11.rect t)).set
  rw [View.set_slice_whole, Rect.mem_set_unit]
  intro a
  match a with
  | ⟨0, _⟩ => show win0_11.index t (0 : Fin 4) * 64 ≤ (i 0).val ∧ (i 0).val < win0_11.index t (0 : Fin 4) * 64 + 64; omega
  | ⟨1, _⟩ => show win0_11.index t (1 : Fin 4) * 96 ≤ (i 1).val ∧ (i 1).val < win0_11.index t (1 : Fin 4) * 96 + 96; omega
  | ⟨2, _⟩ => show win0_11.index t (2 : Fin 4) * 8 ≤ (i 2).val ∧ (i 2).val < win0_11.index t (2 : Fin 4) * 8 + 8; omega
  | ⟨3, _⟩ => show win0_11.index t (3 : Fin 4) * 8 ≤ (i 3).val ∧ (i 3).val < win0_11.index t (3 : Fin 4) * 8 + 8; omega

theorem final_D (c : Dev nD) : (dats m 0 c).arrAt 11 cfg0.N
    = Spec.DA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  (dats m 0 c).arrAt_eq_of_cover 11 _ (fun t _ => flushed_D m c t) cover_D

/-! ## T, the unit upper triangular matrix -/

theorem index_T : ∀ t : Fin cfg0.N,
    win0_12.index t (0 : Fin 4) = t.val ∧ win0_12.index t (1 : Fin 4) = 0 ∧ win0_12.index t (2 : Fin 4) = 0
    ∧ win0_12.index t (3 : Fin 4) = 0 :=
  (by decide +kernel : ∀ t : Fin grid0.N, _)

theorem T_block (c : Dev nD) (t : Fin cfg0.N) (p : Fin 64) (f : Fin 96) (i k : Fin 8) :
    kT (k0_pay5 (iblk m c 0 t) (iblk m c 1 t) (iblk m c 2 t) (iblk m c 3 t) (iblk m c 4 t) (iblk m c 7 t) (iblk m c 8 t)) (ix4 p f i k)
      = Spec.TA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (ix4 (rowOf t p) f i k) := by
  refine (pay_T _ _ _ _ _ _ _ p f i k).trans ?_
  rw [iblk0_row m c t p, iblk1, iblk2, iblk3, iblk4, iblk7, iblk8]
  rfl

theorem flushed_T (c : Dev nD) (t : Fin cfg0.N) :
    (dats m 0 c).flushed 12 t = ((cfg0.win 12).blk t).view.read (Elt Ideal)
      (Spec.TA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  rw [Value.flushed12]
  unfold Gen.out0_12
  rw [View.canon_unit_zero zeros4]
  simp only [View.ld_unit_zero (S := S64x1024) zeros2, View.ld_unit_zero (S := S1024x1024) zeros2, View.ld_unit_zero (S := S1024) zeros1,
    View.ld_unit_zero (S := S1024x3456) zeros2, View.ld_unit_zero (S := S3456) zeros1]
  obtain ⟨e0, e1, e2, e3⟩ := index_T t
  funext y
  obtain ⟨p, f, i, k, rfl⟩ : ∃ (p : Fin 64) (f : Fin 96) (i k : Fin 8), y = ix4 p f i k := ⟨y 0, y 1, y 2, y 3, eq_ix4 y⟩
  refine (T_block m c t p f i k).trans ?_
  refine congrArg _ (funext fun a => Fin.ext ?_)
  match a with
  | ⟨0, _⟩ => show t.val * 64 + p.val = win0_12.index t (0 : Fin 4) * 64 + 1 * p.val; omega
  | ⟨1, _⟩ => show f.val = win0_12.index t (1 : Fin 4) * 96 + 1 * f.val; omega
  | ⟨2, _⟩ => show i.val = win0_12.index t (2 : Fin 4) * 8 + 1 * i.val; omega
  | ⟨3, _⟩ => show k.val = win0_12.index t (3 : Fin 4) * 8 + 1 * k.val; omega

theorem cover_T (i : S8192x96x8x8.Idx) : ∃ t : Fin cfg0.N, (cfg0.win 12).flush t = true ∧ i ∈ ((cfg0.win 12).blk t).view.set := by
  have hN : cfg0.N = 128 := N_0
  have h0 : (i 0).val < 8192 := (i 0).isLt
  have h1 : (i 1).val < 96 := (i 1).isLt
  have h2 : (i 2).val < 8 := (i 2).isLt
  have h3 : (i 3).val < 8 := (i 3).isLt
  obtain ⟨t, ht⟩ : ∃ t : Fin cfg0.N, t.val = (i 0).val / 64 := ⟨⟨(i 0).val / 64, by rw [hN]; omega⟩, rfl⟩
  obtain ⟨e0, e1, e2, e3⟩ := index_T t
  refine ⟨t, flush0_12 t, ?_⟩
  show i ∈ ((View.whole main_v4_3).slice (win0_12.rect t)).set
  rw [View.set_slice_whole, Rect.mem_set_unit]
  intro a
  match a with
  | ⟨0, _⟩ => show win0_12.index t (0 : Fin 4) * 64 ≤ (i 0).val ∧ (i 0).val < win0_12.index t (0 : Fin 4) * 64 + 64; omega
  | ⟨1, _⟩ => show win0_12.index t (1 : Fin 4) * 96 ≤ (i 1).val ∧ (i 1).val < win0_12.index t (1 : Fin 4) * 96 + 96; omega
  | ⟨2, _⟩ => show win0_12.index t (2 : Fin 4) * 8 ≤ (i 2).val ∧ (i 2).val < win0_12.index t (2 : Fin 4) * 8 + 8; omega
  | ⟨3, _⟩ => show win0_12.index t (3 : Fin 4) * 8 ≤ (i 3).val ∧ (i 3).val < win0_12.index t (3 : Fin 4) * 8 + 8; omega

theorem final_T (c : Dev nD) : (dats m 0 c).arrAt 12 cfg0.N
    = Spec.TA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  (dats m 0 c).arrAt_eq_of_cover 12 _ (fun t _ => flushed_T m c t) cover_T

/-! ## The precision -/

theorem index_prec : ∀ t : Fin cfg0.N,
    win0_10.index t (0 : Fin 4) = t.val ∧ win0_10.index t (1 : Fin 4) = 0 ∧ win0_10.index t (2 : Fin 4) = 0
    ∧ win0_10.index t (3 : Fin 4) = 0 :=
  (by decide +kernel : ∀ t : Fin grid0.N, _)

theorem prec_block (c : Dev nD) (t : Fin cfg0.N) (p : Fin 64) (f : Fin 96) (i k : Fin 8) :
    kPrec (k0_pay7 (k0_pay4 (iblk m c 0 t) (iblk m c 1 t) (iblk m c 2 t) (iblk m c 3 t) (iblk m c 4 t) (iblk m c 7 t) (iblk m c 8 t))) (k0_pay5 (iblk m c 0 t) (iblk m c 1 t) (iblk m c 2 t) (iblk m c 3 t) (iblk m c 4 t) (iblk m c 7 t) (iblk m c 8 t)) (ix4 p f i k)
      = Spec.precA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (ix4 (rowOf t p) f i k) := by
  refine (pay_prec _ _ _ _ _ _ _ p f i k).trans ?_
  rw [iblk0_row m c t p, iblk1, iblk2, iblk3, iblk4, iblk7, iblk8]
  rfl

theorem flushed_prec (c : Dev nD) (t : Fin cfg0.N) :
    (dats m 0 c).flushed 10 t = ((cfg0.win 10).blk t).view.read (Elt Ideal)
      (Spec.precA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  rw [Value.flushed10]
  unfold Gen.out0_10
  rw [View.canon_unit_zero zeros4]
  simp only [View.ld_unit_zero (S := S64x1024) zeros2, View.ld_unit_zero (S := S1024x1024) zeros2, View.ld_unit_zero (S := S1024) zeros1,
    View.ld_unit_zero (S := S1024x3456) zeros2, View.ld_unit_zero (S := S3456) zeros1]
  obtain ⟨e0, e1, e2, e3⟩ := index_prec t
  funext y
  obtain ⟨p, f, i, k, rfl⟩ : ∃ (p : Fin 64) (f : Fin 96) (i k : Fin 8), y = ix4 p f i k := ⟨y 0, y 1, y 2, y 3, eq_ix4 y⟩
  refine (prec_block m c t p f i k).trans ?_
  refine congrArg _ (funext fun a => Fin.ext ?_)
  match a with
  | ⟨0, _⟩ => show t.val * 64 + p.val = win0_10.index t (0 : Fin 4) * 64 + 1 * p.val; omega
  | ⟨1, _⟩ => show f.val = win0_10.index t (1 : Fin 4) * 96 + 1 * f.val; omega
  | ⟨2, _⟩ => show i.val = win0_10.index t (2 : Fin 4) * 8 + 1 * i.val; omega
  | ⟨3, _⟩ => show k.val = win0_10.index t (3 : Fin 4) * 8 + 1 * k.val; omega

theorem cover_prec (i : S8192x96x8x8.Idx) : ∃ t : Fin cfg0.N, (cfg0.win 10).flush t = true ∧ i ∈ ((cfg0.win 10).blk t).view.set := by
  have hN : cfg0.N = 128 := N_0
  have h0 : (i 0).val < 8192 := (i 0).isLt
  have h1 : (i 1).val < 96 := (i 1).isLt
  have h2 : (i 2).val < 8 := (i 2).isLt
  have h3 : (i 3).val < 8 := (i 3).isLt
  obtain ⟨t, ht⟩ : ∃ t : Fin cfg0.N, t.val = (i 0).val / 64 := ⟨⟨(i 0).val / 64, by rw [hN]; omega⟩, rfl⟩
  obtain ⟨e0, e1, e2, e3⟩ := index_prec t
  refine ⟨t, flush0_10 t, ?_⟩
  show i ∈ ((View.whole main_v4_1).slice (win0_10.rect t)).set
  rw [View.set_slice_whole, Rect.mem_set_unit]
  intro a
  match a with
  | ⟨0, _⟩ => show win0_10.index t (0 : Fin 4) * 64 ≤ (i 0).val ∧ (i 0).val < win0_10.index t (0 : Fin 4) * 64 + 64; omega
  | ⟨1, _⟩ => show win0_10.index t (1 : Fin 4) * 96 ≤ (i 1).val ∧ (i 1).val < win0_10.index t (1 : Fin 4) * 96 + 96; omega
  | ⟨2, _⟩ => show win0_10.index t (2 : Fin 4) * 8 ≤ (i 2).val ∧ (i 2).val < win0_10.index t (2 : Fin 4) * 8 + 8; omega
  | ⟨3, _⟩ => show win0_10.index t (3 : Fin 4) * 8 ≤ (i 3).val ∧ (i 3).val < win0_10.index t (3 : Fin 4) * 8 + 8; omega

theorem final_prec (c : Dev nD) : (dats m 0 c).arrAt 10 cfg0.N
    = Spec.precA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) :=
  (dats m 0 c).arrAt_eq_of_cover 10 _ (fun t _ => flushed_prec m c t) cover_prec

/-! ## The run, read: the four arrays at the four functions of the arguments -/

theorem run : θ_run (defs (F := Ideal)) (onTc (τ := τ) (main (F := Ideal))) ⟨m, fun _ => 0, ρ⟩ fun r => ∀ c : Dev nD,
      r.2.mem ((c : Thread nD τ).loc main_v4_0) = Spec.meansA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v4_1) = Spec.precA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c : Thread nD τ).loc main_v4_2) = Spec.DA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c : Thread nD τ).loc main_v4_3) = Spec.TA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => by
      obtain ⟨h0, h1, h2, h3, hk⟩ := h c
      exact ⟨h0.trans (final_means m c), h1.trans (final_prec m c), h2.trans (final_D m c), h3.trans (final_T m c), hk⟩)
    (Value.run_blocks m ρ)

end Cert.KernelIdeal.Hand
end
-- ==== Proof.RefDefs.lean ====
/-
  The reference's host operations composed into functions of its nine arguments, at the exact instance: the
  two-layer network on the whole batch, the two heads, the slices of the parameters, and the four results
  (means, precision, D, T) as the reference's own chain of operations computes them.
-/
import proofs.«157539_j10067403341934_1_alg».proof.ReferenceIdeal
import Idealize.ShloMosaic.PureOps.Ideal

noncomputable section

namespace Cert.ReferenceIdeal.Hand

open Cert.ReferenceIdeal Idealize.ShloMosaic
open Facts₀

variable [Facts]

/-- A vector of n entries as every row of an [8192, n] matrix (the two broadcasts jnp makes of a bias). -/
abbrev biasRows1024 (b : FVec Ideal S1024 .f32) : FVec Ideal S8192x1024 .f32 :=
  broadcastInDim S8192x1024 ![0, 1] bcast_S1x1024_S8192x1024_0_1 (broadcastInDim S1x1024 ![1] bcast_S1024_S1x1024_1 b)
abbrev biasRows768 (b : FVec Ideal S768 .f32) : FVec Ideal S8192x768 .f32 :=
  broadcastInDim S8192x768 ![0, 1] bcast_S1x768_S8192x768_0_1 (broadcastInDim S1x768 ![1] bcast_S768_S1x768_1 b)
abbrev biasRows3456 (b : FVec Ideal S3456 .f32) : FVec Ideal S8192x3456 .f32 :=
  broadcastInDim S8192x3456 ![0, 1] bcast_S1x3456_S8192x3456_0_1 (broadcastInDim S1x3456 ![1] bcast_S3456_S1x3456_1 b)

/-- z·W1 + b1. -/
def tPre (z : FVec Ideal S8192x1024 .f32) (W1 : FVec Ideal S1024x1024 .f32) (b1 : FVec Ideal S1024 .f32) :
    FVec Ideal S8192x1024 .f32 :=
  addf (Host.dotGeneral dot_S8192x1024_S1024x1024_S8192x1024_1_0_0_1_n_n none z W1) (biasRows1024 b1)

/-- a · (1 / (1 + exp(-a))), jax's expansion of silu. -/
def tSilu (a : FVec Ideal S8192x1024 .f32) : FVec Ideal S8192x1024 .f32 :=
  mulf a (Host.divf (broadcastInDim S8192x1024 ![] bcast_S_S8192x1024 (constant S_ .f32 0x3F800000#32))
    (addf (broadcastInDim S8192x1024 ![] bcast_S_S8192x1024 (constant S_ .f32 0x3F800000#32)) (Host.exp (Host.negf a))))

/-- silu(z·W1 + b1)·W2 + b2. -/
def tHid (z : FVec Ideal S8192x1024 .f32) (W1 : FVec Ideal S1024x1024 .f32) (b1 : FVec Ideal S1024 .f32)
    (W2 : FVec Ideal S1024x1024 .f32) (b2 : FVec Ideal S1024 .f32) : FVec Ideal S8192x1024 .f32 :=
  addf (Host.dotGeneral dot_S8192x1024_S1024x1024_S8192x1024_1_0_0_1_n_n none (tSilu (tPre z W1 b1)) W2) (biasRows1024 b2)

/-- The means: (h·Wm + bm) as [8192, 96, 8]. -/
def tMeans (h : FVec Ideal S8192x1024 .f32) (Wm : FVec Ideal S1024x768 .f32) (bm : FVec Ideal S768 .f32) :
    FVec Ideal S8192x96x8 .f32 :=
  shapeCast S8192x96x8 (addf (Host.dotGeneral dot_S8192x1024_S1024x768_S8192x768_1_0_0_1_n_n none h Wm) (biasRows768 bm))
    shapeCasts_S8192x768_S8192x96x8

/-- The parameters: (h·Wv + bv) as [8192, 96, 36]. -/
def tPar (h : FVec Ideal S8192x1024 .f32) (Wv : FVec Ideal S1024x3456 .f32) (bv : FVec Ideal S3456 .f32) :
    FVec Ideal S8192x96x36 .f32 :=
  shapeCast S8192x96x36 (addf (Host.dotGeneral dot_S8192x1024_S1024x3456_S8192x3456_1_0_0_1_n_n none h Wv) (biasRows3456 bv))
    shapeCasts_S8192x3456_S8192x96x36

/-- The log-variances: the first 8 parameters of each group. -/
def tLv (p : FVec Ideal S8192x96x36 .f32) : FVec Ideal S8192x96x8 .f32 :=
  extractStridedSlice S8192x96x8 ![0, 0, 0] p slices_S8192x96x36_S8192x96x8_0_0_0

/-- The triangle parameters: the last 28 of each group. -/
def tUt (p : FVec Ideal S8192x96x36 .f32) : FVec Ideal S8192x96x28 .f32 :=
  extractStridedSlice S8192x96x28 ![0, 0, 8] p slices_S8192x96x36_S8192x96x28_0_0_8

/-- exp(0.5 · e). -/
def tStd (e : FVec Ideal S8192x96x8 .f32) : FVec Ideal S8192x96x8 .f32 :=
  Host.exp (mulf (broadcastInDim S8192x96x8 ![] bcast_S_S8192x96x8 (constant S_ .f32 0x3F000000#32)) e)

/-- The 8 x 8 identity as jnp.eye makes it: rows equal columns, converted to a float. -/
def tEye : FVec Ideal S8x8 .f32 :=
  uitofp .f32 (cmpi .eq (addi (iotaInDim S8x8 32 0) (broadcastInDim S8x8 ![] bcast_S_S8x8 (constantI S_ 32 0#32)))
    (iotaInDim S8x8 32 1))

/-- An [8192, 96, 8] array as the columns of [8192, 96, 8, 8]: entry (b, f, i, k) is entry (b, f, i). -/
abbrev colRep (x : FVec Ideal S8192x96x8 .f32) : FVec Ideal S8192x96x8x8 .f32 :=
  broadcastInDim S8192x96x8x8 ![0, 1, 2, 3] bcast_S8192x96x8x1_S8192x96x8x8_0_1_2_3
    (broadcastInDim S8192x96x8x1 ![0, 1, 2] bcast_S8192x96x8_S8192x96x8x1_0_1_2 x)

/-- D = d[..., :, None] * eye. -/
def tD (d : FVec Ideal S8192x96x8 .f32) : FVec Ideal S8192x96x8x8 .f32 :=
  mulf (colRep d)
    (broadcastInDim S8192x96x8x8 ![0, 1, 2, 3] bcast_S1x1x8x8_S8192x96x8x8_0_1_2_3
      (broadcastInDim S1x1x8x8 ![2, 3] bcast_S8x8_S1x1x8x8_2_3 tEye))

/-- The 28 (row, column) pairs of the strict upper triangle, as the [28, 2] index array of the scatter. -/
def tIdx : IVec S28x2 32 :=
  concatenate S28x2 1
    [⟨S28x1, broadcastInDim S28x1 ![0] bcast_S28_S28x1_0
        (select (constantI S28 1 0#1)
          (addi (fun i => lit0 (S28.rowMajor i)) (broadcastInDim S28 ![] bcast_S_S28 (constantI S_ 32 8#32)))
          (fun i => lit0 (S28.rowMajor i)))⟩,
     ⟨S28x1, broadcastInDim S28x1 ![0] bcast_S28_S28x1_0
        (select (constantI S28 1 0#1)
          (addi (fun i => lit1 (S28.rowMajor i)) (broadcastInDim S28 ![] bcast_S_S28 (constantI S_ 32 8#32)))
          (fun i => lit1 (S28.rowMajor i)))⟩]
    concatenates_S28x1_S28x1_S28x2_d1

/-- T: the identity in every group, overwritten above the diagonal by the group's 28 parameters. -/
def tT (u : FVec Ideal S8192x96x28 .f32) : FVec Ideal S8192x96x8x8 .f32 :=
  Host.scatter scatter_S8192x96x8x8_S28x2_S8192x96x28_01_23_23_1 (fun _ b => b)
    (broadcastInDim S8192x96x8x8 ![2, 3] bcast_S8x8_S8192x96x8x8_2_3 tEye) tIdx u

/-- The precision: einsum('bhji,bhjk->bhik', T, T * (1/d)[..., :, None]). -/
def tPrec (T : FVec Ideal S8192x96x8x8 .f32) (d : FVec Ideal S8192x96x8 .f32) : FVec Ideal S8192x96x8x8 .f32 :=
  Host.dotGeneral dot_S8192x96x8x8_S8192x96x8x8_S8192x96x8x8_2_2_3_3_01_01 none T
    (mulf T (colRep (Host.divf (broadcastInDim S8192x96x8 ![] bcast_S_S8192x96x8 (constant S_ .f32 0x3F800000#32)) d)))

section Results
variable (z : FVec Ideal S8192x1024 .f32) (W1 : FVec Ideal S1024x1024 .f32) (b1 : FVec Ideal S1024 .f32)
  (W2 : FVec Ideal S1024x1024 .f32) (b2 : FVec Ideal S1024 .f32) (Wm : FVec Ideal S1024x768 .f32) (bm : FVec Ideal S768 .f32)
  (Wv : FVec Ideal S1024x3456 .f32) (bv : FVec Ideal S3456 .f32)

/-- The reference's four results as functions of its arguments. -/
def rMeans : FVec Ideal S8192x96x8 .f32 := tMeans (tHid z W1 b1 W2 b2) Wm bm
def rPar : FVec Ideal S8192x96x36 .f32 := tPar (tHid z W1 b1 W2 b2) Wv bv
def rD : FVec Ideal S8192x96x8x8 .f32 := tD (tStd (tLv (rPar z W1 b1 W2 b2 Wv bv)))
def rT : FVec Ideal S8192x96x8x8 .f32 := tT (tUt (rPar z W1 b1 W2 b2 Wv bv))
def rPrec : FVec Ideal S8192x96x8x8 .f32 :=
  tPrec (rT z W1 b1 W2 b2 Wv bv) (tStd (tLv (rPar z W1 b1 W2 b2 Wv bv)))

end Results

end Cert.ReferenceIdeal.Hand

end
-- ==== Proof.RefRun.lean ====
/-
  The reference's run. Its @main is a straight line of 69 host operations (the nine of the outlined silu written
  at the call, over that call's own buffers); from any memory every execution ends with each buffer at the fold of
  the operations' results over the launch contents. Read at the four result buffers, the fold is the composed
  function of the nine arguments: the means, the precision, D and T.
-/
import proofs.«157539_j10067403341934_1_alg».proof.Proof.Gen.ReferenceIdeal
import proofs.«157539_j10067403341934_1_alg».proof.Proof.RefDefs
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

section Line
variable {F : FTy → Type} [FloatOps F]

/-- @main's 69 operations, in order; the callee's nine stand where the call is, over the call's buffers. -/
abbrev ops : List (HloOp τ sig (Elt F)) :=
  [ StableHlo.nullary main_c (fun i => lit0 (S28.rowMajor i)),
    StableHlo.nullary main_c_0 (constantI S28 1 0#1),
    StableHlo.nullary main_c_1 (fun i => lit1 (S28.rowMajor i)),
    StableHlo.nullary main_c_2 (constantI S28 1 0#1),
    StableHlo.binary main_arg0 main_arg1 main_v0 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.unary main_arg2 main_v1 (broadcastInDim S1x1024 ![1] bcast_S1024_S1x1024_1 : (⟨S1024, .f32⟩ : BufTy).Contents (Elt F) → (⟨S1x1024, .f32⟩ : BufTy).Contents (Elt F)),
    StableHlo.unary main_v1 main_v2 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v0 main_v2 main_v3 (addf : (⟨S8192x1024, .f32⟩ : BufTy).Contents (Elt F) → (⟨S8192x1024, .f32⟩ : BufTy).Contents (Elt F) → (⟨S8192x1024, .f32⟩ : BufTy).Contents (Elt F)),
    StableHlo.TRef.unary (.of main_v3) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S8192x1024 ![] bcast_S_S8192x1024),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S8192x1024 ![] bcast_S_S8192x1024),
    StableHlo.TRef.binary main_call0.v4 main_call0.v3 main_call0.v5 Host.divf,
    StableHlo.TRef.binary (.of main_v3) main_call0.v5 main_call0.v6 mulf,
    StableHlo.binary main_v4 main_arg3 main_v5 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.unary main_arg4 main_v6 (broadcastInDim S1x1024 ![1] bcast_S1024_S1x1024_1 : (⟨S1024, .f32⟩ : BufTy).Contents (Elt F) → (⟨S1x1024, .f32⟩ : BufTy).Contents (Elt F)),
    StableHlo.unary main_v6 main_v7 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v5 main_v7 main_v8 (addf : (⟨S8192x1024, .f32⟩ : BufTy).Contents (Elt F) → (⟨S8192x1024, .f32⟩ : BufTy).Contents (Elt F) → (⟨S8192x1024, .f32⟩ : BufTy).Contents (Elt F)),
    StableHlo.binary main_v8 main_arg5 main_v9 ((fun l r => Host.dotGeneral dot_S8192x1024_S1024x768_S8192x768_1_0_0_1_n_n none l r) : (⟨S8192x1024, .f32⟩ : BufTy).Contents (Elt F) → (⟨S1024x768, .f32⟩ : BufTy).Contents (Elt F) → (⟨S8192x768, .f32⟩ : BufTy).Contents (Elt F)),
    StableHlo.unary main_arg6 main_v10 (broadcastInDim S1x768 ![1] bcast_S768_S1x768_1 : (⟨S768, .f32⟩ : BufTy).Contents (Elt F) → (⟨S1x768, .f32⟩ : BufTy).Contents (Elt F)),
    StableHlo.unary main_v10 main_v11 (broadcastInDim S8192x768 ![0, 1] bcast_S1x768_S8192x768_0_1 : (⟨S1x768, .f32⟩ : BufTy).Contents (Elt F) → (⟨S8192x768, .f32⟩ : BufTy).Contents (Elt F)),
    StableHlo.binary main_v9 main_v11 main_v12 (addf : (⟨S8192x768, .f32⟩ : BufTy).Contents (Elt F) → (⟨S8192x768, .f32⟩ : BufTy).Contents (Elt F) → (⟨S8192x768, .f32⟩ : BufTy).Contents (Elt F)),
    StableHlo.reshape main_v12 main_v13 rfl shapeCasts_S8192x768_S8192x96x8,
    StableHlo.binary main_v8 main_arg7 main_v14 ((fun l r => Host.dotGeneral dot_S8192x1024_S1024x3456_S8192x3456_1_0_0_1_n_n none l r) : (⟨S8192x1024, .f32⟩ : BufTy).Contents (Elt F) → (⟨S1024x3456, .f32⟩ : BufTy).Contents (Elt F) → (⟨S8192x3456, .f32⟩ : BufTy).Contents (Elt F)),
    StableHlo.unary main_arg8 main_v15 (broadcastInDim S1x3456 ![1] bcast_S3456_S1x3456_1 : (⟨S3456, .f32⟩ : BufTy).Contents (Elt F) → (⟨S1x3456, .f32⟩ : BufTy).Contents (Elt F)),
    StableHlo.unary main_v15 main_v16 (broadcastInDim S8192x3456 ![0, 1] bcast_S1x3456_S8192x3456_0_1 : (⟨S1x3456, .f32⟩ : BufTy).Contents (Elt F) → (⟨S8192x3456, .f32⟩ : BufTy).Contents (Elt F)),
    StableHlo.binary main_v14 main_v16 main_v17 (addf : (⟨S8192x3456, .f32⟩ : BufTy).Contents (Elt F) → (⟨S8192x3456, .f32⟩ : BufTy).Contents (Elt F) → (⟨S8192x3456, .f32⟩ : BufTy).Contents (Elt F)),
    StableHlo.reshape main_v17 main_v18 rfl shapeCasts_S8192x3456_S8192x96x36,
    StableHlo.unary main_v18 main_v19 ((extractStridedSlice S8192x96x8 ![0, 0, 0] · slices_S8192x96x36_S8192x96x8_0_0_0) : (⟨S8192x96x36, .f32⟩ : BufTy).Contents (Elt F) → (⟨S8192x96x8, .f32⟩ : BufTy).Contents (Elt F)),
    StableHlo.unary main_v18 main_v20 ((extractStridedSlice S8192x96x28 ![0, 0, 8] · slices_S8192x96x36_S8192x96x28_0_0_8) : (⟨S8192x96x36, .f32⟩ : BufTy).Contents (Elt F) → (⟨S8192x96x28, .f32⟩ : BufTy).Contents (Elt F)),
    StableHlo.nullary main_cst (constant S_ .f32 0x3F000000#32),
    StableHlo.unary main_cst main_v21 (broadcastInDim S8192x96x8 ![] bcast_S_S8192x96x8 : (⟨S_, .f32⟩ : BufTy).Contents (Elt F) → (⟨S8192x96x8, .f32⟩ : BufTy).Contents (Elt F)),
    StableHlo.binary main_v21 main_v19 main_v22 (mulf : (⟨S8192x96x8, .f32⟩ : BufTy).Contents (Elt F) → (⟨S8192x96x8, .f32⟩ : BufTy).Contents (Elt F) → (⟨S8192x96x8, .f32⟩ : BufTy).Contents (Elt F)),
    StableHlo.unary main_v22 main_v23 (Host.exp : (⟨S8192x96x8, .f32⟩ : BufTy).Contents (Elt F) → (⟨S8192x96x8, .f32⟩ : BufTy).Contents (Elt F)),
    StableHlo.nullary main_v24 (iotaInDim S8x8 32 0),
    StableHlo.nullary main_v25 (iotaInDim S8x8 32 1),
    StableHlo.nullary main_c_3 (constantI S_ 32 0#32),
    StableHlo.unary main_c_3 main_v26 (broadcastInDim S8x8 ![] bcast_S_S8x8 : (⟨S_, .i32⟩ : BufTy).Contents (Elt F) → (⟨S8x8, .i32⟩ : BufTy).Contents (Elt F)),
    StableHlo.binary main_v24 main_v26 main_v27 (addi : (⟨S8x8, .i32⟩ : BufTy).Contents (Elt F) → (⟨S8x8, .i32⟩ : BufTy).Contents (Elt F) → (⟨S8x8, .i32⟩ : BufTy).Contents (Elt F)),
    StableHlo.binary main_v27 main_v25 main_v28 (cmpi .eq : (⟨S8x8, .i32⟩ : BufTy).Contents (Elt F) → (⟨S8x8, .i32⟩ : BufTy).Contents (Elt F) → (⟨S8x8, .i1⟩ : BufTy).Contents (Elt F)),
    StableHlo.unary main_v28 main_v29 (uitofp .f32 : (⟨S8x8, .i1⟩ : BufTy).Contents (Elt F) → (⟨S8x8, .f32⟩ : BufTy).Contents (Elt F)),
    StableHlo.unary main_v23 main_v30 (broadcastInDim S8192x96x8x1 ![0, 1, 2] bcast_S8192x96x8_S8192x96x8x1_0_1_2 : (⟨S8192x96x8, .f32⟩ : BufTy).Contents (Elt F) → (⟨S8192x96x8x1, .f32⟩ : BufTy).Contents (Elt F)),
    StableHlo.unary main_v29 main_v31 (broadcastInDim S1x1x8x8 ![2, 3] bcast_S8x8_S1x1x8x8_2_3 : (⟨S8x8, .f32⟩ : BufTy).Contents (Elt F) → (⟨S1x1x8x8, .f32⟩ : BufTy).Contents (Elt F)),
    StableHlo.unary main_v30 main_v32 (broadcastInDim S8192x96x8x8 ![0, 1, 2, 3] bcast_S8192x96x8x1_S8192x96x8x8_0_1_2_3 : (⟨S8192x96x8x1, .f32⟩ : BufTy).Contents (Elt F) → (⟨S8192x96x8x8, .f32⟩ : BufTy).Contents (Elt F)),
    StableHlo.unary main_v31 main_v33 (broadcastInDim S8192x96x8x8 ![0, 1, 2, 3] bcast_S1x1x8x8_S8192x96x8x8_0_1_2_3 : (⟨S1x1x8x8, .f32⟩ : BufTy).Contents (Elt F) → (⟨S8192x96x8x8, .f32⟩ : BufTy).Contents (Elt F)),
    StableHlo.binary main_v32 main_v33 main_v34 (mulf : (⟨S8192x96x8x8, .f32⟩ : BufTy).Contents (Elt F) → (⟨S8192x96x8x8, .f32⟩ : BufTy).Contents (Elt F) → (⟨S8192x96x8x8, .f32⟩ : BufTy).Contents (Elt F)),
    StableHlo.nullary main_cst_4 (constant S_ .f32 0x3F800000#32),
    StableHlo.unary main_cst_4 main_v35 (broadcastInDim S8192x96x8 ![] bcast_S_S8192x96x8 : (⟨S_, .f32⟩ : BufTy).Contents (Elt F) → (⟨S8192x96x8, .f32⟩ : BufTy).Contents (Elt F)),
    StableHlo.binary main_v35 main_v23 main_v36 (Host.divf : (⟨S8192x96x8, .f32⟩ : BufTy).Contents (Elt F) → (⟨S8192x96x8, .f32⟩ : BufTy).Contents (Elt F) → (⟨S8192x96x8, .f32⟩ : BufTy).Contents (Elt F)),
    StableHlo.unary main_v36 main_v37 (broadcastInDim S8192x96x8x1 ![0, 1, 2] bcast_S8192x96x8_S8192x96x8x1_0_1_2 : (⟨S8192x96x8, .f32⟩ : BufTy).Contents (Elt F) → (⟨S8192x96x8x1, .f32⟩ : BufTy).Contents (Elt F)),
    StableHlo.unary main_v29 main_v38 (broadcastInDim S8192x96x8x8 ![2, 3] bcast_S8x8_S8192x96x8x8_2_3 : (⟨S8x8, .f32⟩ : BufTy).Contents (Elt F) → (⟨S8192x96x8x8, .f32⟩ : BufTy).Contents (Elt F)),
    StableHlo.nullary main_c_5 (constantI S_ 32 8#32),
    StableHlo.unary main_c_5 main_v39 (broadcastInDim S28 ![] bcast_S_S28 : (⟨S_, .i32⟩ : BufTy).Contents (Elt F) → (⟨S28, .i32⟩ : BufTy).Contents (Elt F)),
    StableHlo.binary main_c main_v39 main_v40 (addi : (⟨S28, .i32⟩ : BufTy).Contents (Elt F) → (⟨S28, .i32⟩ : BufTy).Contents (Elt F) → (⟨S28, .i32⟩ : BufTy).Contents (Elt F)),
    StableHlo.ternary main_c_0 main_v40 main_c main_v41 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    StableHlo.nullary main_c_6 (constantI S_ 32 8#32),
    StableHlo.unary main_c_6 main_v42 (broadcastInDim S28 ![] bcast_S_S28 : (⟨S_, .i32⟩ : BufTy).Contents (Elt F) → (⟨S28, .i32⟩ : BufTy).Contents (Elt F)),
    StableHlo.binary main_c_1 main_v42 main_v43 (addi : (⟨S28, .i32⟩ : BufTy).Contents (Elt F) → (⟨S28, .i32⟩ : BufTy).Contents (Elt F) → (⟨S28, .i32⟩ : BufTy).Contents (Elt F)),
    StableHlo.ternary main_c_2 main_v43 main_c_1 main_v44 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    StableHlo.unary main_v41 main_v45 (broadcastInDim S28x1 ![0] bcast_S28_S28x1_0 : (⟨S28, .i32⟩ : BufTy).Contents (Elt F) → (⟨S28x1, .i32⟩ : BufTy).Contents (Elt F)),
    StableHlo.unary main_v44 main_v46 (broadcastInDim S28x1 ![0] bcast_S28_S28x1_0 : (⟨S28, .i32⟩ : BufTy).Contents (Elt F) → (⟨S28x1, .i32⟩ : BufTy).Contents (Elt F)),
    StableHlo.binary main_v45 main_v46 main_v47 ((fun a b => concatenate S28x2 1 [⟨S28x1, a⟩, ⟨S28x1, b⟩] concatenates_S28x1_S28x1_S28x2_d1) : (⟨S28x1, .i32⟩ : BufTy).Contents (Elt F) → (⟨S28x1, .i32⟩ : BufTy).Contents (Elt F) → (⟨S28x2, .i32⟩ : BufTy).Contents (Elt F)),
    StableHlo.ternary main_v38 main_v47 main_v20 main_v48 ((fun x i u => Host.scatter scatter_S8192x96x8x8_S28x2_S8192x96x28_01_23_23_1 (fun _ b => b) x i u) : (⟨S8192x96x8x8, .f32⟩ : BufTy).Contents (Elt F) → (⟨S28x2, .i32⟩ : BufTy).Contents (Elt F) → (⟨S8192x96x28, .f32⟩ : BufTy).Contents (Elt F) → (⟨S8192x96x8x8, .f32⟩ : BufTy).Contents (Elt F)),
    StableHlo.unary main_v37 main_v49 (broadcastInDim S8192x96x8x8 ![0, 1, 2, 3] bcast_S8192x96x8x1_S8192x96x8x8_0_1_2_3 : (⟨S8192x96x8x1, .f32⟩ : BufTy).Contents (Elt F) → (⟨S8192x96x8x8, .f32⟩ : BufTy).Contents (Elt F)),
    StableHlo.binary main_v48 main_v49 main_v50 (mulf : (⟨S8192x96x8x8, .f32⟩ : BufTy).Contents (Elt F) → (⟨S8192x96x8x8, .f32⟩ : BufTy).Contents (Elt F) → (⟨S8192x96x8x8, .f32⟩ : BufTy).Contents (Elt F)),
    StableHlo.binary main_v48 main_v50 main_v51 ((fun l r => Host.dotGeneral dot_S8192x96x8x8_S8192x96x8x8_S8192x96x8x8_2_2_3_3_01_01 none l r) : (⟨S8192x96x8x8, .f32⟩ : BufTy).Contents (Elt F) → (⟨S8192x96x8x8, .f32⟩ : BufTy).Contents (Elt F) → (⟨S8192x96x8x8, .f32⟩ : BufTy).Contents (Elt F)) ]

set_option maxRecDepth 2048 in
set_option maxHeartbeats 4000000 in
/-- @main is that straight line: the two windows and the callee unfolded, sequencing reassociated. -/
theorem main_eq (c : Dev nD) : main (F := F) c = seq ops := by
  simp only [main, main_part0, main_part1, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., unary_bufs_sub .., unary_bufs_sub .., binary_bufs_sub .., reshape_bufs_sub .., binary_bufs_sub .., unary_bufs_sub .., unary_bufs_sub .., binary_bufs_sub .., reshape_bufs_sub .., unary_bufs_sub .., unary_bufs_sub .., nullary_bufs_sub .., unary_bufs_sub .., binary_bufs_sub .., unary_bufs_sub .., nullary_bufs_sub .., nullary_bufs_sub .., nullary_bufs_sub .., unary_bufs_sub .., binary_bufs_sub .., binary_bufs_sub .., unary_bufs_sub .., unary_bufs_sub .., unary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., unary_bufs_sub .., binary_bufs_sub .., binary_bufs_sub ..⟩

/-- Every execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

section Results
variable (V : Valuation τ sig (Elt Ideal))

set_option maxHeartbeats 4000000 in
attribute [local irreducible] Host.scatter concatenate shapeCast extractStridedSlice broadcastInDim in
theorem means_eq : after (ops (F := Ideal)) V (main_v13 : DevRef τ sig)
    = rMeans (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

set_option maxHeartbeats 4000000 in
attribute [local irreducible] Host.scatter concatenate shapeCast extractStridedSlice broadcastInDim in
theorem prec_eq : after (ops (F := Ideal)) V (main_v51 : DevRef τ sig)
    = rPrec (V (main_arg0 : DevRef τ sig)) (V (main_arg1 : DevRef τ sig)) (V (main_arg2 : DevRef τ sig)) (V (main_arg3 : DevRef τ sig)) (V (main_arg4 : DevRef τ sig)) (V (main_arg7 : DevRef τ sig)) (V (main_arg8 : DevRef τ sig)) := by
  after_results_simp
  rfl

set_option maxHeartbeats 4000000 in
attribute [local irreducible] Host.scatter concatenate shapeCast extractStridedSlice broadcastInDim in
theorem d_eq : after (ops (F := Ideal)) V (main_v34 : DevRef τ sig)
    = rD (V (main_arg0 : DevRef τ sig)) (V (main_arg1 : DevRef τ sig)) (V (main_arg2 : DevRef τ sig)) (V (main_arg3 : DevRef τ sig)) (V (main_arg4 : DevRef τ sig)) (V (main_arg7 : DevRef τ sig)) (V (main_arg8 : DevRef τ sig)) := by
  after_results_simp
  rfl

set_option maxHeartbeats 4000000 in
attribute [local irreducible] Host.scatter concatenate shapeCast extractStridedSlice broadcastInDim in
theorem t_eq : after (ops (F := Ideal)) V (main_v48 : DevRef τ sig)
    = rT (V (main_arg0 : DevRef τ sig)) (V (main_arg1 : DevRef τ sig)) (V (main_arg2 : DevRef τ sig)) (V (main_arg3 : DevRef τ sig)) (V (main_arg4 : DevRef τ sig)) (V (main_arg7 : DevRef τ sig)) (V (main_arg8 : DevRef τ sig)) := by
  after_results_simp
  rfl

set_option maxHeartbeats 4000000 in
theorem arg0_eq : after (ops (F := Ideal)) V (main_arg0 : DevRef τ sig) = V (main_arg0 : DevRef τ sig) := by
  after_results_simp

set_option maxHeartbeats 4000000 in
theorem arg1_eq : after (ops (F := Ideal)) V (main_arg1 : DevRef τ sig) = V (main_arg1 : DevRef τ sig) := by
  after_results_simp

set_option maxHeartbeats 4000000 in
theorem arg2_eq : after (ops (F := Ideal)) V (main_arg2 : DevRef τ sig) = V (main_arg2 : DevRef τ sig) := by
  after_results_simp

set_option maxHeartbeats 4000000 in
theorem arg3_eq : after (ops (F := Ideal)) V (main_arg3 : DevRef τ sig) = V (main_arg3 : DevRef τ sig) := by
  after_results_simp

set_option maxHeartbeats 4000000 in
theorem arg4_eq : after (ops (F := Ideal)) V (main_arg4 : DevRef τ sig) = V (main_arg4 : DevRef τ sig) := by
  after_results_simp

set_option maxHeartbeats 4000000 in
theorem arg5_eq : after (ops (F := Ideal)) V (main_arg5 : DevRef τ sig) = V (main_arg5 : DevRef τ sig) := by
  after_results_simp

set_option maxHeartbeats 4000000 in
theorem arg6_eq : after (ops (F := Ideal)) V (main_arg6 : DevRef τ sig) = V (main_arg6 : DevRef τ sig) := by
  after_results_simp

set_option maxHeartbeats 4000000 in
theorem arg7_eq : after (ops (F := Ideal)) V (main_arg7 : DevRef τ sig) = V (main_arg7 : DevRef τ sig) := by
  after_results_simp

set_option maxHeartbeats 4000000 in
theorem arg8_eq : after (ops (F := Ideal)) V (main_arg8 : DevRef τ sig) = V (main_arg8 : DevRef τ sig) := by
  after_results_simp

end Results

/-- At the exact instance, from any memory with zero counters: every execution of @main terminates with the four
    results at the composed functions of the arguments' launch contents, and the nine arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = rMeans (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v51) = rPrec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_v34) = rD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_v48) = rT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v13).trans (means_eq _), (h c main_v51).trans (prec_eq _),
      (h c main_v34).trans (d_eq _), (h c main_v48).trans (t_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _), (h c main_arg8).trans (arg8_eq _)⟩)
    (run_main m ρ)

end Cert.ReferenceIdeal.Hand

end
-- ==== Proof.RefNet.lean ====
/-
  The reference's network on the whole batch, read at an entry: the hidden array, the two heads, the slices of the
  parameters, exp(e/2), the identity matrix and D.  jax's expansion of silu, a · (1 / (1 + exp(-a))), is a · σ(a)
  with σ the logistic function; the word of 1.0 is the number 1.
-/
import proofs.«157539_j10067403341934_1_alg».proof.Proof.RefDefs
import proofs.«157539_j10067403341934_1_alg».proof.Proof.Spec
import proofs.«157539_j10067403341934_1_alg».proof.Proof.LibRealFactor
import proofs.«157539_j10067403341934_1_alg».proof.Proof.LibGroupLayout
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.Hand

open Cert.ReferenceIdeal Idealize.ShloMosaic Idealize.ShloMosaic.ValueIdx
open Facts₀

variable [Facts]

/-- Entry (p, n) of the host's  l · r + (the bias b as every row):  Σ_k l(p, k) · r(k, n) + b(n). -/
theorem hostAffine_apply {R N : Nat} {φ₁ φ₂ : FTy} (d : DotDims ⟨2, ![R, 1024]⟩ ⟨2, ![1024, N]⟩ ⟨2, ![R, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![R, 1024]⟩ φ₁) (r : FVec Ideal ⟨2, ![1024, N]⟩ φ₂) (b : FVec Ideal ⟨1, ![N]⟩ .f32)
    (hc : (⟨1, ![N]⟩ : Shape).BroadcastsInDim ⟨2, ![1, N]⟩ ![1])
    (hb : (⟨2, ![1, N]⟩ : Shape).BroadcastsInDim ⟨2, ![R, N]⟩ ![0, 1]) (p : Fin R) (n : Fin N) :
    addf (Host.dotGeneral d none l r) (broadcastInDim ⟨2, ![R, N]⟩ ![0, 1] hb (broadcastInDim ⟨2, ![1, N]⟩ ![1] hc b)) (ix2 p n)
      = (∑ k : Fin 1024, l (ix2 p k) * r (ix2 k n)) + b (ix1 n) := by
  show Host.dotGeneral d none l r (ix2 p n)
      + broadcastInDim ⟨2, ![R, N]⟩ ![0, 1] hb (broadcastInDim ⟨2, ![1, N]⟩ ![1] hc b) (ix2 p n) = _
  rw [Cert.Fold.dotGeneral_rows d h1 h2 h3 h4 h5 h6 none l r p n, Cert.LibGroupLayout.bid_1n_rn_apply,
    Cert.LibGroupLayout.bid_n_1n_apply]

/-- jax's silu at an entry is a · σ(a). -/
theorem tSilu_apply (a : FVec Ideal S8192x1024 .f32) (i : S8192x1024.Idx) : tSilu a i = Spec.swish (a i) := by
  unfold tSilu Spec.swish Ideal.logistic
  show a i * Ideal.div (broadcastInDim S8192x1024 ![] bcast_S_S8192x1024 (constant (F := Ideal) S_ .f32 0x3F800000#32) i)
      (broadcastInDim S8192x1024 ![] bcast_S_S8192x1024 (constant (F := Ideal) S_ .f32 0x3F800000#32) i + Ideal.exp (-(a i))) = _
  rw [Cert.LibGroupLayout.bid_scalar_apply]
  show a i * Ideal.div Spec.oneW (Spec.oneW + Ideal.exp (-(a i))) = _
  rw [Spec.oneW_eq]

section Net
variable (z : FVec Ideal S8192x1024 .f32) (W1 : FVec Ideal S1024x1024 .f32) (b1 : FVec Ideal S1024 .f32)
  (W2 : FVec Ideal S1024x1024 .f32) (b2 : FVec Ideal S1024 .f32) (Wm : FVec Ideal S1024x768 .f32) (bm : FVec Ideal S768 .f32)
  (Wv : FVec Ideal S1024x3456 .f32) (bv : FVec Ideal S3456 .f32)

/-- The hidden array at (r, n) is the hidden row of batch row r at n. -/
theorem tHid_apply (r : Fin 8192) (n : Fin 1024) :
    tHid z W1 b1 W2 b2 (ix2 r n) = Spec.hid W1 b1 W2 b2 (Spec.row z r) n := by
  unfold tHid
  refine (hostAffine_apply dot_S8192x1024_S1024x1024_S8192x1024_1_0_0_1_n_n rfl rfl rfl rfl rfl rfl _ W2 b2 _ _ r n).trans ?_
  unfold Spec.hid
  refine congrArg (· + b2 (ix1 n)) (Finset.sum_congr rfl fun k _ => congrArg (· * W2 (ix2 k n)) ?_)
  rw [tSilu_apply]
  exact congrArg Spec.swish
    (hostAffine_apply dot_S8192x1024_S1024x1024_S8192x1024_1_0_0_1_n_n rfl rfl rfl rfl rfl rfl z W1 b1
      bcast_S1024_S1x1024_1 bcast_S1x1024_S8192x1024_0_1 r k)

/-- The means at (r, f, o). -/
theorem rMeans_apply (r : Fin 8192) (f : Fin 96) (o : Fin 8) :
    rMeans z W1 b1 W2 b2 Wm bm (ix3 r f o) = Spec.meanE W1 b1 W2 b2 Wm bm (Spec.row z r) f o := by
  unfold rMeans tMeans
  refine (Cert.LibGroupLayout.groupCols_apply _ _ rfl r f o ⟨f.val * 8 + o.val, by have := f.isLt; have := o.isLt; omega⟩ rfl).trans ?_
  refine (hostAffine_apply dot_S8192x1024_S1024x768_S8192x768_1_0_0_1_n_n rfl rfl rfl rfl rfl rfl _ Wm bm _ _ r _).trans ?_
  unfold Spec.meanE Spec.head
  exact congrArg (· + bm (ix1 _)) (Finset.sum_congr rfl fun n _ => congrArg (· * Wm (ix2 n _)) (tHid_apply z W1 b1 W2 b2 r n))

/-- The parameters at (r, f, q). -/
theorem rPar_apply (r : Fin 8192) (f : Fin 96) (q : Fin 36) :
    rPar z W1 b1 W2 b2 Wv bv (ix3 r f q) = Spec.parE W1 b1 W2 b2 Wv bv (Spec.row z r) f q := by
  unfold rPar tPar
  refine (Cert.LibGroupLayout.groupCols_apply _ _ rfl r f q ⟨f.val * 36 + q.val, by have := f.isLt; have := q.isLt; omega⟩ rfl).trans ?_
  refine (hostAffine_apply dot_S8192x1024_S1024x3456_S8192x3456_1_0_0_1_n_n rfl rfl rfl rfl rfl rfl _ Wv bv _ _ r _).trans ?_
  unfold Spec.parE Spec.head
  exact congrArg (· + bv (ix1 _)) (Finset.sum_congr rfl fun n _ => congrArg (· * Wv (ix2 n _)) (tHid_apply z W1 b1 W2 b2 r n))

/-- The log-variances at (r, f, o). -/
theorem rLv_apply (r : Fin 8192) (f : Fin 96) (o : Fin 8) :
    tLv (rPar z W1 b1 W2 b2 Wv bv) (ix3 r f o) = Spec.lvE W1 b1 W2 b2 Wv bv (Spec.row z r) f o := by
  unfold tLv
  refine (Cert.LibGroupLayout.sliceLast3_apply 0 _ _ r f o ⟨o.val, by have := o.isLt; omega⟩ (by show o.val = 0 + o.val; omega)).trans ?_
  exact rPar_apply z W1 b1 W2 b2 Wv bv r f _

/-- The triangle parameters at (r, f, n). -/
theorem rUt_apply (r : Fin 8192) (f : Fin 96) (n : Fin 28) :
    tUt (rPar z W1 b1 W2 b2 Wv bv) (ix3 r f n) = Spec.utE W1 b1 W2 b2 Wv bv (Spec.row z r) f n := by
  unfold tUt
  refine (Cert.LibGroupLayout.sliceLast3_apply 8 _ _ r f n ⟨8 + n.val, by have := n.isLt; omega⟩ rfl).trans ?_
  exact rPar_apply z W1 b1 W2 b2 Wv bv r f _

end Net

/-- exp(e/2) at an entry. -/
theorem tStd_apply (e : FVec Ideal S8192x96x8 .f32) (i : S8192x96x8.Idx) : tStd e i = Ideal.exp (Spec.halfW * e i) := by
  unfold tStd
  show Ideal.exp (broadcastInDim S8192x96x8 ![] bcast_S_S8192x96x8 (constant (F := Ideal) S_ .f32 0x3F000000#32) i * e i) = _
  rw [Cert.LibGroupLayout.bid_scalar_apply]
  rfl

/-- jnp.eye at (i, k). -/
theorem tEye_apply (i k : Fin 8) : tEye (ix2 i k) = Spec.eye i k := by
  unfold tEye Spec.eye
  rw [← Cert.LibGroupLayout.eq_words_float i k]
  show ((((IntOp.cmpi .eq (IntOp.addi (iotaInDim S8x8 32 0 (ix2 i k)) (broadcastInDim S8x8 ![] bcast_S_S8x8 (constantI S_ 32 0#32) (ix2 i k)))
      (iotaInDim S8x8 32 1 (ix2 i k))).toNat : ℝ)) : EReal) = _
  rw [Cert.LibGroupLayout.bid_scalar_apply, iotaInDim_apply, iotaInDim_apply]
  show ((((IntOp.cmpi .eq (BitVec.ofNat 32 i.val + 0#32) (BitVec.ofNat 32 k.val)).toNat : ℝ)) : EReal) = _
  rw [BitVec.add_zero]

/-- An [8192, 96, 8] array as the columns of [8192, 96, 8, 8]. -/
theorem colRep_apply (x : FVec Ideal S8192x96x8 .f32) (b : Fin 8192) (f : Fin 96) (i k : Fin 8) :
    colRep x (ix4 b f i k) = x (ix3 b f i) := by
  show broadcastInDim S8192x96x8x8 ![0, 1, 2, 3] _ (broadcastInDim S8192x96x8x1 ![0, 1, 2] _ x) (ix4 b f i k) = _
  rw [Cert.LibGroupLayout.bid_abc1_abcd_apply, Cert.LibGroupLayout.bid_abc_abc1_apply]

/-- D at (b, f, i, k) from the array d of exp(e/2). -/
theorem tD_apply (d : FVec Ideal S8192x96x8 .f32) (b : Fin 8192) (f : Fin 96) (i k : Fin 8) :
    tD d (ix4 b f i k) = d (ix3 b f i) * Spec.eye i k := by
  unfold tD
  show colRep d (ix4 b f i k) * broadcastInDim S8192x96x8x8 ![0, 1, 2, 3] _ (broadcastInDim S1x1x8x8 ![2, 3] _ tEye) (ix4 b f i k) = _
  rw [colRep_apply, Cert.LibGroupLayout.bid_11cd_abcd_apply, Cert.LibGroupLayout.bid_cd_11cd_apply, tEye_apply]

end Cert.ReferenceIdeal.Hand

end
-- ==== Proof.RefTri.lean ====
/-
  The reference's scatter read at an entry.

  T is built by overwriting, in every group's 8 x 8 identity, the 28 places of the strict upper triangle with the
  group's 28 parameters: update (b, f, n) goes to entry (b, f, row n, column n), where (row n, column n) runs through
  the strict upper triangle row by row.  The scatter is a left fold, over all updates in row-major order, of a step
  that overwrites the entry the update lands on.  Two facts about such a fold, for any dimension numbers: an entry no
  update lands on keeps the operand's value; an entry exactly one update lands on holds that update.  For this
  scatter the places are pairwise distinct, so entry (b, f, i, k) with i < k holds update (b, f, tri i k) and every
  other entry holds the operand's.
-/
import proofs.«157539_j10067403341934_1_alg».proof.Proof.RefDefs
import proofs.«157539_j10067403341934_1_alg».proof.Proof.Spec
import Idealize.ShloMosaic.Lib.ValueIdx
import Idealize.ShloMosaic.Lib.ValueLayout
import Idealize.ShloMosaic.Lib.Pipeline.Value

noncomputable section

namespace Cert.ReferenceIdeal.Hand

open Cert.ReferenceIdeal Idealize.ShloMosaic Idealize.ShloMosaic.ValueIdx
open Facts₀

variable [Facts]

namespace RefTri

/-! ## The fold of overwriting steps, for any dimension numbers -/

section Fold
variable {s si u : Shape} {α : Type} {w : Nat} (d : ScatterDims s si u) (f : α → α → α) (idx : IVec si w) (upd : u.Idx → α)

/-- The scatter's step for update number n on the running result r. -/
def scStep (r : s.Idx → α) (n : Fin u.numel) : s.Idx → α :=
  match d.resultIdx? (u.rowMajor.symm n) idx with
  | some i => fun i' => if i' = i then f (r i) (upd (u.rowMajor.symm n)) else r i'
  | none => r

theorem scatter_eq_fold (x : s.Idx → α) :
    Host.scatter d f x idx upd = (List.finRange u.numel).foldl (scStep d f idx upd) x := rfl

/-- Away from the entry the update lands on, a step changes nothing. -/
theorem scStep_other (r : s.Idx → α) (n : Fin u.numel) (i : s.Idx)
    (h : d.resultIdx? (u.rowMajor.symm n) idx ≠ some i) : scStep d f idx upd r n i = r i := by
  unfold scStep
  generalize d.resultIdx? (u.rowMajor.symm n) idx = o at h
  cases o with
  | none => rfl
  | some i0 => exact if_neg fun c => h (congrArg some c.symm)

/-- At the entry the update lands on, a step puts the body's value. -/
theorem scStep_at (r : s.Idx → α) (n : Fin u.numel) (i : s.Idx)
    (h : d.resultIdx? (u.rowMajor.symm n) idx = some i) :
    scStep d f idx upd r n i = f (r i) (upd (u.rowMajor.symm n)) := by
  unfold scStep
  rw [h]
  exact if_pos rfl

/-- Updates that all land elsewhere leave an entry as it was. -/
theorem fold_untouched (L : List (Fin u.numel)) (r : s.Idx → α) (i : s.Idx)
    (h : ∀ n ∈ L, d.resultIdx? (u.rowMajor.symm n) idx ≠ some i) :
    L.foldl (scStep d f idx upd) r i = r i := by
  induction L generalizing r with
  | nil => rfl
  | cons m L ih =>
    rw [List.foldl_cons, ih _ fun n hn => h n (List.mem_cons_of_mem _ hn)]
    exact scStep_other d f idx upd r m i (h m List.mem_cons_self)

/-- With the overwriting body: if, in a list without repetition, update n is the only one that lands on entry i,
    the entry holds update n after the fold. -/
theorem fold_single (L : List (Fin u.numel)) (hL : L.Nodup) (n : Fin u.numel) (hn : n ∈ L) (r : s.Idx → α) (i : s.Idx)
    (hland : d.resultIdx? (u.rowMajor.symm n) idx = some i)
    (honly : ∀ m ∈ L, d.resultIdx? (u.rowMajor.symm m) idx = some i → m = n) :
    L.foldl (scStep d (fun _ b => b) idx upd) r i = upd (u.rowMajor.symm n) := by
  induction L generalizing r with
  | nil => cases hn
  | cons m L ih =>
    rw [List.foldl_cons]
    have hnd := List.nodup_cons.mp hL
    by_cases hm : m = n
    · subst hm
      rw [fold_untouched d _ idx upd L _ i]
      · exact scStep_at d _ idx upd r m i hland
      · intro k hk hk'
        have : k = m := honly k (List.mem_cons_of_mem _ hk) hk'
        exact hnd.1 (this ▸ hk)
    · have hn' : n ∈ L := by
        rcases List.mem_cons.mp hn with e | e
        · exact absurd e.symm hm
        · exact e
      exact ih hnd.2 hn' _ fun k hk => honly k (List.mem_cons_of_mem _ hk)

end Fold

/-- An update lands on entry i exactly when, on every axis, start plus window coordinate is i's coordinate. -/
theorem lands_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  by_cases hin : ∀ a, 0 ≤ d.start j idx a + d.window j a ∧ d.start j idx a + d.window j a < s.size a
  · rw [dif_pos hin]
    constructor
    · intro e a
      have e' := congrFun (Option.some.inj e) a
      have h0 := (hin a).1
      rw [← e']
      exact (Int.toNat_of_nonneg h0).symm
    · intro e
      refine congrArg some (funext fun a => Fin.ext ?_)
      show (d.start j idx a + d.window j a).toNat = (i a).val
      rw [e a, Int.toNat_natCast]
  · rw [dif_neg hin]
    constructor
    · intro e; cases e
    · intro e
      refine absurd (fun a => ?_) hin
      rw [e a]
      exact ⟨Int.natCast_nonneg _, Int.ofNat_lt.mpr (i a).isLt⟩

/-! ## This scatter's starts and window coordinates -/

section Tri
variable (idx : IVec S28x2 32) (j : S8192x96x28.Idx)

local notation "dT" => scatter_S8192x96x8x8_S28x2_S8192x96x28_01_23_23_1

theorem tri_start0 : (dT).start j idx 0 = 0 := by
  unfold ScatterDims.start
  exact dif_neg (show (0 : Fin 4) ∉ ([2, 3] : List (Fin 4)) by decide)

theorem tri_start1 : (dT).start j idx 1 = 0 := by
  unfold ScatterDims.start
  exact dif_neg (show (1 : Fin 4) ∉ ([2, 3] : List (Fin 4)) by decide)

theorem tri_start2 : (dT).start j idx 2 = (idx (ix2 (j 2) 0)).toInt := by
  unfold ScatterDims.start
  refine (dif_pos (show (2 : Fin 4) ∈ ([2, 3] : List (Fin 4)) by decide)).trans ?_
  refine congrArg (fun z => (idx z).toInt) ?_
  funext b
  match b with
  | ⟨0, _⟩ => rfl
  | ⟨1, _⟩ => rfl

theorem tri_start3 : (dT).start j idx 3 = (idx (ix2 (j 2) 1)).toInt := by
  unfold ScatterDims.start
  refine (dif_pos (show (3 : Fin 4) ∈ ([2, 3] : List (Fin 4)) by decide)).trans ?_
  refine congrArg (fun z => (idx z).toInt) ?_
  funext b
  match b with
  | ⟨0, _⟩ => rfl
  | ⟨1, _⟩ => rfl

theorem tri_window0 : (dT).window j 0 = (j 0).val := rfl
theorem tri_window1 : (dT).window j 1 = (j 1).val := rfl
theorem tri_window2 : (dT).window j 2 = 0 := rfl
theorem tri_window3 : (dT).window j 3 = 0 := rfl

end Tri

section TriAxes
variable (idx : IVec S28x2 32) (j : S8192x96x28.Idx)

local notation "dT" => scatter_S8192x96x8x8_S28x2_S8192x96x28_01_23_23_1

/-- Start plus window coordinate on each of the operand's four axes: the update's first two coordinates on axes 0 and 1,
    the two words of its index pair on axes 2 and 3. -/
theorem tri_axis0 : (dT).start j idx 0 + (((dT).window j 0 : Nat) : Int) = ((j 0).val : Int) := by
  rw [tri_start0, tri_window0, zero_add]

theorem tri_axis1 : (dT).start j idx 1 + (((dT).window j 1 : Nat) : Int) = ((j 1).val : Int) := by
  rw [tri_start1, tri_window1, zero_add]

theorem tri_axis2 : (dT).start j idx 2 + (((dT).window j 2 : Nat) : Int) = (idx (ix2 (j 2) 0)).toInt := by
  rw [tri_start2, tri_window2, Nat.cast_zero, add_zero]

theorem tri_axis3 : (dT).start j idx 3 + (((dT).window j 3 : Nat) : Int) = (idx (ix2 (j 2) 1)).toInt := by
  rw [tri_start3, tri_window3, Nat.cast_zero, add_zero]

end TriAxes

/-! ## The index array: its two columns are the two tables -/

theorem tIdx_col0 (n : Fin 28) : tIdx (ix2 n 0) = lit0 n := by
  unfold tIdx
  refine (concatenate_pair_apply_left 1 _ _ concatenates_S28x1_S28x1_S28x2_d1 (ix2 n 0) rfl (ix2 n 0) ?_).trans ?_
  · intro b
    match b with
    | ⟨0, _⟩ => rfl
    | ⟨1, _⟩ => rfl
  refine (broadcastInDim_apply ![0] bcast_S28_S28x1_0 _ (ix2 n 0) (ix1 n) ?_).trans ?_
  · intro a
    match a with
    | ⟨0, _⟩ => rfl
  refine (select_zero _ _).trans ?_
  refine congrArg lit0 (Fin.ext ?_)
  exact Shape.rowMajor_val_one _

theorem tIdx_col1 (n : Fin 28) : tIdx (ix2 n 1) = lit1 n := by
  unfold tIdx
  refine (concatenate_pair_apply_right 1 _ _ concatenates_S28x1_S28x1_S28x2_d1 (ix2 n 1) rfl rfl (ix2 n 0) ?_ ?_).trans ?_
  · intro b hb
    match b with
    | ⟨0, _⟩ => rfl
    | ⟨1, _⟩ => exact absurd rfl hb
  · rfl
  refine (broadcastInDim_apply ![0] bcast_S28_S28x1_0 _ (ix2 n 0) (ix1 n) ?_).trans ?_
  · intro a
    match a with
    | ⟨0, _⟩ => rfl
  refine (select_zero _ _).trans ?_
  refine congrArg lit1 (Fin.ext ?_)
  exact Shape.rowMajor_val_one _

/-! ## The 28 places: the strict upper triangle, row by row -/

/-- Every place has its row before its column. -/
theorem place_lt : ∀ n : Fin 28, (lit0 n).toInt < (lit1 n).toInt := by decide

/-- Place tri i k is (i, k). -/
theorem place_tri : ∀ (i k : Fin 8) (h : i.val < k.val),
    (lit0 (Spec.tri i k h)).toInt = (i.val : Int) ∧ (lit1 (Spec.tri i k h)).toInt = (k.val : Int) := by decide

/-- Two places with the same row and column are the same place. -/
theorem place_inj : ∀ n m : Fin 28, (lit0 n).toInt = (lit0 m).toInt → (lit1 n).toInt = (lit1 m).toInt → n = m := by decide

local notation "dT" => scatter_S8192x96x8x8_S28x2_S8192x96x28_01_23_23_1

/-- Update j lands on entry (b, f, i, k) exactly when its first two coordinates are b and f and its place is (i, k). -/
theorem tri_lands (j : S8192x96x28.Idx) (b : Fin 8192) (f : Fin 96) (i k : Fin 8) :
    (dT).resultIdx? j tIdx = some (ix4 b f i k) ↔
      j 0 = b ∧ j 1 = f ∧ (lit0 (j 2)).toInt = (i.val : Int) ∧ (lit1 (j 2)).toInt = (k.val : Int) := by
  rw [lands_iff]
  constructor
  · intro h
    have h0 : ((j 0).val : Int) = (b.val : Int) := (tri_axis0 tIdx j).symm.trans (h 0)
    have h1 : ((j 1).val : Int) = (f.val : Int) := (tri_axis1 tIdx j).symm.trans (h 1)
    have h2 : (lit0 (j 2)).toInt = (i.val : Int) :=
      (congrArg BitVec.toInt (tIdx_col0 (j 2))).symm.trans ((tri_axis2 tIdx j).symm.trans (h 2))
    have h3 : (lit1 (j 2)).toInt = (k.val : Int) :=
      (congrArg BitVec.toInt (tIdx_col1 (j 2))).symm.trans ((tri_axis3 tIdx j).symm.trans (h 3))
    exact ⟨Fin.ext (Int.ofNat_inj.mp h0), Fin.ext (Int.ofNat_inj.mp h1), h2, h3⟩
  · rintro ⟨e0, e1, e2, e3⟩ a
    match a with
    | ⟨0, _⟩ => exact (tri_axis0 tIdx j).trans (congrArg (fun z : Fin 8192 => (z.val : Int)) e0)
    | ⟨1, _⟩ => exact (tri_axis1 tIdx j).trans (congrArg (fun z : Fin 96 => (z.val : Int)) e1)
    | ⟨2, _⟩ => exact ((tri_axis2 tIdx j).trans (congrArg BitVec.toInt (tIdx_col0 (j 2)))).trans e2
    | ⟨3, _⟩ => exact ((tri_axis3 tIdx j).trans (congrArg BitVec.toInt (tIdx_col1 (j 2)))).trans e3

end RefTri

open RefTri

/-! ## The scatter at an entry -/

/-- Entry (b, f, i, k) of the scatter: above the diagonal the group's parameter at place tri i k, elsewhere the
    operand's entry. -/
theorem scatter_tri (x : FVec Ideal S8192x96x8x8 .f32) (u : FVec Ideal S8192x96x28 .f32) (b : Fin 8192) (f : Fin 96) (i k : Fin 8) :
    Host.scatter scatter_S8192x96x8x8_S28x2_S8192x96x28_01_23_23_1 (fun _ v => v) x tIdx u (ix4 b f i k)
      = if h : i.val < k.val then u (ix3 b f (Spec.tri i k h)) else x (ix4 b f i k) := by
  rw [scatter_eq_fold]
  by_cases h : i.val < k.val
  · rw [dif_pos h]
    have hp := place_tri i k h
    -- the number, in row-major order, of update (b, f, tri i k)
    have hback : S8192x96x28.rowMajor.symm (S8192x96x28.rowMajor (ix3 b f (Spec.tri i k h))) = ix3 b f (Spec.tri i k h) :=
      Equiv.symm_apply_apply _ _
    refine (fold_single scatter_S8192x96x8x8_S28x2_S8192x96x28_01_23_23_1 tIdx u _ (List.nodup_finRange _) (S8192x96x28.rowMajor (ix3 b f (Spec.tri i k h)))
      (List.mem_finRange _) x (ix4 b f i k) ?_ ?_).trans (congrArg u hback)
    · rw [hback]
      exact (tri_lands _ b f i k).mpr ⟨rfl, rfl, hp.1, hp.2⟩
    · -- any update that lands on the entry has the same three coordinates
      intro m _ hm
      obtain ⟨e0, e1, e2, e3⟩ := (tri_lands _ b f i k).mp hm
      have e : S8192x96x28.rowMajor.symm m 2 = Spec.tri i k h :=
        place_inj _ _ (e2.trans hp.1.symm) (e3.trans hp.2.symm)
      have hm3 : S8192x96x28.rowMajor.symm m = ix3 b f (Spec.tri i k h) := by
        refine (eq_ix3 _).trans ?_
        rw [e0, e1, e]
        rfl
      exact (Equiv.symm_apply_eq _).mp hm3
  · rw [dif_neg h]
    refine fold_untouched scatter_S8192x96x8x8_S28x2_S8192x96x28_01_23_23_1 _ tIdx u _ x (ix4 b f i k) fun m _ hm => ?_
    obtain ⟨_, _, e2, e3⟩ := (tri_lands _ b f i k).mp hm
    have hlt := place_lt (S8192x96x28.rowMajor.symm m 2)
    rw [e2, e3] at hlt
    exact h (Int.ofNat_lt.mp hlt)

end Cert.ReferenceIdeal.Hand

end
-- ==== Proof.RefOut.lean ====
/-
  The reference's four results are the four arrays of the specification: the means and D entry by entry from the
  network read at an entry; T from the scatter (an entry above the diagonal holds its parameter, every other entry
  the identity's); the precision from the batched product  Σ_j T(j, i) · (T(j, k) · (1 / exp(e_j / 2)))  and the law
  1 / exp(x/2) = exp(-x/2).
-/
import proofs.«157539_j10067403341934_1_alg».proof.Proof.RefNet
import proofs.«157539_j10067403341934_1_alg».proof.Proof.RefTri

noncomputable section

namespace Cert.ReferenceIdeal.Hand

open Cert.ReferenceIdeal Idealize.ShloMosaic Idealize.ShloMosaic.ValueIdx
open Facts₀

variable [Facts]

/-- A batched product of [A, B, C, C] arrays contracting both third axes: at (a, b, i, k) the sum over the
    contraction index is  Σ_j l(a, b, j, i) · r(a, b, j, k). -/
theorem contr_sum_groups {A B C : Nat} (d : DotDims ⟨4, ![A, B, C, C]⟩ ⟨4, ![A, B, C, C]⟩ ⟨4, ![A, B, C, C]⟩)
    (h1 : d.lhsContracting = [2]) (h2 : d.rhsContracting = [2]) (h3 : d.lhsNonContracting = [3])
    (h4 : d.rhsNonContracting = [3]) (h5 : d.lhsBatch = [0, 1]) (h6 : d.rhsBatch = [0, 1])
    (l r : (⟨4, ![A, B, C, C]⟩ : Shape).Idx → EReal) (a : Fin A) (b : Fin B) (i k : Fin C) :
    ∑ q : d.contr.Idx, l (d.lhsIdx (ix4 a b i k) q) * r (d.rhsIdx (ix4 a b i k) q)
      = ∑ j : Fin C, l (ix4 a b j i) * r (ix4 a b j k) := by
  obtain ⟨lc, rc, ln, rn, lb, rb, wf⟩ := d
  simp only at h1 h2 h3 h4 h5 h6
  subst h1 h2 h3 h4 h5 h6
  rw [← Equiv.sum_comp (contrEquiv1 (⟨[2], [2], [3], [3], [0, 1], [0, 1], wf⟩ :
    DotDims ⟨4, ![A, B, C, C]⟩ ⟨4, ![A, B, C, C]⟩ ⟨4, ![A, B, C, C]⟩) C rfl rfl).symm]
  refine Finset.sum_congr rfl fun j _ => ?_
  congr 1
  · refine congrArg l ?_
    funext ax
    match ax with
    | ⟨0, _⟩ => exact Fin.ext rfl
    | ⟨1, _⟩ => exact Fin.ext rfl
    | ⟨2, _⟩ => exact Fin.ext rfl
    | ⟨3, _⟩ => exact Fin.ext rfl
  · refine congrArg r ?_
    funext ax
    match ax with
    | ⟨0, _⟩ => exact Fin.ext rfl
    | ⟨1, _⟩ => exact Fin.ext rfl
    | ⟨2, _⟩ => exact Fin.ext rfl
    | ⟨3, _⟩ => exact Fin.ext rfl

/-- The precision at (b, f, i, k) from T and the array d of exp(e/2). -/
theorem tPrec_apply (T : FVec Ideal S8192x96x8x8 .f32) (d : FVec Ideal S8192x96x8 .f32) (b : Fin 8192) (f : Fin 96) (i k : Fin 8) :
    tPrec T d (ix4 b f i k)
      = ∑ j : Fin 8, T (ix4 b f j i) * (T (ix4 b f j k) * Ideal.div Spec.oneW (d (ix3 b f j))) := by
  unfold tPrec Host.dotGeneral
  rw [Ideal.dotGeneral_apply]
  refine (contr_sum_groups dot_S8192x96x8x8_S8192x96x8x8_S8192x96x8x8_2_2_3_3_01_01 rfl rfl rfl rfl rfl rfl T _ b f i k).trans ?_
  refine Finset.sum_congr rfl fun j _ => congrArg (T (ix4 b f j i) * ·) ?_
  show T (ix4 b f j k) * colRep _ (ix4 b f j k) = _
  rw [colRep_apply]
  show T (ix4 b f j k) * Ideal.div (broadcastInDim S8192x96x8 ![] bcast_S_S8192x96x8 (constant (F := Ideal) S_ .f32 0x3F800000#32) (ix3 b f j)) (d (ix3 b f j)) = _
  rw [Cert.LibGroupLayout.bid_scalar_apply]
  rfl

section Results
variable (z : FVec Ideal S8192x1024 .f32) (W1 : FVec Ideal S1024x1024 .f32) (b1 : FVec Ideal S1024 .f32)
  (W2 : FVec Ideal S1024x1024 .f32) (b2 : FVec Ideal S1024 .f32) (Wm : FVec Ideal S1024x768 .f32) (bm : FVec Ideal S768 .f32)
  (Wv : FVec Ideal S1024x3456 .f32) (bv : FVec Ideal S3456 .f32)

/-- D at (b, f, i, k). -/
theorem rD_apply (b : Fin 8192) (f : Fin 96) (i k : Fin 8) :
    rD z W1 b1 W2 b2 Wv bv (ix4 b f i k) = Spec.DE W1 b1 W2 b2 Wv bv (Spec.row z b) f i k := by
  unfold rD
  rw [tD_apply, tStd_apply, rLv_apply]
  rfl

/-- T at (b, f, i, k). -/
theorem rT_apply (b : Fin 8192) (f : Fin 96) (i k : Fin 8) :
    rT z W1 b1 W2 b2 Wv bv (ix4 b f i k) = Spec.TE W1 b1 W2 b2 Wv bv (Spec.row z b) f i k := by
  unfold rT tT
  rw [scatter_tri]
  unfold Spec.TE Spec.Tent
  split
  · exact rUt_apply z W1 b1 W2 b2 Wv bv b f _
  · rw [Cert.LibGroupLayout.bid_cd_abcd_apply, tEye_apply]
    rfl

/-- The precision at (b, f, i, k). -/
theorem rPrec_apply (b : Fin 8192) (f : Fin 96) (i k : Fin 8) :
    rPrec z W1 b1 W2 b2 Wv bv (ix4 b f i k) = Spec.PE W1 b1 W2 b2 Wv bv (Spec.row z b) f i k := by
  unfold rPrec
  rw [tPrec_apply]
  unfold Spec.PE Spec.Pent
  refine Finset.sum_congr rfl fun j _ => ?_
  rw [rT_apply, rT_apply, tStd_apply, rLv_apply, Spec.inv_exp_half]

/-! ## The four arrays -/

theorem rMeans_eq : rMeans z W1 b1 W2 b2 Wm bm = Spec.meansA z W1 b1 W2 b2 Wm bm := by
  funext i
  rw [eq_ix3 i]
  exact rMeans_apply z W1 b1 W2 b2 Wm bm _ _ _

theorem rPrec_eq : rPrec z W1 b1 W2 b2 Wv bv = Spec.precA z W1 b1 W2 b2 Wv bv := by
  funext i
  rw [eq_ix4 i]
  exact rPrec_apply z W1 b1 W2 b2 Wv bv _ _ _ _

theorem rD_eq : rD z W1 b1 W2 b2 Wv bv = Spec.DA z W1 b1 W2 b2 Wv bv := by
  funext i
  rw [eq_ix4 i]
  exact rD_apply z W1 b1 W2 b2 Wv bv _ _ _ _

theorem rT_eq : rT z W1 b1 W2 b2 Wv bv = Spec.TA z W1 b1 W2 b2 Wv bv := by
  funext i
  rw [eq_ix4 i]
  exact rT_apply z W1 b1 W2 b2 Wv bv _ _ _ _

end Results

end Cert.ReferenceIdeal.Hand

end
-- ==== Proof.lean ====
/-
  A Pallas kernel for a multivariate-normal head against its jnp reference, equal over the extended reals.

  Both programs push every input row through the same two-layer network (matrix product, bias, a · σ(a), matrix
  product, bias), read 96 groups of 8 means and 96 groups of 36 parameters off two linear heads, and build per group
  D = diag(exp(e/2)), the unit upper triangular T and the precision Tᵀ · diag(exp(-e/2)) · T.  The kernel works on
  blocks of 64 rows, builds T by laying zeros, a one and a stretch of the parameters side by side, and sums the eight
  outer products one after the other; the reference works on the whole batch, builds T by overwriting the identity
  above the diagonal, and takes the precision as one batched product with 1 / exp(e/2).  Row by row the two are the
  same function (Spec.lean): sums of extended reals do not depend on their order, a change of float format is the
  identity, and exp(-x/2) = 1 / exp(x/2) at every extended real, the infinities included.  No finiteness of the
  inputs is used.
-/
import proofs.«157539_j10067403341934_1_alg».proof.Defs
import proofs.«157539_j10067403341934_1_alg».proof.Proof.Gen.Kernel
import proofs.«157539_j10067403341934_1_alg».proof.Proof.Gen.Kernel.Skeleton
import proofs.«157539_j10067403341934_1_alg».proof.Proof.Gen.Kernel.Launch
import proofs.«157539_j10067403341934_1_alg».proof.Proof.Gen.Kernel.Points
import proofs.«157539_j10067403341934_1_alg».proof.Proof.Gen.Kernel.Frame
import proofs.«157539_j10067403341934_1_alg».proof.Proof.Gen.KernelIdeal
import proofs.«157539_j10067403341934_1_alg».proof.Proof.Gen.KernelIdeal.Skeleton
import proofs.«157539_j10067403341934_1_alg».proof.Proof.Gen.KernelIdeal.Launch
import proofs.«157539_j10067403341934_1_alg».proof.Proof.Gen.KernelIdeal.Points
import proofs.«157539_j10067403341934_1_alg».proof.Proof.Gen.KernelIdeal.Frame
import proofs.«157539_j10067403341934_1_alg».proof.Proof.Gen.ReferenceIdeal
import proofs.«157539_j10067403341934_1_alg».proof.Proof.Gen.Pre_finite_inputs
import proofs.«157539_j10067403341934_1_alg».proof.Proof.KerBlocks
import proofs.«157539_j10067403341934_1_alg».proof.Proof.RefRun
import proofs.«157539_j10067403341934_1_alg».proof.Proof.RefOut
import Idealize.ShloMosaic.Adequacy
import Idealize.ShloMosaic.Init

noncomputable section

namespace Cert.Proof

open Idealize.ShloMosaic Idealize.ShloMosaic.TcCoe Idealize.SL.Sem

/-- The kernel at the word level runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The kernel over the extended reals runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the four results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Hand.run m ρ)

/-- Both runs end with the four arrays of the specification, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, Cert.KernelIdeal.Hand.run m ρ, ?_⟩
  refine (θ_run Cert.ReferenceIdeal.defs _ _).mono (fun r h c => ?_) (Cert.ReferenceIdeal.Hand.run m' ρ')
  obtain ⟨h0, h1, h2, h3, hargs⟩ := h c
  obtain ⟨e0, e1, e2, e3, e4, e5, e6, e7, e8⟩ := hagree c
  refine ⟨?_, ?_, ?_, ?_, hargs⟩
  · rw [h0, Cert.ReferenceIdeal.Hand.rMeans_eq, e0, e1, e2, e3, e4, e5, e6]
  · rw [h1, Cert.ReferenceIdeal.Hand.rPrec_eq, e0, e1, e2, e3, e4, e7, e8]
  · rw [h2, Cert.ReferenceIdeal.Hand.rD_eq, e0, e1, e2, e3, e4, e7, e8]
  · rw [h3, Cert.ReferenceIdeal.Hand.rT_eq, e0, e1, e2, e3, e4, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
